-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S100000x256 : Shape := ⟨2, ![100000, 256]⟩
abbrev S3 : Shape := ⟨1, ![3]⟩
abbrev S_ : Shape := ⟨0, ![]⟩
abbrev S2x3 : Shape := ⟨2, ![2, 3]⟩
abbrev S32x256 : Shape := ⟨2, ![32, 256]⟩
abbrev S512x64 : Shape := ⟨2, ![512, 64]⟩
abbrev S64 : Shape := ⟨1, ![64]⟩
abbrev S64x2 : Shape := ⟨2, ![64, 2]⟩
abbrev S2 : Shape := ⟨1, ![2]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3 : S_.BroadcastsInDim S3 (![] : Fin 0 → Fin S3.rank)
  reducesTo_S3_S_d0 : S3.ReducesTo [0] S_
  reducesTo_S_S_d : S_.ReducesTo [] S_
  bcast_S_S2x3 : S_.BroadcastsInDim S2x3 (![] : Fin 0 → Fin S2x3.rank)
  reducesTo_S2x3_S_d0_1 : S2x3.ReducesTo [0, 1] S_
  bcast_S_S32x256 : S_.BroadcastsInDim S32x256 (![] : Fin 0 → Fin S32x256.rank)
  reducesTo_S32x256_S_d0_1 : S32x256.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2048x32 : S_.BroadcastsInDim S2048x32 (![] : Fin 0 → Fin S2048x32.rank)
  reducesTo_S2048x32_S_d0_1 : S2048x32.ReducesTo [0, 1] S_

variable [Facts]

def fn_part4 {F : FTy → Type} [FloatOps F] (main_arg1 : IVec S2048x32 32) (main_v60 : IVec S_ 1) (main_v66 : IVec S_ 1) : IVec S_ 1 :=
  let main_v67 : IVec S_ 1 := andi main_v60 main_v66
  let main_c_27 : IVec S_ 32 := constantI S_ 32 4294867296#32
  let main_v68 : IVec S2048x32 32 := broadcastInDim S2048x32 ![] bcast_S_S2048x32 main_c_27
  let main_v69 : IVec S2048x32 1 := cmpi .sge main_arg1 main_v68
  let main_c_28 : IVec S_ 32 := constantI S_ 32 100000#32
  let main_v70 : IVec S2048x32 32 := broadcastInDim S2048x32 ![] bcast_S_S2048x32 main_c_28
  let main_v71 : IVec S2048x32 1 := cmpi .slt main_arg1 main_v70
  let main_v72 : IVec S2048x32 1 := andi main_v69 main_v71
  let main_c_29 : IVec S_ 1 := constantI S_ 1 1#1
  let main_v73 : IVec S_ 1 := (fun x v => Host.reduce IntOp.andi x v reducesTo_S2048x32_S_d0_1 h_S_) main_v72 main_c_29
  let main_v74 : IVec S_ 1 := andi main_v67 main_v73
  main_v74

def fn_part3 {F : FTy → Type} [FloatOps F] (main_arg0 : IVec S2048x32 32) (main_arg1 : IVec S2048x32 32) (main_arg13 : FVec F S64x2 .f32) (main_arg14 : FVec F S2 .f32) (main_v45 : IVec S_ 1) (main_v49 : IVec S_ 1) : IVec S_ 1 :=
  let main_v50 : IVec S_ 1 := andi main_v45 main_v49
  let main_v51 : FVec F S64x2 .f32 := Host.absf main_arg13
  let main_cst_20 : FVec F S_ .f32 := constant S_ .f32 0x7F800000#32
  let main_v52 : FVec F S64x2 .f32 := broadcastInDim S64x2 ![] bcast_S_S64x2 main_cst_20
  let main_v53 : IVec S64x2 1 := cmpf .olt main_v51 main_v52
  let main_c_21 : IVec S_ 1 := constantI S_ 1 1#1
  let main_v54 : IVec S_ 1 := (fun x v => Host.reduce IntOp.andi x v reducesTo_S64x2_S_d0_1 h_S_) main_v53 main_c_21
  let main_v55 : IVec S_ 1 := andi main_v50 main_v54
  let main_v56 : FVec F S2 .f32 := Host.absf main_arg14
  let main_cst_22 : FVec F S_ .f32 := constant S_ .f32 0x7F800000#32
  let main_v57 : FVec F S2 .f32 := broadcastInDim S2 ![] bcast_S_S2 main_cst_22
  let main_v58 : IVec S2 1 := cmpf .olt main_v56 main_v57
  let main_c_23 : IVec S_ 1 := constantI S_ 1 1#1
  let main_v59 : IVec S_ 1 := (fun x v => Host.reduce IntOp.andi x v reducesTo_S2_S_d0 h_S_) main_v58 main_c_23
  let main_v60 : IVec S_ 1 := andi main_v55 main_v59
  let main_c_24 : IVec S_ 32 := constantI S_ 32 4294867296#32
  let main_v61 : IVec S2048x32 32 := broadcastInDim S2048x32 ![] bcast_S_S2048x32 main_c_24
  let main_v62 : IVec S2048x32 1 := cmpi .sge main_arg0 main_v61
  let main_c_25 : IVec S_ 32 := constantI S_ 32 100000#32
  let main_v63 : IVec S2048x32 32 := broadcastInDim S2048x32 ![] bcast_S_S2048x32 main_c_25
  let main_v64 : IVec S2048x32 1 := cmpi .slt main_arg0 main_v63
  let main_v65 : IVec S2048x32 1 := andi main_v62 main_v64
  let main_c_26 : IVec S_ 1 := constantI S_ 1 1#1
  let main_v66 : IVec S_ 1 := (fun x v => Host.reduce IntOp.andi x v reducesTo_S2048x32_S_d0_1 h_S_) main_v65 main_c_26
  fn_part4 (F := F) main_arg1 main_v60 main_v66

def fn_part2 {F : FTy → Type} [FloatOps F] (main_arg0 : IVec S2048x32 32) (main_arg1 : IVec S2048x32 32) (main_arg10 : FVec F S32x256 .f32) (main_arg11 : FVec F S512x64 .f32) (main_arg12 : FVec F S64 .f32) (main_arg13 : FVec F S64x2 .f32) (main_arg14 : FVec F S2 .f32) (main_v30 : IVec S_ 1) (main_v31 : FVec F S32x256 .f32) (main_v32 : FVec F S32x256 .f32) : IVec S_ 1 :=
  let main_v33 : IVec S32x256 1 := cmpf .olt main_v31 main_v32
  let main_c_13 : IVec S_ 1 := constantI S_ 1 1#1
  let main_v34 : IVec S_ 1 := (fun x v => Host.reduce IntOp.andi x v reducesTo_S32x256_S_d0_1 h_S_) main_v33 main_c_13
  let main_v35 : IVec S_ 1 := andi main_v30 main_v34
  let main_v36 : FVec F S32x256 .f32 := Host.absf main_arg10
  let main_cst_14 : FVec F S_ .f32 := constant S_ .f32 0x7F800000#32
  let main_v37 : FVec F S32x256 .f32 := broadcastInDim S32x256 ![] bcast_S_S32x256 main_cst_14
  let main_v38 : IVec S32x256 1 := cmpf .olt main_v36 main_v37
  let main_c_15 : IVec S_ 1 := constantI S_ 1 1#1
  let main_v39 : IVec S_ 1 := (fun x v => Host.reduce IntOp.andi x v reducesTo_S32x256_S_d0_1 h_S_) main_v38 main_c_15
  let main_v40 : IVec S_ 1 := andi main_v35 main_v39
  let main_v41 : FVec F S512x64 .f32 := Host.absf main_arg11
  let main_cst_16 : FVec F S_ .f32 := constant S_ .f32 0x7F800000#32
  let main_v42 : FVec F S512x64 .f32 := broadcastInDim S512x64 ![] bcast_S_S512x64 main_cst_16
  let main_v43 : IVec S512x64 1 := cmpf .olt main_v41 main_v42
  let main_c_17 : IVec S_ 1 := constantI S_ 1 1#1
  let main_v44 : IVec S_ 1 := (fun x v => Host.reduce IntOp.andi x v reducesTo_S512x64_S_d0_1 h_S_) main_v43 main_c_17
  let main_v45 : IVec S_ 1 := andi main_v40 main_v44
  let main_v46 : FVec F S64 .f32 := Host.absf main_arg12
  let main_cst_18 : FVec F S_ .f32 := constant S_ .f32 0x7F800000#32
  let main_v47 : FVec F S64 .f32 := broadcastInDim S64 ![] bcast_S_S64 main_cst_18
  let main_v48 : IVec S64 1 := cmpf .olt main_v46 main_v47
  let main_c_19 : IVec S_ 1 := constantI S_ 1 1#1
  let main_v49 : IVec S_ 1 := (fun x v => Host.reduce IntOp.andi x v reducesTo_S64_S_d0 h_S_) main_v48 main_c_19
  fn_part3 (F := F) main_arg0 main_arg1 main_arg13 main_arg14 main_v45 main_v49

def fn_part1 {F : FTy → Type} [FloatOps F] (main_arg0 : IVec S2048x32 32) (main_arg1 : IVec S2048x32 32) (main_arg6 : FVec F S_ .f32) (main_arg7 : FVec F S2x3 .f32) (main_arg8 : FVec F S_ .f32) (main_arg9 : FVec F S32x256 .f32) (main_arg10 : FVec F S32x256 .f32) (main_arg11 : FVec F S512x64 .f32) (main_arg12 : FVec F S64 .f32) (main_arg13 : FVec F S64x2 .f32) (main_arg14 : FVec F S2 .f32) (main_v12 : IVec S_ 1) (main_v15 : IVec S3 1) (main_c_5 : IVec S_ 1) : IVec S_ 1 :=
  let main_v16 : IVec S_ 1 := (fun x v => Host.reduce IntOp.andi x v reducesTo_S3_S_d0 h_S_) main_v15 main_c_5
  let main_v17 : IVec S_ 1 := andi main_v12 main_v16
  let main_v18 : FVec F S_ .f32 := Host.absf main_arg6
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S2x3 .f32 := Host.absf main_arg7
  let main_cst_8 : FVec F S_ .f32 := constant S_ .f32 0x7F800000#32
  let main_v23 : FVec F S2x3 .f32 := broadcastInDim S2x3 ![] bcast_S_S2x3 main_cst_8
  let main_v24 : IVec S2x3 1 := cmpf .olt main_v22 main_v23
  let main_c_9 : IVec S_ 1 := constantI S_ 1 1#1
  let main_v25 : IVec S_ 1 := (fun x v => Host.reduce IntOp.andi x v reducesTo_S2x3_S_d0_1 h_S_) main_v24 main_c_9
  let main_v26 : IVec S_ 1 := andi main_v21 main_v25
  let main_v27 : FVec F S_ .f32 := Host.absf main_arg8
  let main_cst_10 : FVec F S_ .f32 := constant S_ .f32 0x7F800000#32
  let main_v28 : IVec S_ 1 := cmpf .olt main_v27 main_cst_10
  let main_c_11 : IVec S_ 1 := constantI S_ 1 1#1
  let main_v29 : IVec S_ 1 := (fun x v => Host.reduce IntOp.andi x v reducesTo_S_S_d h_S_) main_v28 main_c_11
  let main_v30 : IVec S_ 1 := andi main_v26 main_v29
  let main_v31 : FVec F S32x256 .f32 := Host.absf main_arg9
  let main_cst_12 : FVec F S_ .f32 := constant S_ .f32 0x7F800000#32
  let main_v32 : FVec F S32x256 .f32 := broadcastInDim S32x256 ![] bcast_S_S32x256 main_cst_12
  fn_part2 (F := F) main_arg0 main_arg1 main_arg10 main_arg11 main_arg12 main_arg13 main_arg14 main_v30 main_v31 main_v32

def fn {F : FTy → Type} [FloatOps F] (main_arg0 : IVec S2048x32 32) (main_arg1 : IVec S2048x32 32) (main_arg2 : FVec F S100000x256 .f32) (main_arg3 : FVec F S3 .f32) (main_arg4 : FVec F S_ .f32) (main_arg5 : FVec F S3 .f32) (main_arg6 : FVec F S_ .f32) (main_arg7 : FVec F S2x3 .f32) (main_arg8 : FVec F S_ .f32) (main_arg9 : FVec F S32x256 .f32) (main_arg10 : FVec F S32x256 .f32) (main_arg11 : FVec F S512x64 .f32) (main_arg12 : FVec F S64 .f32) (main_arg13 : FVec F S64x2 .f32) (main_arg14 : FVec F S2 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3 .f32 := Host.absf main_arg3
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S3 .f32 := Host.absf main_arg5
  let main_cst_4 : FVec F S_ .f32 := constant S_ .f32 0x7F800000#32
  let main_v14 : FVec F S3 .f32 := broadcastInDim S3 ![] bcast_S_S3 main_cst_4
  let main_v15 : IVec S3 1 := cmpf .olt main_v13 main_v14
  let main_c_5 : IVec S_ 1 := constantI S_ 1 1#1
  fn_part1 (F := F) main_arg0 main_arg1 main_arg6 main_arg7 main_arg8 main_arg9 main_arg10 main_arg11 main_arg12 main_arg13 main_arg14 main_v12 main_v15 main_c_5
-- ==== Kernel.lean ====
abbrev S2048x32 : Shape := ⟨2, ![2048, 32]⟩
abbrev S100000x256 : Shape := ⟨2, ![100000, 256]⟩
abbrev S3 : Shape := ⟨1, ![3]⟩
abbrev S_ : Shape := ⟨0, ![]⟩
abbrev S2x3 : Shape := ⟨2, ![2, 3]⟩
abbrev S32x256 : Shape := ⟨2, ![32, 256]⟩
abbrev S512x64 : Shape := ⟨2, ![512, 64]⟩
abbrev S64 : Shape := ⟨1, ![64]⟩
abbrev S64x2 : Shape := ⟨2, ![64, 2]⟩
abbrev S2 : Shape := ⟨1, ![2]⟩
abbrev S2048x32x1 : Shape := ⟨3, ![2048, 32, 1]⟩
abbrev S1 : Shape := ⟨1, ![1]⟩
abbrev S1x1x1 : Shape := ⟨3, ![1, 1, 1]⟩
abbrev S2048x32x256 : Shape := ⟨3, ![2048, 32, 256]⟩
abbrev S1x64 : Shape := ⟨2, ![1, 64]⟩
abbrev S1x2 : Shape := ⟨2, ![1, 2]⟩
abbrev S2048x2 : Shape := ⟨2, ![2048, 2]⟩
abbrev S64x32x256 : Shape := ⟨3, ![64, 32, 256]⟩
abbrev S1x1 : Shape := ⟨2, ![1, 1]⟩
abbrev S64x2x256 : Shape := ⟨3, ![64, 2, 256]⟩
abbrev S64x36x256 : Shape := ⟨3, ![64, 36, 256]⟩
abbrev S64x34x256 : Shape := ⟨3, ![64, 34, 256]⟩
abbrev S64x32 : Shape := ⟨2, ![64, 32]⟩
abbrev S64x32x32 : Shape := ⟨3, ![64, 32, 32]⟩
abbrev S64x32x1 : Shape := ⟨3, ![64, 32, 1]⟩
abbrev S64x1x32 : Shape := ⟨3, ![64, 1, 32]⟩
abbrev S1x32x256 : Shape := ⟨3, ![1, 32, 256]⟩
abbrev S64x34 : Shape := ⟨2, ![64, 34]⟩
abbrev S64x34x34 : Shape := ⟨3, ![64, 34, 34]⟩
abbrev S64x34x1 : Shape := ⟨3, ![64, 34, 1]⟩
abbrev S64x1x34 : Shape := ⟨3, ![64, 1, 34]⟩
abbrev S64x256 : Shape := ⟨2, ![64, 256]⟩
abbrev S64x512 : Shape := ⟨2, ![64, 512]⟩
abbrev S64x64 : Shape := ⟨2, ![64, 64]⟩

abbrev nBuf : Space → Nat
  | .hbm => 81
  | .vmem => 18
  | .smem => 0
  | _ => 0

abbrev bufTy : (tb : Table) → Fin (tcTables nBuf tb) → BufTy
  | .hbm, ⟨0, _⟩ => ⟨S2048x32, .i32⟩
  | .hbm, ⟨1, _⟩ => ⟨S2048x32, .i32⟩
  | .hbm, ⟨2, _⟩ => ⟨S100000x256, .f32⟩
  | .hbm, ⟨3, _⟩ => ⟨S3, .f32⟩
  | .hbm, ⟨4, _⟩ => ⟨S_, .f32⟩
  | .hbm, ⟨5, _⟩ => ⟨S3, .f32⟩
  | .hbm, ⟨6, _⟩ => ⟨S_, .f32⟩
  | .hbm, ⟨7, _⟩ => ⟨S2x3, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S512x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S_, .i32⟩
  | .hbm, ⟨16, _⟩ => ⟨S2048x32, .i32⟩
  | .hbm, ⟨17, _⟩ => ⟨S2048x32, .i1⟩
  | .hbm, ⟨18, _⟩ => ⟨S_, .i32⟩
  | .hbm, ⟨19, _⟩ => ⟨S2048x32, .i32⟩
  | .hbm, ⟨20, _⟩ => ⟨S2048x32, .i32⟩
  | .hbm, ⟨21, _⟩ => ⟨S2048x32, .i32⟩
  | .hbm, ⟨22, _⟩ => ⟨S2048x32x1, .i32⟩
  | .hbm, ⟨23, _⟩ => ⟨S1, .i32⟩
  | .hbm, ⟨24, _⟩ => ⟨S_, .i32⟩
  | .hbm, ⟨25, _⟩ => ⟨S2048x32x1, .i32⟩
  | .hbm, ⟨26, _⟩ => ⟨S2048x32x1, .i1⟩
  | .hbm, ⟨27, _⟩ => ⟨S1x1x1, .i32⟩
  | .hbm, ⟨28, _⟩ => ⟨S2048x32x1, .i32⟩
  | .hbm, ⟨29, _⟩ => ⟨S2048x32x1, .i1⟩
  | .hbm, ⟨30, _⟩ => ⟨S2048x32x1, .i1⟩
  | .hbm, ⟨31, _⟩ => ⟨S_, .i1⟩
  | .hbm, ⟨32, _⟩ => ⟨S2048x32, .i1⟩
  | .hbm, ⟨33, _⟩ => ⟨S2048x32x256, .f32⟩
  | .hbm, ⟨34, _⟩ => ⟨S2048x32x256, .i1⟩
  | .hbm, ⟨35, _⟩ => ⟨S_, .f32⟩
  | .hbm, ⟨36, _⟩ => ⟨S2048x32x256, .f32⟩
  | .hbm, ⟨37, _⟩ => ⟨S2048x32x256, .f32⟩
  | .hbm, ⟨38, _⟩ => ⟨S_, .i32⟩
  | .hbm, ⟨39, _⟩ => ⟨S2048x32, .i32⟩
  | .hbm, ⟨40, _⟩ => ⟨S2048x32, .i1⟩
  | .hbm, ⟨41, _⟩ => ⟨S_, .i32⟩
  | .hbm, ⟨42, _⟩ => ⟨S2048x32, .i32⟩
  | .hbm, ⟨43, _⟩ => ⟨S2048x32, .i32⟩
  | .hbm, ⟨44, _⟩ => ⟨S2048x32, .i32⟩
  | .hbm, ⟨45, _⟩ => ⟨S2048x32x1, .i32⟩
  | .hbm, ⟨46, _⟩ => ⟨S1, .i32⟩
  | .hbm, ⟨47, _⟩ => ⟨S_, .i32⟩
  | .hbm, ⟨48, _⟩ => ⟨S2048x32x1, .i32⟩
  | .hbm, ⟨49, _⟩ => ⟨S2048x32x1, .i1⟩
  | .hbm, ⟨50, _⟩ => ⟨S1x1x1, .i32⟩
  | .hbm, ⟨51, _⟩ => ⟨S2048x32x1, .i32⟩
  | .hbm, ⟨52, _⟩ => ⟨S2048x32x1, .i1⟩
  | .hbm, ⟨53, _⟩ => ⟨S2048x32x1, .i1⟩
  | .hbm, ⟨54, _⟩ => ⟨S_, .i1⟩
  | .hbm, ⟨55, _⟩ => ⟨S2048x32, .i1⟩
  | .hbm, ⟨56, _⟩ => ⟨S2048x32x256, .f32⟩
  | .hbm, ⟨57, _⟩ => ⟨S2048x32x256, .i1⟩
  | .hbm, ⟨58, _⟩ => ⟨S_, .f32⟩
  | .hbm, ⟨59, _⟩ => ⟨S2048x32x256, .f32⟩
  | .hbm, ⟨60, _⟩ => ⟨S2048x32x256, .f32⟩
  | .hbm, ⟨61, _⟩ => ⟨S1, .f32⟩
  | .hbm, ⟨62, _⟩ => ⟨S1, .f32⟩
  | .hbm, ⟨63, _⟩ => ⟨S1, .f32⟩
  | .hbm, ⟨64, _⟩ => ⟨S1x64, .f32⟩
  | .hbm, ⟨65, _⟩ => ⟨S1x2, .f32⟩
  | .hbm, ⟨66, _⟩ => ⟨S2048x2, .f32⟩
  | .hbm, ⟨67, _⟩ => ⟨S_, .f32⟩
  | .hbm, ⟨68, _⟩ => ⟨S2, .f32⟩
  | .hbm, ⟨69, _⟩ => ⟨S_, .f32⟩
  | .hbm, ⟨70, _⟩ => ⟨S2, .f32⟩
  | .hbm, ⟨71, _⟩ => ⟨S2, .f32⟩
  | .hbm, ⟨72, _⟩ => ⟨S1x2, .f32⟩
  | .hbm, ⟨73, _⟩ => ⟨S2048x2, .f32⟩
  | .hbm, ⟨74, _⟩ => ⟨S2048x2, .f32⟩
  | .hbm, ⟨75, _⟩ => ⟨S2048x2, .f32⟩
  | .hbm, ⟨76, _⟩ => ⟨S_, .f32⟩
  | .hbm, ⟨77, _⟩ => ⟨S2, .f32⟩
  | .hbm, ⟨78, _⟩ => ⟨S1x2, .f32⟩
  | .hbm, ⟨79, _⟩ => ⟨S2048x2, .f32⟩
  | .hbm, ⟨80, _⟩ => ⟨S2048x2, .f32⟩
  | .local _ .vmem, ⟨0, _⟩ => ⟨S64x32x256, .f32⟩
  | .local _ .vmem, ⟨1, _⟩ => ⟨S64x32x256, .f32⟩
  | .local _ .vmem, ⟨2, _⟩ => ⟨S64x32x256, .f32⟩
  | .local _ .vmem, ⟨3, _⟩ => ⟨S64x32x256, .f32⟩
  | .local _ .vmem, ⟨4, _⟩ => ⟨S3, .f32⟩
  | .local _ .vmem, ⟨5, _⟩ => ⟨S1, .f32⟩
  | .local _ .vmem, ⟨6, _⟩ => ⟨S3, .f32⟩
  | .local _ .vmem, ⟨7, _⟩ => ⟨S1, .f32⟩
  | .local _ .vmem, ⟨8, _⟩ => ⟨S2x3, .f32⟩
  | .local _ .vmem, ⟨9, _⟩ => ⟨S1, .f32⟩
  | .local _ .vmem, ⟨10, _⟩ => ⟨S32x256, .f32⟩
  | .local _ .vmem, ⟨11, _⟩ => ⟨S32x256, .f32⟩
  | .local _ .vmem, ⟨12, _⟩ => ⟨S512x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S64x2, .f32⟩
  | .local _ .vmem, ⟨17, _⟩ => ⟨S64x2, .f32⟩
  | _, _ => ⟨S2048x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v1 : Ref sig .tc := ⟨.hbm, 60, rfl⟩
abbrev main_v2 : Ref sig .tc := ⟨.hbm, 61, rfl⟩
abbrev main_v3 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst : Ref sig .tc := ⟨.hbm, 67, rfl⟩
abbrev main_v8 : Ref sig .tc := ⟨.hbm, 68, rfl⟩
abbrev main_cst_0 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_cst_1 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S_S2048x32x1 : S_.BroadcastsInDim S2048x32x1 (![] : Fin 0 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  reducesTo_S2048x32x1_S2048x32_d2 : S2048x32x1.ReducesTo [2] S2048x32
  h_S_ : 0 < S_.numel
  bcast_S2048x32_S2048x32x256_0_1 : S2048x32.BroadcastsInDim S2048x32x256 (![0, 1] : Fin 2 → Fin S2048x32x256.rank)
  bcast_S_S2048x32x256 : S_.BroadcastsInDim S2048x32x256 (![] : Fin 0 → Fin S2048x32x256.rank)
  shapeCasts_S_S1 : S_.ShapeCasts S1
  shapeCasts_S64_S1x64 : S64.ShapeCasts S1x64
  shapeCasts_S2_S1x2 : S2.ShapeCasts S1x2
  inb_S3_S3_0 : ∀ a, (![0] : Fin 1 → Nat) a + S3.size a ≤ S3.size a
  h_S3 : 0 < S3.numel
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  inb_S1_S1_0 : ∀ a, (![0] : Fin 1 → Nat) a + S1.size a ≤ S1.size a
  h_S1 : 0 < S1.numel
  shapeCasts_S1_S1 : S1.ShapeCasts S1
  inb_S2x3_S2x3_0_0 : ∀ a, (![0, 0] : Fin 2 → Nat) a + S2x3.size a ≤ S2x3.size a
  h_S2x3 : 0 < S2x3.numel
  slices_S2x3_o0_0_S1x1 : S2x3.Slices ![0, 0] S1x1
  inpos_S1x1_p0_0 : ∀ a, (![0, 0] : Fin 2 → Nat) a < S1x1.size a
  slices_S2x3_o0_1_S1x1 : S2x3.Slices ![0, 1] S1x1
  slices_S2x3_o0_2_S1x1 : S2x3.Slices ![0, 2] S1x1
  slices_S2x3_o1_0_S1x1 : S2x3.Slices ![1, 0] S1x1
  slices_S2x3_o1_1_S1x1 : S2x3.Slices ![1, 1] S1x1
  slices_S2x3_o1_2_S1x1 : S2x3.Slices ![1, 2] S1x1
  inb_S64x32x256_S64x32x256_0_0_0 : ∀ a, (![0, 0, 0] : Fin 3 → Nat) a + S64x32x256.size a ≤ S64x32x256.size a
  h_S64x32x256 : 0 < S64x32x256.numel
  shapeCasts_S64x32x256_S64x32x256 : S64x32x256.ShapeCasts S64x32x256
  inb_S32x256_S32x256_0_0 : ∀ a, (![0, 0] : Fin 2 → Nat) a + S32x256.size a ≤ S32x256.size a
  h_S32x256 : 0 < S32x256.numel
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S64 : S1x64.ShapeCasts S64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  shapeCasts_S1x2_S2 : S1x2.ShapeCasts S2
  concatenates_S64x2x256_S64x32x256_S64x2x256_S64x36x256_d1 : Shape.Concatenates [S64x2x256, S64x32x256, S64x2x256] S64x36x256 1
  slices_S64x36x256_o0_0_0_S64x34x256 : S64x36x256.Slices ![0, 0, 0] S64x34x256
  slices_S64x36x256_o0_1_0_S64x34x256 : S64x36x256.Slices ![0, 1, 0] S64x34x256
  slices_S64x36x256_o0_2_0_S64x34x256 : S64x36x256.Slices ![0, 2, 0] S64x34x256
  slices_S64x34x256_o0_0_0_S64x32x256 : S64x34x256.Slices ![0, 0, 0] S64x32x256
  slices_S64x34x256_o0_1_0_S64x32x256 : S64x34x256.Slices ![0, 1, 0] S64x32x256
  slices_S64x34x256_o0_2_0_S64x32x256 : S64x34x256.Slices ![0, 2, 0] S64x32x256
  reduces_S64x32x256_S64x32 : S64x32x256.Reduces [2] S64x32
  bitsLt_bf16_f32 : FTy.bits .bf16 < FTy.bits .f32
  shapeCasts_S64x32_S64x32x1 : S64x32.ShapeCasts S64x32x1
  shapeCasts_S64x32_S64x1x32 : S64x32.ShapeCasts S64x1x32
  broadcasts_S64x32x1_S64x32x32 : S64x32x1.Broadcasts S64x32x32
  broadcasts_S64x1x32_S64x32x32 : S64x1x32.Broadcasts S64x32x32
  shapeCasts_S32x256_S1x32x256 : S32x256.ShapeCasts S1x32x256
  shapeCasts_S1x32x256_S1x32x256 : S1x32x256.ShapeCasts S1x32x256
  broadcasts_S1x32x256_S64x32x256 : S1x32x256.Broadcasts S64x32x256
  reduces_S64x34x256_S64x34 : S64x34x256.Reduces [2] S64x34
  shapeCasts_S64x34_S64x34x1 : S64x34.ShapeCasts S64x34x1
  shapeCasts_S64x34_S64x1x34 : S64x34.ShapeCasts S64x1x34
  broadcasts_S64x34x1_S64x34x34 : S64x34x1.Broadcasts S64x34x34
  broadcasts_S64x1x34_S64x34x34 : S64x1x34.Broadcasts S64x34x34
  reduces_S64x34x34_S64x34 : S64x34x34.Reduces [2] S64x34
  reduces_S64x34x34_S64x34_2 : S64x34x34.Reduces [1] S64x34
  broadcasts_S64x34x1_S64x34x256 : S64x34x1.Broadcasts S64x34x256
  reduces_S64x34x256_S64x256 : S64x34x256.Reduces [1] S64x256
  concatenates_S64x256_S64x256_S64x512_d1 : Shape.Concatenates [S64x256, S64x256] S64x512 1
  broadcasts_S1x64_S64x64 : S1x64.Broadcasts S64x64
  broadcasts_S1x2_S64x2 : S1x2.Broadcasts S64x2
  reducesTo_S2048x2_S2_d0 : S2048x2.ReducesTo [0] S2
  bcast_S_S2 : S_.BroadcastsInDim S2 (![] : Fin 0 → Fin S2.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S100000x256_S2048x32x1_S2048x32x256_2_0_n_n_0_2_1256_wf : GatherDims.WF S100000x256 S2048x32x1 S2048x32x256 [2] [0] [] [0] [] 2 ![1, 256]
  dot_S64x32x256_S64x32x256_S64x32x32_2_2_1_1_0_0_wf : DotDims.WF S64x32x256 S64x32x256 S64x32x32 [2] [2] [1] [1] [0] [0]
  dot_S64x32x32_S64x32x256_S64x32x256_2_1_1_2_0_0_wf : DotDims.WF S64x32x32 S64x32x256 S64x32x256 [2] [1] [1] [2] [0] [0]
  dot_S64x34x256_S64x34x256_S64x34x34_2_2_1_1_0_0_wf : DotDims.WF S64x34x256 S64x34x256 S64x34x34 [2] [2] [1] [1] [0] [0]
  dot_S64x512_S512x64_S64x64_1_0_0_1_n_n_wf : DotDims.WF S64x512 S512x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x256.size a ≤ S2048x32x256.size a
  hwx0_0 : ∀ i : grid0.Coords, EltTy.bits .f32 = 32 ∨ (Rect.block (s := S2048x32x256) S64x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x256.size a ≤ S2048x32x256.size a
  hwx0_1 : ∀ i : grid0.Coords, EltTy.bits .f32 = 32 ∨ (Rect.block (s := S2048x32x256) S64x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x3.size a ≤ S2x3.size a
  hwx0_6 : ∀ i : grid0.Coords, EltTy.bits .f32 = 32 ∨ (Rect.block (s := S2x3) S2x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S32x256.size a
  hwx0_8 : ∀ i : grid0.Coords, EltTy.bits .f32 = 32 ∨ (Rect.block (s := S32x256) S32x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x256.size a ≤ S32x256.size a
  hwx0_9 : ∀ i : grid0.Coords, EltTy.bits .f32 = 32 ∨ (Rect.block (s := S32x256) S32x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S512x64.size a
  hwx0_10 : ∀ i : grid0.Coords, EltTy.bits .f32 = 32 ∨ (Rect.block (s := S512x64) S512x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x2.size a ≤ S64x2.size a
  hwx0_12 : ∀ i : grid0.Coords, EltTy.bits .f32 = 32 ∨ (Rect.block (s := S64x2) S64x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2.size a ≤ S1x2.size a
  hwx0_13 : ∀ i : grid0.Coords, EltTy.bits .f32 = 32 ∨ (Rect.block (s := S1x2) S1x2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2.size a ≤ S2048x2.size a
  hwx0_14 : ∀ i : grid0.Coords, EltTy.bits .f32 = 32 ∨ (Rect.block (s := S2048x2) S64x2.size (cc0_transform_14 i) (hinb0_14 i)).WholeWords (EltTy.packing .f32)

variable [Facts₀]

def gather_S100000x256_S2048x32x1_S2048x32x256_2_0_n_n_0_2_1256 : GatherDims S100000x256 S2048x32x1 S2048x32x256 where
  offsetDims := [2]
  collapsedSliceDims := [0]
  operandBatchingDims := []
  startIndicesBatchingDims := []
  startIndexMap := [0]
  indexVectorDim := 2
  sliceSizes := ![1, 256]
  wf := gather_S100000x256_S2048x32x1_S2048x32x256_2_0_n_n_0_2_1256_wf
def dot_S64x32x256_S64x32x256_S64x32x32_2_2_1_1_0_0 : DotDims S64x32x256 S64x32x256 S64x32x32 where
  lhsContracting := [2]
  rhsContracting := [2]
  lhsNonContracting := [1]
  rhsNonContracting := [1]
  lhsBatch := [0]
  rhsBatch := [0]
  wf := dot_S64x32x256_S64x32x256_S64x32x32_2_2_1_1_0_0_wf
def dot_S64x32x32_S64x32x256_S64x32x256_2_1_1_2_0_0 : DotDims S64x32x32 S64x32x256 S64x32x256 where
  lhsContracting := [2]
  rhsContracting := [1]
  lhsNonContracting := [1]
  rhsNonContracting := [2]
  lhsBatch := [0]
  rhsBatch := [0]
  wf := dot_S64x32x32_S64x32x256_S64x32x256_2_1_1_2_0_0_wf
def dot_S64x34x256_S64x34x256_S64x34x34_2_2_1_1_0_0 : DotDims S64x34x256 S64x34x256 S64x34x34 where
  lhsContracting := [2]
  rhsContracting := [2]
  lhsNonContracting := [1]
  rhsNonContracting := [1]
  lhsBatch := [0]
  rhsBatch := [0]
  wf := dot_S64x34x256_S64x34x256_S64x34x34_2_2_1_1_0_0_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v0) S64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S32x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S64x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S2048x32 : Shape := ⟨2, ![2048, 32]⟩
abbrev S100000x256 : Shape := ⟨2, ![100000, 256]⟩
abbrev S3 : Shape := ⟨1, ![3]⟩
abbrev S_ : Shape := ⟨0, ![]⟩
abbrev S2x3 : Shape := ⟨2, ![2, 3]⟩
abbrev S32x256 : Shape := ⟨2, ![32, 256]⟩
abbrev S512x64 : Shape := ⟨2, ![512, 64]⟩
abbrev S64 : Shape := ⟨1, ![64]⟩
abbrev S64x2 : Shape := ⟨2, ![64, 2]⟩
abbrev S2 : Shape := ⟨1, ![2]⟩
abbrev S2048x32x1 : Shape := ⟨3, ![2048, 32, 1]⟩
abbrev S2048x32x256 : Shape := ⟨3, ![2048, 32, 256]⟩
abbrev S2048x36x256 : Shape := ⟨3, ![2048, 36, 256]⟩
abbrev S1 : Shape := ⟨1, ![1]⟩
abbrev S2048x34x256 : Shape := ⟨3, ![2048, 34, 256]⟩
abbrev S2048x1x32 : Shape := ⟨3, ![2048, 1, 32]⟩
abbrev S2048x32x32 : Shape := ⟨3, ![2048, 32, 32]⟩
abbrev S2048x1x32x256 : Shape := ⟨4, ![2048, 1, 32, 256]⟩
abbrev S2048x2x32x256 : Shape := ⟨4, ![2048, 2, 32, 256]⟩
abbrev S2048x2x36x256 : Shape := ⟨4, ![2048, 2, 36, 256]⟩
abbrev S1x1 : Shape := ⟨2, ![1, 1]⟩
abbrev S2048x1x34x256 : Shape := ⟨4, ![2048, 1, 34, 256]⟩
abbrev S2048x34 : Shape := ⟨2, ![2048, 34]⟩
abbrev S2048x34x1 : Shape := ⟨3, ![2048, 34, 1]⟩
abbrev S2048x1x34 : Shape := ⟨3, ![2048, 1, 34]⟩
abbrev S2048x34x34 : Shape := ⟨3, ![2048, 34, 34]⟩
abbrev S2048x256 : Shape := ⟨2, ![2048, 256]⟩
abbrev S2048x512 : Shape := ⟨2, ![2048, 512]⟩
abbrev S2048x64 : Shape := ⟨2, ![2048, 64]⟩
abbrev S1x64 : Shape := ⟨2, ![1, 64]⟩
abbrev S2048x2 : Shape := ⟨2, ![2048, 2]⟩
abbrev S1x2 : Shape := ⟨2, ![1, 2]⟩

abbrev nBuf : Space → Nat
  | .hbm => 355
  | .vmem => 0
  | .smem => 0
  | _ => 0

abbrev hbmTy0_0 (i : Nat) : BufTy := match i % 128 with
  | 0 => ⟨S2048x32, .i32⟩
  | 1 => ⟨S2048x32, .i32⟩
  | 2 => ⟨S100000x256, .f32⟩
  | 3 => ⟨S3, .f32⟩
  | 4 => ⟨S_, .f32⟩
  | 5 => ⟨S3, .f32⟩
  | 6 => ⟨S_, .f32⟩
  | 7 => ⟨S2x3, .f32⟩
  | 8 => ⟨S_, .f32⟩
  | 9 => ⟨S32x256, .f32⟩
  | 10 => ⟨S32x256, .f32⟩
  | 11 => ⟨S512x64, .f32⟩
  | 12 => ⟨S64, .f32⟩
  | 13 => ⟨S64x2, .f32⟩
  | 14 => ⟨S2, .f32⟩
  | 15 => ⟨S_, .i32⟩
  | 16 => ⟨S2048x32, .i32⟩
  | 17 => ⟨S2048x32, .i1⟩
  | 18 => ⟨S_, .i32⟩
  | 19 => ⟨S2048x32, .i32⟩
  | 20 => ⟨S2048x32, .i32⟩
  | 21 => ⟨S2048x32, .i32⟩
  | 22 => ⟨S2048x32x1, .i32⟩
  | 23 => ⟨S2048x32x256, .f32⟩
  | 24 => ⟨S_, .i32⟩
  | 25 => ⟨S2048x32, .i32⟩
  | 26 => ⟨S2048x32, .i1⟩
  | 27 => ⟨S_, .i32⟩
  | 28 => ⟨S2048x32, .i32⟩
  | 29 => ⟨S2048x32, .i32⟩
  | 30 => ⟨S2048x32, .i32⟩
  | 31 => ⟨S2048x32x1, .i32⟩
  | 32 => ⟨S2048x32x256, .f32⟩
  | 33 => ⟨S_, .i32⟩
  | 34 => ⟨S_, .f32⟩
  | 35 => ⟨S2048x36x256, .f32⟩
  | 36 => ⟨S1, .f32⟩
  | 37 => ⟨S_, .f32⟩
  | 38 => ⟨S2048x34x256, .f32⟩
  | 39 => ⟨S2048x34x256, .f32⟩
  | 40 => ⟨S2048x34x256, .f32⟩
  | 41 => ⟨S1, .f32⟩
  | 42 => ⟨S_, .f32⟩
  | 43 => ⟨S2048x34x256, .f32⟩
  | 44 => ⟨S2048x34x256, .f32⟩
  | 45 => ⟨S2048x34x256, .f32⟩
  | 46 => ⟨S2048x34x256, .f32⟩
  | 47 => ⟨S1, .f32⟩
  | 48 => ⟨S_, .f32⟩
  | 49 => ⟨S2048x34x256, .f32⟩
  | 50 => ⟨S2048x34x256, .f32⟩
  | 51 => ⟨S2048x34x256, .f32⟩
  | 52 => ⟨S2048x34x256, .f32⟩
  | 53 => ⟨S2048x34x256, .f32⟩
  | 54 => ⟨S2048x34x256, .f32⟩
  | 55 => ⟨S2048x32x256, .f32⟩
  | 56 => ⟨S2048x32x256, .f32⟩
  | 57 => ⟨S2048x32x256, .f32⟩
  | 58 => ⟨S2048x32x256, .f32⟩
  | 59 => ⟨S2048x32x256, .f32⟩
  | 60 => ⟨S_, .f32⟩
  | 61 => ⟨S2048x32x256, .f32⟩
  | 62 => ⟨S2048x32x256, .f32⟩
  | 63 => ⟨S_, .i32⟩
  | 64 => ⟨S_, .f32⟩
  | 65 => ⟨S2048x36x256, .f32⟩
  | 66 => ⟨S1, .f32⟩
  | 67 => ⟨S_, .f32⟩
  | 68 => ⟨S2048x34x256, .f32⟩
  | 69 => ⟨S2048x34x256, .f32⟩
  | 70 => ⟨S2048x34x256, .f32⟩
  | 71 => ⟨S1, .f32⟩
  | 72 => ⟨S_, .f32⟩
  | 73 => ⟨S2048x34x256, .f32⟩
  | 74 => ⟨S2048x34x256, .f32⟩
  | 75 => ⟨S2048x34x256, .f32⟩
  | 76 => ⟨S2048x34x256, .f32⟩
  | 77 => ⟨S1, .f32⟩
  | 78 => ⟨S_, .f32⟩
  | 79 => ⟨S2048x34x256, .f32⟩
  | 80 => ⟨S2048x34x256, .f32⟩
  | 81 => ⟨S2048x34x256, .f32⟩
  | 82 => ⟨S2048x34x256, .f32⟩
  | 83 => ⟨S2048x34x256, .f32⟩
  | 84 => ⟨S2048x34x256, .f32⟩
  | 85 => ⟨S2048x32x256, .f32⟩
  | 86 => ⟨S2048x32x256, .f32⟩
  | 87 => ⟨S2048x32x256, .f32⟩
  | 88 => ⟨S2048x32x256, .f32⟩
  | 89 => ⟨S2048x32x256, .f32⟩
  | 90 => ⟨S_, .f32⟩
  | 91 => ⟨S2048x32x256, .f32⟩
  | 92 => ⟨S2048x32x256, .f32⟩
  | 93 => ⟨S2048x32x256, .f32⟩
  | 94 => ⟨S_, .f32⟩
  | 95 => ⟨S2048x32, .f32⟩
  | 96 => ⟨S2048x32x256, .f32⟩
  | 97 => ⟨S_, .f32⟩
  | 98 => ⟨S2048x32, .f32⟩
  | 99 => ⟨S2048x32x1, .f32⟩
  | 100 => ⟨S2048x1x32, .f32⟩
  | 101 => ⟨S2048x32x32, .f32⟩
  | 102 => ⟨S2048x32x32, .f32⟩
  | 103 => ⟨S2048x32x32, .f32⟩
  | 104 => ⟨S2048x32x32, .f32⟩
  | 105 => ⟨S_, .f32⟩
  | 106 => ⟨S2048x32x32, .f32⟩
  | 107 => ⟨S2048x32x32, .f32⟩
  | 108 => ⟨S2048x32x32, .f32⟩
  | 109 => ⟨S_, .f32⟩
  | 110 => ⟨S2048x32x32, .f32⟩
  | 111 => ⟨S2048x32x32, .f32⟩
  | 112 => ⟨S2048x32x32, .f32⟩
  | 113 => ⟨S_, .f32⟩
  | 114 => ⟨S2048x32x32, .f32⟩
  | 115 => ⟨S2048x32x32, .f32⟩
  | 116 => ⟨S_, .f32⟩
  | 117 => ⟨S2048x32x32, .f32⟩
  | 118 => ⟨S2048x32x32, .f32⟩
  | 119 => ⟨S2048x32x256, .f32⟩
  | 120 => ⟨S2048x32x256, .f32⟩
  | 121 => ⟨S2048x1x32x256, .f32⟩
  | 122 => ⟨S2048x1x32x256, .f32⟩
  | 123 => ⟨S2048x2x32x256, .f32⟩
  | 124 => ⟨S_, .i32⟩
  | 125 => ⟨S_, .f32⟩
  | 126 => ⟨S2048x2x36x256, .f32⟩
  | 127 => ⟨S_, .f32⟩
  | _ => ⟨S2048x32, .i32⟩

abbrev hbmTy0_1 (i : Nat) : BufTy := match i % 128 with
  | 0 => ⟨S2048x34x256, .f32⟩
  | 1 => ⟨S1x1, .f32⟩
  | 2 => ⟨S_, .f32⟩
  | 3 => ⟨S2048x1x34x256, .f32⟩
  | 4 => ⟨S2048x34x256, .f32⟩
  | 5 => ⟨S2048x34x256, .f32⟩
  | 6 => ⟨S2048x34x256, .f32⟩
  | 7 => ⟨S2048x34x256, .f32⟩
  | 8 => ⟨S1x1, .f32⟩
  | 9 => ⟨S_, .f32⟩
  | 10 => ⟨S2048x1x34x256, .f32⟩
  | 11 => ⟨S2048x34x256, .f32⟩
  | 12 => ⟨S2048x34x256, .f32⟩
  | 13 => ⟨S2048x34x256, .f32⟩
  | 14 => ⟨S2048x34x256, .f32⟩
  | 15 => ⟨S1x1, .f32⟩
  | 16 => ⟨S_, .f32⟩
  | 17 => ⟨S2048x1x34x256, .f32⟩
  | 18 => ⟨S2048x34x256, .f32⟩
  | 19 => ⟨S2048x34x256, .f32⟩
  | 20 => ⟨S2048x34x256, .f32⟩
  | 21 => ⟨S2048x34x256, .f32⟩
  | 22 => ⟨S1x1, .f32⟩
  | 23 => ⟨S_, .f32⟩
  | 24 => ⟨S2048x1x34x256, .f32⟩
  | 25 => ⟨S2048x34x256, .f32⟩
  | 26 => ⟨S2048x34x256, .f32⟩
  | 27 => ⟨S2048x34x256, .f32⟩
  | 28 => ⟨S2048x34x256, .f32⟩
  | 29 => ⟨S1x1, .f32⟩
  | 30 => ⟨S_, .f32⟩
  | 31 => ⟨S2048x1x34x256, .f32⟩
  | 32 => ⟨S2048x34x256, .f32⟩
  | 33 => ⟨S2048x34x256, .f32⟩
  | 34 => ⟨S2048x34x256, .f32⟩
  | 35 => ⟨S2048x34x256, .f32⟩
  | 36 => ⟨S1x1, .f32⟩
  | 37 => ⟨S_, .f32⟩
  | 38 => ⟨S2048x1x34x256, .f32⟩
  | 39 => ⟨S2048x34x256, .f32⟩
  | 40 => ⟨S2048x34x256, .f32⟩
  | 41 => ⟨S2048x34x256, .f32⟩
  | 42 => ⟨S2048x34x256, .f32⟩
  | 43 => ⟨S2048x34x256, .f32⟩
  | 44 => ⟨S2048x34x256, .f32⟩
  | 45 => ⟨S2048x1x32x256, .f32⟩
  | 46 => ⟨S2048x1x32x256, .f32⟩
  | 47 => ⟨S2048x2x32x256, .f32⟩
  | 48 => ⟨S_, .i32⟩
  | 49 => ⟨S_, .f32⟩
  | 50 => ⟨S2048x2x36x256, .f32⟩
  | 51 => ⟨S_, .f32⟩
  | 52 => ⟨S2048x34x256, .f32⟩
  | 53 => ⟨S1x1, .f32⟩
  | 54 => ⟨S_, .f32⟩
  | 55 => ⟨S2048x1x34x256, .f32⟩
  | 56 => ⟨S2048x34x256, .f32⟩
  | 57 => ⟨S2048x34x256, .f32⟩
  | 58 => ⟨S2048x34x256, .f32⟩
  | 59 => ⟨S2048x34x256, .f32⟩
  | 60 => ⟨S1x1, .f32⟩
  | 61 => ⟨S_, .f32⟩
  | 62 => ⟨S2048x1x34x256, .f32⟩
  | 63 => ⟨S2048x34x256, .f32⟩
  | 64 => ⟨S2048x34x256, .f32⟩
  | 65 => ⟨S2048x34x256, .f32⟩
  | 66 => ⟨S2048x34x256, .f32⟩
  | 67 => ⟨S1x1, .f32⟩
  | 68 => ⟨S_, .f32⟩
  | 69 => ⟨S2048x1x34x256, .f32⟩
  | 70 => ⟨S2048x34x256, .f32⟩
  | 71 => ⟨S2048x34x256, .f32⟩
  | 72 => ⟨S2048x34x256, .f32⟩
  | 73 => ⟨S2048x34x256, .f32⟩
  | 74 => ⟨S1x1, .f32⟩
  | 75 => ⟨S_, .f32⟩
  | 76 => ⟨S2048x1x34x256, .f32⟩
  | 77 => ⟨S2048x34x256, .f32⟩
  | 78 => ⟨S2048x34x256, .f32⟩
  | 79 => ⟨S2048x34x256, .f32⟩
  | 80 => ⟨S2048x34x256, .f32⟩
  | 81 => ⟨S1x1, .f32⟩
  | 82 => ⟨S_, .f32⟩
  | 83 => ⟨S2048x1x34x256, .f32⟩
  | 84 => ⟨S2048x34x256, .f32⟩
  | 85 => ⟨S2048x34x256, .f32⟩
  | 86 => ⟨S2048x34x256, .f32⟩
  | 87 => ⟨S2048x34x256, .f32⟩
  | 88 => ⟨S1x1, .f32⟩
  | 89 => ⟨S_, .f32⟩
  | 90 => ⟨S2048x1x34x256, .f32⟩
  | 91 => ⟨S2048x34x256, .f32⟩
  | 92 => ⟨S2048x34x256, .f32⟩
  | 93 => ⟨S2048x34x256, .f32⟩
  | 94 => ⟨S2048x34x256, .f32⟩
  | 95 => ⟨S2048x34x256, .f32⟩
  | 96 => ⟨S2048x34x256, .f32⟩
  | 97 => ⟨S2048x34x256, .f32⟩
  | 98 => ⟨S_, .f32⟩
  | 99 => ⟨S2048x34, .f32⟩
  | 100 => ⟨S2048x34x256, .f32⟩
  | 101 => ⟨S_, .f32⟩
  | 102 => ⟨S2048x34, .f32⟩
  | 103 => ⟨S2048x34x1, .f32⟩
  | 104 => ⟨S2048x1x34, .f32⟩
  | 105 => ⟨S2048x34x34, .f32⟩
  | 106 => ⟨S2048x34x34, .f32⟩
  | 107 => ⟨S2048x34x34, .f32⟩
  | 108 => ⟨S2048x34x34, .f32⟩
  | 109 => ⟨S_, .f32⟩
  | 110 => ⟨S2048x34x34, .f32⟩
  | 111 => ⟨S2048x34x34, .f32⟩
  | 112 => ⟨S2048x34x34, .f32⟩
  | 113 => ⟨S_, .f32⟩
  | 114 => ⟨S2048x34x34, .f32⟩
  | 115 => ⟨S2048x34x34, .f32⟩
  | 116 => ⟨S2048x34x34, .f32⟩
  | 117 => ⟨S_, .f32⟩
  | 118 => ⟨S2048x34x34, .f32⟩
  | 119 => ⟨S2048x34x34, .f32⟩
  | 120 => ⟨S_, .f32⟩
  | 121 => ⟨S2048x34x34, .f32⟩
  | 122 => ⟨S2048x34x34, .f32⟩
  | 123 => ⟨S_, .f32⟩
  | 124 => ⟨S2048x34, .f32⟩
  | 125 => ⟨S_, .f32⟩
  | 126 => ⟨S2048x34, .f32⟩
  | 127 => ⟨S2048x34x1, .f32⟩
  | _ => ⟨S2048x32, .i32⟩

abbrev hbmTy0_2 (i : Nat) : BufTy := match i % 128 with
  | 0 => ⟨S2048x34x256, .f32⟩
  | 1 => ⟨S2048x34x256, .f32⟩
  | 2 => ⟨S2048x32x256, .f32⟩
  | 3 => ⟨S2048x32x256, .f32⟩
  | 4 => ⟨S2048x32x256, .f32⟩
  | 5 => ⟨S2048x32x256, .f32⟩
  | 6 => ⟨S2048x32x256, .f32⟩
  | 7 => ⟨S_, .f32⟩
  | 8 => ⟨S2048x32x256, .f32⟩
  | 9 => ⟨S2048x32x256, .f32⟩
  | 10 => ⟨S2048x34x1, .f32⟩
  | 11 => ⟨S2048x34x256, .f32⟩
  | 12 => ⟨S2048x34x256, .f32⟩
  | 13 => ⟨S2048x32x256, .f32⟩
  | 14 => ⟨S2048x32x256, .f32⟩
  | 15 => ⟨S2048x32x256, .f32⟩
  | 16 => ⟨S2048x32x256, .f32⟩
  | 17 => ⟨S2048x32x256, .f32⟩
  | 18 => ⟨S_, .f32⟩
  | 19 => ⟨S2048x32x256, .f32⟩
  | 20 => ⟨S2048x32x256, .f32⟩
  | 21 => ⟨S_, .i32⟩
  | 22 => ⟨S_, .f32⟩
  | 23 => ⟨S2048x36x256, .f32⟩
  | 24 => ⟨S1, .f32⟩
  | 25 => ⟨S_, .f32⟩
  | 26 => ⟨S2048x34x256, .f32⟩
  | 27 => ⟨S2048x34x256, .f32⟩
  | 28 => ⟨S2048x34x256, .f32⟩
  | 29 => ⟨S1, .f32⟩
  | 30 => ⟨S_, .f32⟩
  | 31 => ⟨S2048x34x256, .f32⟩
  | 32 => ⟨S2048x34x256, .f32⟩
  | 33 => ⟨S2048x34x256, .f32⟩
  | 34 => ⟨S2048x34x256, .f32⟩
  | 35 => ⟨S1, .f32⟩
  | 36 => ⟨S_, .f32⟩
  | 37 => ⟨S2048x34x256, .f32⟩
  | 38 => ⟨S2048x34x256, .f32⟩
  | 39 => ⟨S2048x34x256, .f32⟩
  | 40 => ⟨S2048x34x256, .f32⟩
  | 41 => ⟨S2048x34x256, .f32⟩
  | 42 => ⟨S2048x34x256, .f32⟩
  | 43 => ⟨S_, .f32⟩
  | 44 => ⟨S2048x256, .f32⟩
  | 45 => ⟨S_, .f32⟩
  | 46 => ⟨S2048x256, .f32⟩
  | 47 => ⟨S2048x256, .f32⟩
  | 48 => ⟨S_, .i32⟩
  | 49 => ⟨S_, .f32⟩
  | 50 => ⟨S2048x36x256, .f32⟩
  | 51 => ⟨S1, .f32⟩
  | 52 => ⟨S_, .f32⟩
  | 53 => ⟨S2048x34x256, .f32⟩
  | 54 => ⟨S2048x34x256, .f32⟩
  | 55 => ⟨S2048x34x256, .f32⟩
  | 56 => ⟨S1, .f32⟩
  | 57 => ⟨S_, .f32⟩
  | 58 => ⟨S2048x34x256, .f32⟩
  | 59 => ⟨S2048x34x256, .f32⟩
  | 60 => ⟨S2048x34x256, .f32⟩
  | 61 => ⟨S2048x34x256, .f32⟩
  | 62 => ⟨S1, .f32⟩
  | 63 => ⟨S_, .f32⟩
  | 64 => ⟨S2048x34x256, .f32⟩
  | 65 => ⟨S2048x34x256, .f32⟩
  | 66 => ⟨S2048x34x256, .f32⟩
  | 67 => ⟨S2048x34x256, .f32⟩
  | 68 => ⟨S2048x34x256, .f32⟩
  | 69 => ⟨S2048x34x256, .f32⟩
  | 70 => ⟨S_, .f32⟩
  | 71 => ⟨S2048x256, .f32⟩
  | 72 => ⟨S_, .f32⟩
  | 73 => ⟨S2048x256, .f32⟩
  | 74 => ⟨S2048x256, .f32⟩
  | 75 => ⟨S2048x512, .f32⟩
  | 76 => ⟨S2048x64, .f32⟩
  | 77 => ⟨S1x64, .f32⟩
  | 78 => ⟨S2048x64, .f32⟩
  | 79 => ⟨S2048x64, .f32⟩
  | 80 => ⟨S2048x64, .f32⟩
  | 81 => ⟨S2048x2, .f32⟩
  | 82 => ⟨S1x2, .f32⟩
  | 83 => ⟨S2048x2, .f32⟩
  | 84 => ⟨S2048x2, .f32⟩
  | 85 => ⟨S_, .f32⟩
  | 86 => ⟨S2, .f32⟩
  | 87 => ⟨S_, .f32⟩
  | 88 => ⟨S2, .f32⟩
  | 89 => ⟨S2, .f32⟩
  | 90 => ⟨S1x2, .f32⟩
  | 91 => ⟨S2048x2, .f32⟩
  | 92 => ⟨S2048x2, .f32⟩
  | 93 => ⟨S2048x2, .f32⟩
  | 94 => ⟨S_, .f32⟩
  | 95 => ⟨S2, .f32⟩
  | 96 => ⟨S1x2, .f32⟩
  | 97 => ⟨S2048x2, .f32⟩
  | 98 => ⟨S2048x2, .f32⟩
  | _ => ⟨S2048x32, .i32⟩

abbrev hbmTy (i : Nat) : BufTy := match i / 128 with
  | 0 => hbmTy0_0 i
  | 1 => hbmTy0_1 i
  | 2 => hbmTy0_2 i
  | _ => ⟨S2048x32, .i32⟩

abbrev bufTy : (tb : Table) → Fin (tcTables nBuf tb) → BufTy
  | .hbm, ⟨i, _⟩ => hbmTy i
  | _, _ => ⟨S2048x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_call1_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_8 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_12 : Ref sig .tc := ⟨.hbm, 124, rfl⟩
abbrev main_call2_v0 : Ref sig .tc := ⟨.hbm, 125, rfl⟩
abbrev main_v93 : Ref sig .tc := ⟨.hbm, 126, rfl⟩
abbrev main_cst_13 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_14 : Ref sig .tc := ⟨.hbm, 176, rfl⟩
abbrev main_call3_v0 : Ref sig .tc := ⟨.hbm, 177, rfl⟩
abbrev main_v142 : Ref sig .tc := ⟨.hbm, 178, rfl⟩
abbrev main_cst_15 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_16 : Ref sig .tc := ⟨.hbm, 226, rfl⟩
abbrev main_v189 : Ref sig .tc := ⟨.hbm, 227, rfl⟩
abbrev main_v190 : Ref sig .tc := ⟨.hbm, 228, rfl⟩
abbrev main_cst_17 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_cst_18 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_19 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_cst_20 : Ref sig .tc := ⟨.hbm, 245, rfl⟩
abbrev main_v204 : Ref sig .tc := ⟨.hbm, 246, rfl⟩
abbrev main_v205 : Ref sig .tc := ⟨.hbm, 247, rfl⟩
abbrev main_cst_21 : Ref sig .tc := ⟨.hbm, 248, rfl⟩
abbrev main_v206 : Ref sig .tc := ⟨.hbm, 249, rfl⟩
abbrev main_v207 : Ref sig .tc := ⟨.hbm, 250, rfl⟩
abbrev main_cst_22 : Ref sig .tc := ⟨.hbm, 251, rfl⟩
abbrev main_v208 : Ref sig .tc := ⟨.hbm, 252, rfl⟩
abbrev main_cst_23 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_cst_24 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_25 : Ref sig .tc := ⟨.hbm, 274, rfl⟩
abbrev main_v228 : Ref sig .tc := ⟨.hbm, 275, rfl⟩
abbrev main_v229 : Ref sig .tc := ⟨.hbm, 276, rfl⟩
abbrev main_c_26 : Ref sig .tc := ⟨.hbm, 277, rfl⟩
abbrev main_call4_v0 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_cst_27 : Ref sig .tc := ⟨.hbm, 299, rfl⟩
abbrev main_v250 : Ref sig .tc := ⟨.hbm, 300, rfl⟩
abbrev main_cst_28 : Ref sig .tc := ⟨.hbm, 301, rfl⟩
abbrev main_v251 : Ref sig .tc := ⟨.hbm, 302, rfl⟩
abbrev main_v252 : Ref sig .tc := ⟨.hbm, 303, rfl⟩
abbrev main_c_29 : Ref sig .tc := ⟨.hbm, 304, rfl⟩
abbrev main_call5_v0 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_cst_30 : Ref sig .tc := ⟨.hbm, 326, rfl⟩
abbrev main_v273 : Ref sig .tc := ⟨.hbm, 327, rfl⟩
abbrev main_cst_31 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_cst_32 : Ref sig .tc := ⟨.hbm, 341, rfl⟩
abbrev main_v286 : Ref sig .tc := ⟨.hbm, 342, rfl⟩
abbrev main_cst_33 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_cst_34 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩

abbrev nD : Nat := 1
abbrev τ : Topo := Topo.v7x

variable {F : FTy → Type} [FloatOps F]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  pads_S2048x32x256_S2048x36x256_000_220_000 : S2048x32x256.Pads (![0, 2, 0] : Fin 3 → Nat) ![0, 2, 0] ![0, 0, 0] S2048x36x256
  h_S_ : 0 < S_.numel
  slices_S3_S1_0 : S3.Slices ![0] S1
  shapeCasts_S1_S_ : S1.ShapeCasts S_
  slices_S2048x36x256_S2048x34x256_0_0_0 : S2048x36x256.Slices ![0, 0, 0] S2048x34x256
  bcast_S_S2048x34x256 : S_.BroadcastsInDim S2048x34x256 (![] : Fin 0 → Fin S2048x34x256.rank)
  slices_S3_S1_1 : S3.Slices ![1] S1
  slices_S2048x36x256_S2048x34x256_0_1_0 : S2048x36x256.Slices ![0, 1, 0] S2048x34x256
  slices_S3_S1_2 : S3.Slices ![2] S1
  slices_S2048x36x256_S2048x34x256_0_2_0 : S2048x36x256.Slices ![0, 2, 0] S2048x34x256
  slices_S2048x34x256_S2048x32x256_0_0_0 : S2048x34x256.Slices ![0, 0, 0] S2048x32x256
  slices_S2048x34x256_S2048x32x256_0_1_0 : S2048x34x256.Slices ![0, 1, 0] S2048x32x256
  slices_S2048x34x256_S2048x32x256_0_2_0 : S2048x34x256.Slices ![0, 2, 0] S2048x32x256
  bcast_S_S2048x32x256 : S_.BroadcastsInDim S2048x32x256 (![] : Fin 0 → Fin S2048x32x256.rank)
  reducesTo_S2048x32x256_S2048x32_d2 : S2048x32x256.ReducesTo [2] S2048x32
  bcast_S2048x32_S2048x1x32_0_2 : S2048x32.BroadcastsInDim S2048x1x32 (![0, 2] : Fin 2 → Fin S2048x1x32.rank)
  bcast_S2048x32x1_S2048x32x32_0_1_2 : S2048x32x1.BroadcastsInDim S2048x32x32 (![0, 1, 2] : Fin 3 → Fin S2048x32x32.rank)
  bcast_S2048x1x32_S2048x32x32_0_1_2 : S2048x1x32.BroadcastsInDim S2048x32x32 (![0, 1, 2] : Fin 3 → Fin S2048x32x32.rank)
  bcast_S_S2048x32x32 : S_.BroadcastsInDim S2048x32x32 (![] : Fin 0 → Fin S2048x32x32.rank)
  bcast_S2048x32x256_S2048x1x32x256_0_2_3 : S2048x32x256.BroadcastsInDim S2048x1x32x256 (![0, 2, 3] : Fin 3 → Fin S2048x1x32x256.rank)
  concatenates_S2048x1x32x256_S2048x1x32x256_S2048x2x32x256_d1 : Shape.Concatenates [S2048x1x32x256, S2048x1x32x256] S2048x2x32x256 1
  pads_S2048x2x32x256_S2048x2x36x256_000_000_220_000 : S2048x2x32x256.Pads (![0, 0, 2, 0] : Fin 4 → Nat) ![0, 0, 2, 0] ![0, 0, 0, 0] S2048x2x36x256
  slices_S2x3_S1x1_0_0 : S2x3.Slices ![0, 0] S1x1
  shapeCasts_S1x1_S_ : S1x1.ShapeCasts S_
  slices_S2048x2x36x256_S2048x1x34x256_0_0_0_0 : S2048x2x36x256.Slices ![0, 0, 0, 0] S2048x1x34x256
  shapeCasts_S2048x1x34x256_S2048x34x256 : S2048x1x34x256.ShapeCasts S2048x34x256
  slices_S2x3_S1x1_0_1 : S2x3.Slices ![0, 1] S1x1
  slices_S2048x2x36x256_S2048x1x34x256_0_0_1_0 : S2048x2x36x256.Slices ![0, 0, 1, 0] S2048x1x34x256
  slices_S2x3_S1x1_0_2 : S2x3.Slices ![0, 2] S1x1
  slices_S2048x2x36x256_S2048x1x34x256_0_0_2_0 : S2048x2x36x256.Slices ![0, 0, 2, 0] S2048x1x34x256
  slices_S2x3_S1x1_1_0 : S2x3.Slices ![1, 0] S1x1
  slices_S2048x2x36x256_S2048x1x34x256_0_1_0_0 : S2048x2x36x256.Slices ![0, 1, 0, 0] S2048x1x34x256
  slices_S2x3_S1x1_1_1 : S2x3.Slices ![1, 1] S1x1
  slices_S2048x2x36x256_S2048x1x34x256_0_1_1_0 : S2048x2x36x256.Slices ![0, 1, 1, 0] S2048x1x34x256
  slices_S2x3_S1x1_1_2 : S2x3.Slices ![1, 2] S1x1
  slices_S2048x2x36x256_S2048x1x34x256_0_1_2_0 : S2048x2x36x256.Slices ![0, 1, 2, 0] S2048x1x34x256
  reducesTo_S2048x34x256_S2048x34_d2 : S2048x34x256.ReducesTo [2] S2048x34
  bcast_S2048x34_S2048x34x1_0_1 : S2048x34.BroadcastsInDim S2048x34x1 (![0, 1] : Fin 2 → Fin S2048x34x1.rank)
  bcast_S2048x34_S2048x1x34_0_2 : S2048x34.BroadcastsInDim S2048x1x34 (![0, 2] : Fin 2 → Fin S2048x1x34.rank)
  bcast_S2048x34x1_S2048x34x34_0_1_2 : S2048x34x1.BroadcastsInDim S2048x34x34 (![0, 1, 2] : Fin 3 → Fin S2048x34x34.rank)
  bcast_S2048x1x34_S2048x34x34_0_1_2 : S2048x1x34.BroadcastsInDim S2048x34x34 (![0, 1, 2] : Fin 3 → Fin S2048x34x34.rank)
  bcast_S_S2048x34x34 : S_.BroadcastsInDim S2048x34x34 (![] : Fin 0 → Fin S2048x34x34.rank)
  reducesTo_S2048x34x34_S2048x34_d2 : S2048x34x34.ReducesTo [2] S2048x34
  reducesTo_S2048x34x34_S2048x34_d1 : S2048x34x34.ReducesTo [1] S2048x34
  bcast_S2048x34x1_S2048x34x256_0_1_2 : S2048x34x1.BroadcastsInDim S2048x34x256 (![0, 1, 2] : Fin 3 → Fin S2048x34x256.rank)
  reducesTo_S2048x34x256_S2048x256_d1 : S2048x34x256.ReducesTo [1] S2048x256
  bcast_S_S2048x256 : S_.BroadcastsInDim S2048x256 (![] : Fin 0 → Fin S2048x256.rank)
  concatenates_S2048x256_S2048x256_S2048x512_d1 : Shape.Concatenates [S2048x256, S2048x256] S2048x512 1
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2_d0 : S2048x2.ReducesTo [0] S2
  bcast_S_S2 : S_.BroadcastsInDim S2 (![] : Fin 0 → Fin S2.rank)
  gather_S100000x256_S2048x32x1_S2048x32x256_2_0_n_n_0_2_1256_wf : GatherDims.WF S100000x256 S2048x32x1 S2048x32x256 [2] [0] [] [0] [] 2 ![1, 256]
  dot_S2048x32x256_S2048x32x256_S2048x32x32_2_2_1_1_0_0_wf : DotDims.WF S2048x32x256 S2048x32x256 S2048x32x32 [2] [2] [1] [1] [0] [0]
  dot_S2048x32x32_S32x256_S2048x32x256_2_0_01_1_n_n_wf : DotDims.WF S2048x32x32 S32x256 S2048x32x256 [2] [0] [0, 1] [1] [] []
  dot_S2048x34x256_S2048x34x256_S2048x34x34_2_2_1_1_0_0_wf : DotDims.WF S2048x34x256 S2048x34x256 S2048x34x34 [2] [2] [1] [1] [0] [0]
  dot_S2048x512_S512x64_S2048x64_1_0_0_1_n_n_wf : DotDims.WF S2048x512 S512x64 S2048x64 [1] [0] [0] [1] [] []
  dot_S2048x64_S64x2_S2048x2_1_0_0_1_n_n_wf : DotDims.WF S2048x64 S64x2 S2048x2 [1] [0] [0] [1] [] []

variable [Facts₀]

def gather_S100000x256_S2048x32x1_S2048x32x256_2_0_n_n_0_2_1256 : GatherDims S100000x256 S2048x32x1 S2048x32x256 where
  offsetDims := [2]
  collapsedSliceDims := [0]
  operandBatchingDims := []
  startIndicesBatchingDims := []
  startIndexMap := [0]
  indexVectorDim := 2
  sliceSizes := ![1, 256]
  wf := gather_S100000x256_S2048x32x1_S2048x32x256_2_0_n_n_0_2_1256_wf
def dot_S2048x32x256_S2048x32x256_S2048x32x32_2_2_1_1_0_0 : DotDims S2048x32x256 S2048x32x256 S2048x32x32 where
  lhsContracting := [2]
  rhsContracting := [2]
  lhsNonContracting := [1]
  rhsNonContracting := [1]
  lhsBatch := [0]
  rhsBatch := [0]
  wf := dot_S2048x32x256_S2048x32x256_S2048x32x32_2_2_1_1_0_0_wf
def dot_S2048x32x32_S32x256_S2048x32x256_2_0_01_1_n_n : DotDims S2048x32x32 S32x256 S2048x32x256 where
  lhsContracting := [2]
  rhsContracting := [0]
  lhsNonContracting := [0, 1]
  rhsNonContracting := [1]
  lhsBatch := []
  rhsBatch := []
  wf := dot_S2048x32x32_S32x256_S2048x32x256_2_0_01_1_n_n_wf
def dot_S2048x34x256_S2048x34x256_S2048x34x34_2_2_1_1_0_0 : DotDims S2048x34x256 S2048x34x256 S2048x34x34 where
  lhsContracting := [2]
  rhsContracting := [2]
  lhsNonContracting := [1]
  rhsNonContracting := [1]
  lhsBatch := [0]
  rhsBatch := [0]
  wf := dot_S2048x34x256_S2048x34x256_S2048x34x34_2_2_1_1_0_0_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

class Facts : Prop extends Facts₀ where

variable [Facts]
-- ==== Proof.Spec.lean ====
/-
  What one pair of sentences is mapped to, as plain mathematics on the extended reals.

  A sentence is a sequence of 32 positions with 256 features each. Written once here, with no program in sight:
  a width-3 convolution along the sequence over a zero border of two positions (32 positions in, 34 out), width-3
  average pooling (34 in, 32 out), the attention matrix of two sequences — the reciprocal of one plus the Euclidean
  distance of two positions, the squared distance expanded as |a|² + |b|² − 2⟨a, b⟩ and cut off at zero —, the product
  of an attention matrix with a weight matrix, the two-input width-3 convolution, the re-weighting of a sequence by the
  attention's row or column sums, the mean over the sequence, and the two dense layers at the end.
  Every sum is a finite sum over `Fin`; nothing here depends on how a program tiles the batch.
-/
import Idealize.ShloMosaic.PureOps.Ideal
import Idealize.ShloMosaic.Lib.ValueIdx

noncomputable section

namespace Abcnn

open Idealize.ShloMosaic

/-- A sequence of `n` positions, 256 features at each. -/
abbrev Seq (n : ℕ) := Fin n → Fin 256 → EReal

/-- The numbers one, two, thirty-four and zero as the single-precision words both programs carry. -/
abbrev oneW : EReal := Ideal.ofBits .f32 0x3F800000#32
abbrev twoW : EReal := Ideal.ofBits .f32 0x40000000#32
abbrev len34W : EReal := Ideal.ofBits .f32 0x42080000#32
abbrev zeroW : EReal := Ideal.ofBits .f32 0x00000000#32

/-- A sequence of 32 positions with two zero positions put before it and two after: position `i` of the 36. -/
def padTwo (x : Seq 32) (i : ℕ) (d : Fin 256) : EReal :=
  if h : 2 ≤ i ∧ i < 34 then x ⟨i - 2, by omega⟩ d else 0

/-- The width-3 convolution along the sequence: output position `i` (of 34) weighs the bordered positions `i`, `i+1`,
    `i+2`, and a bias is added. -/
def conv3 (w0 w1 w2 b : EReal) (x : Seq 32) : Seq 34 := fun i d =>
  w0 * padTwo x i.val d + w1 * padTwo x (i.val + 1) d + w2 * padTwo x (i.val + 2) d + b

/-- Width-3 average pooling: a third of the sum of positions `i`, `i+1`, `i+2`. -/
def pool3 (y : Seq 34) : Seq 32 := fun i d =>
  (y ⟨i.val, by omega⟩ d + y ⟨i.val + 1, by omega⟩ d + y ⟨i.val + 2, by omega⟩ d) * ((1 / 3 : ℝ) : EReal)

/-- The attention of two sequences of equal length: at positions `i` of the first and `j` of the second,
    `1 / (1 + √max(|aᵢ|² + |bⱼ|² − 2⟨aᵢ, bⱼ⟩, 0))`. -/
def attn {n : ℕ} (a b : Seq n) : Fin n → Fin n → EReal := fun i j =>
  Ideal.div oneW (oneW + Ideal.sqrt (max (((∑ d, a i d * a i d) + (∑ d, b j d * b j d)) - twoW * (∑ d, a i d * b j d)) zeroW))

/-- An attention matrix times a weight matrix. -/
def applyW (A : Fin 32 → Fin 32 → EReal) (W : Seq 32) : Seq 32 := fun i d => ∑ j, A i j * W j d

/-- The two-input width-3 convolution: three weights on the first sequence's bordered positions, three on the
    second's, and a bias. -/
def conv6 (w00 w01 w02 w10 w11 w12 b : EReal) (x y : Seq 32) : Seq 34 := fun i d =>
  w00 * padTwo x i.val d + w01 * padTwo x (i.val + 1) d + w02 * padTwo x (i.val + 2) d
    + w10 * padTwo y i.val d + w11 * padTwo y (i.val + 1) d + w12 * padTwo y (i.val + 2) d + b

/-- Each position of a sequence multiplied by that position's weight. -/
def scaleRows (c : Seq 34) (s : Fin 34 → EReal) : Seq 34 := fun i d => c i d * s i

/-- The sums of an attention matrix along its second index, and along its first. -/
def sumOverSecond (A : Fin 34 → Fin 34 → EReal) : Fin 34 → EReal := fun i => ∑ j, A i j
def sumOverFirst (A : Fin 34 → Fin 34 → EReal) : Fin 34 → EReal := fun j => ∑ i, A i j

/-- The mean of a sequence of 34 positions, feature by feature. -/
def meanSeq (y : Seq 34) : Fin 256 → EReal := fun d => Ideal.div (∑ i, y i d) len34W

/-- Two feature vectors side by side. -/
def joinHalves (u v : Fin 256 → EReal) : Fin 512 → EReal := fun k =>
  if h : k.val < 256 then u ⟨k.val, h⟩ else v ⟨k.val - 256, by omega⟩

/-- The hidden layer: `tanh` of the product with the first dense matrix plus its bias. -/
def hidden (fw1 : Fin 512 → Fin 64 → EReal) (fb1 : Fin 64 → EReal) (x : Fin 512 → EReal) : Fin 64 → EReal := fun n =>
  Ideal.tanh ((∑ k, x k * fw1 k n) + fb1 n)

/-- The two logits: the product with the second dense matrix plus its bias. -/
def logits2 (fw2 : Fin 64 → Fin 2 → EReal) (fb2 : Fin 2 → EReal) (h : Fin 64 → EReal) : Fin 2 → EReal := fun c =>
  (∑ n, h n * fw2 n c) + fb2 c

/-- Member `p` of a batch: the `[B, n, k]` array read at first coordinate `p`, as an `n × k` table. Both programs'
    stages are stated through it: a stage of the batch, read at member `p`, is the stage function of the inputs read at
    member `p` — every operation here acts on each member of the batch by itself. -/
def slab {B n k : ℕ} (x : (⟨3, ![B, n, k]⟩ : Shape).Idx → EReal) (p : Fin B) : Fin n → Fin k → EReal :=
  fun i j => x (ValueIdx.ix3 p i j)

@[simp] theorem slab_apply {B n k : ℕ} (x : (⟨3, ![B, n, k]⟩ : Shape).Idx → EReal) (p : Fin B) (i : Fin n) (j : Fin k) :
    slab x p i j = x (ValueIdx.ix3 p i j) := rfl

/-- Every entry of an array of 32-bit indices, read as a signed number, lies in `[-100000, 100000)`: the range in which
    an index (negative ones counted from the end) addresses a row of a table of 100000 rows. -/
def IdxInRange {S : Shape} (s : S.Idx → BitVec 32) : Prop :=
  ∀ j, (-100000 : ℤ) ≤ (s j).toInt ∧ (s j).toInt < 100000

/-- The first representation of a sentence: convolution, then pooling. -/
def rep (w0 w1 w2 b : EReal) (e : Seq 32) : Seq 32 := pool3 (conv3 w0 w1 w2 b e)

/-- The whole map of one pair of embedded sentences `e1`, `e2` to its two logits. -/
def rowLogits (c1w0 c1w1 c1w2 c1b c2w0 c2w1 c2w2 c2b w00 w01 w02 w10 w11 w12 c3b : EReal) (W0 W1 : Seq 32)
    (fw1 : Fin 512 → Fin 64 → EReal) (fb1 : Fin 64 → EReal) (fw2 : Fin 64 → Fin 2 → EReal) (fb2 : Fin 2 → EReal)
    (e1 e2 : Seq 32) : Fin 2 → EReal :=
  logits2 fw2 fb2 (hidden fw1 fb1 (joinHalves
    (meanSeq (conv3 c2w0 c2w1 c2w2 c2b (pool3 (scaleRows
      (conv6 w00 w01 w02 w10 w11 w12 c3b (rep c1w0 c1w1 c1w2 c1b e1) (applyW (attn (rep c1w0 c1w1 c1w2 c1b e1) (rep c1w0 c1w1 c1w2 c1b e2)) W0))
      (sumOverSecond (attn
        (conv6 w00 w01 w02 w10 w11 w12 c3b (rep c1w0 c1w1 c1w2 c1b e1) (applyW (attn (rep c1w0 c1w1 c1w2 c1b e1) (rep c1w0 c1w1 c1w2 c1b e2)) W0))
        (conv6 w00 w01 w02 w10 w11 w12 c3b (rep c1w0 c1w1 c1w2 c1b e2) (applyW (attn (rep c1w0 c1w1 c1w2 c1b e1) (rep c1w0 c1w1 c1w2 c1b e2)) W1))))))))
    (meanSeq (conv3 c2w0 c2w1 c2w2 c2b (pool3 (scaleRows
      (conv6 w00 w01 w02 w10 w11 w12 c3b (rep c1w0 c1w1 c1w2 c1b e2) (applyW (attn (rep c1w0 c1w1 c1w2 c1b e1) (rep c1w0 c1w1 c1w2 c1b e2)) W1))
      (sumOverFirst (attn
        (conv6 w00 w01 w02 w10 w11 w12 c3b (rep c1w0 c1w1 c1w2 c1b e1) (applyW (attn (rep c1w0 c1w1 c1w2 c1b e1) (rep c1w0 c1w1 c1w2 c1b e2)) W0))
        (conv6 w00 w01 w02 w10 w11 w12 c3b (rep c1w0 c1w1 c1w2 c1b e2) (applyW (attn (rep c1w0 c1w1 c1w2 c1b e1) (rep c1w0 c1w1 c1w2 c1b e2)) W1))))))))))

end Abcnn

end
-- ==== Proof.KHost.lean ====
/-
  The kernel program's host side around its one region, as values: the rows gathered from the embedding table (a negative
  index counted from the end, then the gather), which is what the region's first two windows hold when every index is in
  range (the fill the program selects outside `[0, 99999]` is then never taken); the five re-laid biases; and the
  column-wise softmax the program applies to the region's result.
-/
import proofs.«401517_j58695023067400_1_alg».proof.Proof.Gen.KernelIdeal.Frame
import proofs.«401517_j58695023067400_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.KVal

open Idealize.ShloMosaic Idealize.ShloMosaic.ValueIdx Idealize.ShloMosaic.TcCoe Idealize.SL.Sem Cert.KernelIdeal Cert.KernelIdeal.Gen Abcnn

/-- The rows of the table `tbl` that the index array `s` names: an index below zero has 100000 added, then row by row
    the gather (the program's own operations, in its order). -/
def gathered (tbl : FVec Ideal S100000x256 .f32) (s : IVec S2048x32 32) : FVec Ideal S2048x32x256 .f32 :=
  Host.gather gather_S100000x256_S2048x32x1_S2048x32x256_2_0_n_n_0_2_1256 tbl
    (broadcastInDim S2048x32x1 ![0, 1] bcast_S2048x32_S2048x32x1_0_1
      (select (cmpi .slt s (broadcastInDim S2048x32 ![] bcast_S_S2048x32 (constantI S_ 32 0#32)))
        (addi s (broadcastInDim S2048x32 ![] bcast_S_S2048x32 (constantI S_ 32 100000#32))) s))

/-- The softmax down each of the two columns of a `[2048, 2]` array, as the program computes it: subtract the column's
    maximum, exponentiate, divide by the column's sum. -/
def tail (L : FVec Ideal S2048x2 .f32) : FVec Ideal S2048x2 .f32 :=
  Host.divf (F := Ideal)
    (Host.exp (subf L (broadcastInDim S2048x2 ![0, 1] bcast_S1x2_S2048x2_0_1 (broadcastInDim S1x2 ![1] bcast_S2_S1x2_1
      (maximumf (broadcastInDim S2 ![] bcast_S_S2 (constant S_ .f32 0xFF800000#32))
        (Host.reduce FloatOps.maximumf L (constant S_ .f32 0xFF800000#32) reducesTo_S2048x2_S2_d0 h_S_))))))
    (broadcastInDim S2048x2 ![0, 1] bcast_S1x2_S2048x2_0_1 (broadcastInDim S1x2 ![1] bcast_S2_S1x2_1
      (Host.reduceAdd
        (Host.exp (subf L (broadcastInDim S2048x2 ![0, 1] bcast_S1x2_S2048x2_0_1 (broadcastInDim S1x2 ![1] bcast_S2_S1x2_1
          (maximumf (broadcastInDim S2 ![] bcast_S_S2 (constant S_ .f32 0xFF800000#32))
            (Host.reduce FloatOps.maximumf L (constant S_ .f32 0xFF800000#32) reducesTo_S2048x2_S2_d0 h_S_))))))
        (constant S_ .f32 0x00000000#32) reducesTo_S2048x2_S2_d0 h_S_)))

/-! ## One index: counted from the end when negative, it passes both bounds checks -/

/-- An index counted from the end when negative: `s + 100000` if `s < 0`, else `s`. -/
private def wrapIdx (s : BitVec 32) : BitVec 32 :=
  Scalar.select (IntOp.cmpi .slt s 0#32) (IntOp.addi s 100000#32) s

/-- For `-100000 ≤ s < 100000` the index counted from the end lies in `[0, 99999]`: a negative `s` becomes
    `s + 100000` (no wrap-around at 32 bits), a non-negative one stays. -/
private theorem wrapIdx_range (s : BitVec 32) (h1 : (-100000 : ℤ) ≤ s.toInt) (h2 : s.toInt < 100000) :
    0 ≤ (wrapIdx s).toInt ∧ (wrapIdx s).toInt ≤ 99999 := by
  unfold wrapIdx Scalar.select IntOp.cmpi IntOp.addi
  have h0 : (0#32 : BitVec 32).toInt = 0 := by decide
  have hc : (100000#32 : BitVec 32).toInt = 100000 := by decide
  by_cases hs : s.toInt < 0
  · have e : BitVec.ofBool (s.slt 0#32) = 1 :=
      (StableHlo.Predicate.ofBool_eq_one_iff _).2 (by simp only [BitVec.slt, h0, decide_eq_true_eq]; exact hs)
    rw [if_pos e, BitVec.toInt_add, hc, Int.bmod_def]
    simp only [Nat.reducePow, Nat.cast_ofNat, Nat.reduceAdd, Nat.reduceDiv]
    omega
  · have e : ¬ BitVec.ofBool (s.slt 0#32) = 1 := fun e' =>
      hs (by have := (StableHlo.Predicate.ofBool_eq_one_iff _).1 e'; simpa only [BitVec.slt, h0, decide_eq_true_eq] using this)
    rw [if_neg e]
    omega

/-- So both bounds checks on it pass. -/
private theorem wrapIdx_mask (s : BitVec 32) (h1 : (-100000 : ℤ) ≤ s.toInt) (h2 : s.toInt < 100000) :
    IntOp.andi (IntOp.cmpi .sge (wrapIdx s) 0#32) (IntOp.cmpi .sle (wrapIdx s) 99999#32) = 1#1 := by
  obtain ⟨ha, hb⟩ := wrapIdx_range s h1 h2
  have h0 : (0#32 : BitVec 32).toInt = 0 := by decide
  have hc : (99999#32 : BitVec 32).toInt = 99999 := by decide
  rw [IntOp.andi_eq_one]
  unfold IntOp.cmpi
  exact ⟨(StableHlo.Predicate.ofBool_eq_one_iff _).2 (by simp only [BitVec.sle, h0, decide_eq_true_eq]; exact ha),
    (StableHlo.Predicate.ofBool_eq_one_iff _).2 (by simp only [BitVec.sle, hc, decide_eq_true_eq]; exact hb)⟩

/-- A conjunction of ones, started from one, is one. -/
private theorem fold_andi_ones {ι : Type} (S : Finset ι) (x : ι → BitVec 1) (hx : ∀ i, x i = 1#1) :
    S.fold IntOp.andi 1#1 x = 1#1 := by
  induction S using Finset.cons_induction with
  | empty => rfl
  | cons a S ha ih => rw [Finset.fold_cons, ih, hx a]; rfl

/-- An and-reduction (from the constant one) of an array of ones is one at every index. -/
private theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_fold]
  exact fold_andi_ones _ x hx

/-! ## The bounds mask over the whole index array -/

/-- The index array with every negative entry counted from the end, as the program computes it. -/
private abbrev wrapped (s : IVec S2048x32 32) : IVec S2048x32 32 :=
  select (cmpi .slt s (broadcastInDim S2048x32 ![] bcast_S_S2048x32 (constantI S_ 32 0#32)))
    (addi s (broadcastInDim S2048x32 ![] bcast_S_S2048x32 (constantI S_ 32 100000#32))) s

/-- The program's bounds mask — both checks at each wrapped index, and-reduced over the unit axis, repeated along the
    feature axis — is one everywhere when every index is in range. -/
private theorem mask_one (s : IVec S2048x32 32) (h : IdxInRange s) (j : S2048x32x256.Idx) :
    (broadcastInDim S2048x32x256 ![0, 1] bcast_S2048x32_S2048x32x256_0_1
      (Host.reduce IntOp.andi
        (andi
          (cmpi .sge (broadcastInDim S2048x32x1 ![0, 1] bcast_S2048x32_S2048x32x1_0_1 (wrapped s))
            (broadcastInDim S2048x32x1 ![] bcast_S_S2048x32x1 (constantI S_ 32 0#32)))
          (cmpi .sle (broadcastInDim S2048x32x1 ![0, 1] bcast_S2048x32_S2048x32x1_0_1 (wrapped s))
            (broadcastInDim S2048x32x1 ![0, 1, 2] bcast_S1x1x1_S2048x32x1_0_1_2
              (broadcastInDim S1x1x1 ![2] bcast_S1_S1x1x1_2 (constantI S1 32 99999#32)))))
        (constantI S_ 1 1#1) reducesTo_S2048x32x1_S2048x32_d2 h_S_)) j = 1#1 := by
  show Host.reduce IntOp.andi _ (constantI S_ 1 1#1) reducesTo_S2048x32x1_S2048x32_d2 h_S_ _ = 1#1
  refine reduce_andi_ones _ (fun i => ?_) _ _ _
  show IntOp.andi (IntOp.cmpi .sge (wrapIdx (s _)) 0#32) (IntOp.cmpi .sle (wrapIdx (s _)) 99999#32) = 1#1
  exact wrapIdx_mask _ (h _).1 (h _).2

/-- Hence the select on that mask always takes the gathered rows. -/
private theorem take_eq_gathered (tbl : FVec Ideal S100000x256 .f32) (s : IVec S2048x32 32) (h : IdxInRange s) :
    select (broadcastInDim S2048x32x256 ![0, 1] bcast_S2048x32_S2048x32x256_0_1
      (Host.reduce IntOp.andi
        (andi
          (cmpi .sge (broadcastInDim S2048x32x1 ![0, 1] bcast_S2048x32_S2048x32x1_0_1 (wrapped s))
            (broadcastInDim S2048x32x1 ![] bcast_S_S2048x32x1 (constantI S_ 32 0#32)))
          (cmpi .sle (broadcastInDim S2048x32x1 ![0, 1] bcast_S2048x32_S2048x32x1_0_1 (wrapped s))
            (broadcastInDim S2048x32x1 ![0, 1, 2] bcast_S1x1x1_S2048x32x1_0_1_2
              (broadcastInDim S1x1x1 ![2] bcast_S1_S1x1x1_2 (constantI S1 32 99999#32)))))
        (constantI S_ 1 1#1) reducesTo_S2048x32x1_S2048x32_d2 h_S_))
      (Host.gather gather_S100000x256_S2048x32x1_S2048x32x256_2_0_n_n_0_2_1256 tbl
        (broadcastInDim S2048x32x1 ![0, 1] bcast_S2048x32_S2048x32x1_0_1 (wrapped s)))
      (broadcastInDim S2048x32x256 ![] bcast_S_S2048x32x256 (constant (F := Ideal) S_ .f32 0x7FC00000#32))
      = gathered tbl s := by
  funext j
  rw [select_apply, mask_one s h j, select_one]
  rfl

/-! ## A rank-0 array re-laid as a one-entry array -/

/-- It reads its single value at the one index. -/
private theorem shapeCast_scalar_one_apply {α : Type} (x : S_.Idx → α) (h : S_.ShapeCasts S1) :
    shapeCast S1 x h (ix1 0) = x ix0 := by
  refine shapeCast_apply x h _ ix0 ?_
  rw [Shape.rowMajor_val_one]
  have hlt := (S_.rowMajor ix0).isLt
  have e : S_.numel = 1 := by decide
  show _ = 0
  omega

variable (m : (ℓ : Loc nD τ sig) → Buf (Elt Ideal) ℓ)

/-- With every index in range the region's first window holds the gathered rows (the bounds mask is all ones). -/
theorem V_e1 (c : Dev nD) (h : IdxInRange (m ((c.tc : Thread nD τ).loc main_arg0))) :
    V m c main_v0 = gathered (m ((c.tc : Thread nD τ).loc main_arg2)) (m ((c.tc : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_cast, cast_eq]
  exact take_eq_gathered _ _ h
theorem V_e2 (c : Dev nD) (h : IdxInRange (m ((c.tc : Thread nD τ).loc main_arg1))) :
    V m c main_v1 = gathered (m ((c.tc : Thread nD τ).loc main_arg2)) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_cast, cast_eq]
  exact take_eq_gathered _ _ h

/-- The three scalar biases re-laid as one-entry arrays, and the two dense biases re-laid as one-row arrays. -/
theorem V_c1b (c : Dev nD) : V m c main_v2 (ix1 0) = (m ((c.tc : Thread nD τ).loc main_arg4)) ix0 := by
  dsimp only [Gen.V, Gen.V0]
  simp only [Gen.hostOps0, Gen.hostOps0_1, Gen.hostOps0_2, List.flatten_cons, List.flatten_nil, List.append_nil, List.cons_append, List.nil_append]
  after_results_simp
  exact shapeCast_scalar_one_apply _ _
theorem V_c2b (c : Dev nD) : V m c main_v3 (ix1 0) = (m ((c.tc : Thread nD τ).loc main_arg6)) ix0 := by
  dsimp only [Gen.V, Gen.V0]
  simp only [Gen.hostOps0, Gen.hostOps0_1, Gen.hostOps0_2, List.flatten_cons, List.flatten_nil, List.append_nil, List.cons_append, List.nil_append]
  after_results_simp
  exact shapeCast_scalar_one_apply _ _
theorem V_c3b (c : Dev nD) : V m c main_v4 (ix1 0) = (m ((c.tc : Thread nD τ).loc main_arg8)) ix0 := by
  dsimp only [Gen.V, Gen.V0]
  simp only [Gen.hostOps0, Gen.hostOps0_1, Gen.hostOps0_2, List.flatten_cons, List.flatten_nil, List.append_nil, List.cons_append, List.nil_append]
  after_results_simp
  exact shapeCast_scalar_one_apply _ _
theorem V_fb1 (c : Dev nD) (n : Fin 64) : V m c main_v5 (ix2 0 n) = (m ((c.tc : Thread nD τ).loc main_arg12)) (ix1 n) := by
  dsimp only [Gen.V, Gen.V0]
  simp only [Gen.hostOps0, Gen.hostOps0_1, Gen.hostOps0_2, List.flatten_cons, List.flatten_nil, List.append_nil, List.cons_append, List.nil_append]
  after_results_simp
  exact shapeCast_a_1a_apply _ _ 0 n
theorem V_fb2 (c : Dev nD) (k : Fin 2) : V m c main_v6 (ix2 0 k) = (m ((c.tc : Thread nD τ).loc main_arg14)) (ix1 k) := by
  dsimp only [Gen.V, Gen.V0]
  simp only [Gen.hostOps0, Gen.hostOps0_1, Gen.hostOps0_2, List.flatten_cons, List.flatten_nil, List.append_nil, List.cons_append, List.nil_append]
  after_results_simp
  exact shapeCast_a_1a_apply _ _ 0 k

end Cert.KernelIdeal.KVal

end
-- ==== Proof.KConv.lean ====
/-
  The kernel body's convolution, pooling and border stages, each read at one member `p` of the 64-member block:
  the stage of the block, read at member `p`, is the stage function (Spec.lean) of the inputs read at member `p`.

  Everything here is read one entry at a time. Three facts carry all of it: a block laid between two zero blocks
  along the sequence axis is the bordered sequence `padTwo`; a window cut at offset `k` along that axis reads its
  source `k` positions further on; and the named constant of the pooling stage is the real number one third.
-/
import proofs.«401517_j58695023067400_1_alg».proof.Proof.Gen.KernelIdeal.Skeleton
import proofs.«401517_j58695023067400_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Stages

open Idealize.ShloMosaic Idealize.ShloMosaic.ValueIdx Cert.KernelIdeal Cert.KernelIdeal.Gen Abcnn

/-- The word of thirty-two zero bits is the number zero. -/
private theorem zeroWord : (Scalar.ofBits .f32 0x00000000#32 : Ideal .f32) = 0 := Ideal.ofBits_zero_f32

/-- The pooling stage's named constant is the real number one third. -/
private theorem inv3 : Named.named (F := Ideal) Cert.KernelIdeal.κ "inv_3" (φ := .f32) 0x3EAAAAAB#32 = ((1 / 3 : ℝ) : EReal) :=
  IdealRules.named_const.ideal_named_scalar _ _ _ _ rfl

/-- Two positions that are zero, the 32 positions of `x`, two more that are zero, laid end to end along the sequence
    axis: position `i` of the 36, in member `p`, is the bordered sequence at `i`. Three cases on `i`: below 2 it falls in
    the first block, from 2 to 33 in `x` at `i - 2`, from 34 on in the last block at `i - 34`. -/
private theorem bordered_apply (z1 z2 : FVec Ideal S64x2x256 .f32) (x : FVec Ideal S64x32x256 .f32)
    (h : Shape.Concatenates [S64x2x256, S64x32x256, S64x2x256] S64x36x256 1)
    (hz1 : ∀ j, z1 j = 0) (hz2 : ∀ j, z2 j = 0) (p : Fin 64) (i : Fin 36) (d : Fin 256) :
    concatenate S64x36x256 1 [⟨S64x2x256, z1⟩, ⟨S64x32x256, x⟩, ⟨S64x2x256, z2⟩] h (ix3 p i d) = padTwo (slab x p) i.val d := by
  unfold padTwo
  by_cases h1 : i.val < 2
  · rw [dif_neg (by omega)]
    refine (concatenate_apply_piece (t := S64x36x256) 1
      ([⟨S64x2x256, z1⟩, ⟨S64x32x256, x⟩, ⟨S64x2x256, z2⟩] : List ((s : Shape) × (s.Idx → EReal))) h (ix3 p i d)
      0 (Nat.zero_lt_succ _) S64x2x256 z1 rfl rfl 0 rfl (ix3 p ⟨i.val, h1⟩ d) ?_ ?_).trans (hz1 _)
    · intro b hb
      match b with
      | ⟨0, _⟩ => rfl
      | ⟨1, _⟩ => exact absurd rfl hb
      | ⟨2, _⟩ => rfl
    · show 0 + i.val = i.val
      omega
  · by_cases h2 : i.val < 34
    · rw [dif_pos ⟨by omega, h2⟩]
      refine (concatenate_apply_piece (t := S64x36x256) 1
        ([⟨S64x2x256, z1⟩, ⟨S64x32x256, x⟩, ⟨S64x2x256, z2⟩] : List ((s : Shape) × (s.Idx → EReal))) h (ix3 p i d)
        1 (by show 1 < 3; omega) S64x32x256 x rfl rfl 2 rfl (ix3 p ⟨i.val - 2, by omega⟩ d) ?_ ?_).trans ?_
      · intro b hb
        match b with
        | ⟨0, _⟩ => rfl
        | ⟨1, _⟩ => exact absurd rfl hb
        | ⟨2, _⟩ => rfl
      · show 2 + (i.val - 2) = i.val
        omega
      · rfl
    · rw [dif_neg (by omega)]
      have hi := i.isLt
      refine (concatenate_apply_piece (t := S64x36x256) 1
        ([⟨S64x2x256, z1⟩, ⟨S64x32x256, x⟩, ⟨S64x2x256, z2⟩] : List ((s : Shape) × (s.Idx → EReal))) h (ix3 p i d)
        2 (by show 2 < 3; omega) S64x2x256 z2 rfl rfl 34 rfl (ix3 p ⟨i.val - 34, by omega⟩ d) ?_ ?_).trans (hz2 _)
      · intro b hb
        match b with
        | ⟨0, _⟩ => rfl
        | ⟨1, _⟩ => exact absurd rfl hb
        | ⟨2, _⟩ => rfl
      · show 34 + (i.val - 34) = i.val
        omega

/-- The same with both borders written as blocks of the zero word, the way the kernel builds them. -/
private theorem padded_apply (x : FVec Ideal S64x32x256 .f32)
    (h : Shape.Concatenates [S64x2x256, S64x32x256, S64x2x256] S64x36x256 1) (p : Fin 64) (i : Fin 36) (d : Fin 256) :
    concatenate S64x36x256 1 [⟨S64x2x256, broadcast S64x2x256 (Scalar.ofBits (F := Ideal) .f32 0x00000000#32)⟩, ⟨S64x32x256, x⟩,
      ⟨S64x2x256, broadcast S64x2x256 (Scalar.ofBits (F := Ideal) .f32 0x00000000#32)⟩] h (ix3 p i d) = padTwo (slab x p) i.val d :=
  bordered_apply _ _ x h (fun _ => zeroWord) (fun _ => zeroWord) p i d

/-- A window of 34 positions starting at position `k` of a 36-position block: position `i` of the window is position
    `i + k` of the block; member and feature are untouched. -/
private theorem window36_apply (k : Nat) (x : FVec Ideal S64x36x256 .f32) (h : S64x36x256.Slices ![0, k, 0] S64x34x256)
    (p : Fin 64) (i : Fin 34) (d : Fin 256) (hk : i.val + k < 36) :
    extractStridedSlice S64x34x256 ![0, k, 0] x h (ix3 p i d) = x (ix3 p ⟨i.val + k, hk⟩ d) := by
  refine extractStridedSlice_apply _ x h _ _ ?_
  intro a
  match a with
  | ⟨0, _⟩ => show p.val = 0 + p.val; omega
  | ⟨1, _⟩ => show i.val + k = k + i.val; omega
  | ⟨2, _⟩ => show d.val = 0 + d.val; omega

/-- A window of 32 positions starting at position `k` of a 34-position block. -/
private theorem window34_apply (k : Nat) (x : FVec Ideal S64x34x256 .f32) (h : S64x34x256.Slices ![0, k, 0] S64x32x256)
    (p : Fin 64) (i : Fin 32) (d : Fin 256) (hk : i.val + k < 34) :
    extractStridedSlice S64x32x256 ![0, k, 0] x h (ix3 p i d) = x (ix3 p ⟨i.val + k, hk⟩ d) := by
  refine extractStridedSlice_apply _ x h _ _ ?_
  intro a
  match a with
  | ⟨0, _⟩ => show p.val = 0 + p.val; omega
  | ⟨1, _⟩ => show i.val + k = k + i.val; omega
  | ⟨2, _⟩ => show d.val = 0 + d.val; omega

/-- The width-3 convolution stage at member `p`: the three windows of the bordered block at offsets 0, 1, 2 read the
    bordered sequence at `i`, `i + 1`, `i + 2`; the weights, the order of the sum and the bias are the Spec's. -/
private theorem conv_row (w0 w1 w2 b : EReal) (x : FVec Ideal S64x32x256 .f32) (p : Fin 64) :
    slab (k0_pay21 (F := Ideal) w0 w1 w2 b x) p = conv3 w0 w1 w2 b (slab x p) := by
  funext i d
  rw [slab_apply]
  unfold k0_pay21 conv3
  simp only [addf_apply, mulf_apply, broadcast_apply]
  rw [window36_apply 0 _ _ p i d (by omega), window36_apply 1 _ _ p i d (by omega), window36_apply 2 _ _ p i d (by omega)]
  rw [padded_apply, padded_apply, padded_apply]
  rfl

/-- The width-3 pooling stage at member `p`: the three windows at offsets 0, 1, 2 of the 34 positions, summed in the
    Spec's order, times the named third. -/
private theorem pool_row (y : FVec Ideal S64x34x256 .f32) (p : Fin 64) :
    slab (k0_pay22 (F := Ideal) y) p = pool3 (slab y p) := by
  funext i d
  rw [slab_apply]
  unfold k0_pay22 pool3
  simp only [addf_apply, mulf_apply, broadcast_apply, slab_apply]
  rw [window34_apply 0 _ _ p i d (by omega), window34_apply 1 _ _ p i d (by omega), window34_apply 2 _ _ p i d (by omega)]
  rw [inv3]
  rfl

/-- The two embedding blocks are passed on as loaded. -/
theorem pay16_eq (v : Vec Ideal S64x32x256 .f32) : k0_pay16 (F := Ideal) v = v := by
  unfold k0_pay16
  exact shapeCast_self v _
theorem pay17_eq (v : Vec Ideal S64x32x256 .f32) : k0_pay17 (F := Ideal) v = v := by
  unfold k0_pay17
  exact shapeCast_self v _

/-- The first sentence's representation: border, width-3 convolution, width-3 pooling with the named third. -/
theorem pay20_row (w0 w1 w2 b : EReal) (x : FVec Ideal S64x32x256 .f32) (p : Fin 64) :
    slab (k0_pay20 (F := Ideal) w0 w1 w2 b x) p = rep w0 w1 w2 b (slab x p) := by
  -- operation for operation this payload is the convolution stage followed by the pooling stage
  have hcomp : k0_pay20 (F := Ideal) w0 w1 w2 b x = k0_pay22 (F := Ideal) (k0_pay21 (F := Ideal) w0 w1 w2 b x) := rfl
  rw [hcomp, pool_row, conv_row]
  rfl

/-- The second sentence's convolution (its pooling is the next payload). -/
theorem pay21_row (w0 w1 w2 b : EReal) (x : FVec Ideal S64x32x256 .f32) (p : Fin 64) :
    slab (k0_pay21 (F := Ideal) w0 w1 w2 b x) p = conv3 w0 w1 w2 b (slab x p) :=
  conv_row w0 w1 w2 b x p

/-- Width-3 pooling of a 34-position block. -/
theorem pay22_row (y : FVec Ideal S64x34x256 .f32) (p : Fin 64) :
    slab (k0_pay22 (F := Ideal) y) p = pool3 (slab y p) :=
  pool_row y p

/-- The bordered first representation: position `i` of the 36. -/
theorem pay26_pad (a : FVec Ideal S64x32x256 .f32) (p : Fin 64) (i : Fin 36) (d : Fin 256) :
    k0_pay26 (F := Ideal) a (ix3 p i d) = padTwo (slab a p) i.val d := by
  unfold k0_pay26
  exact padded_apply a _ p i d

/-- The four zero borders. -/
theorem pay27_zero (j : S64x2x256.Idx) : k0_pay27 (F := Ideal) j = 0 := zeroWord
theorem pay28_zero (j : S64x2x256.Idx) : k0_pay28 (F := Ideal) j = 0 := zeroWord
theorem pay36_zero (j : S64x2x256.Idx) : k0_pay36 (F := Ideal) j = 0 := zeroWord
theorem pay37_zero (j : S64x2x256.Idx) : k0_pay37 (F := Ideal) j = 0 := zeroWord

/-- The first two-input convolution: over a bordered first input `v132` (the border of `a`) and the second input
    `v123` bordered by the zero blocks `v133`, `v134`. -/
theorem pay29_row (w00 w01 w02 w10 w11 w12 b : EReal) (v123 : FVec Ideal S64x32x256 .f32) (v132 : FVec Ideal S64x36x256 .f32)
    (v133 v134 : FVec Ideal S64x2x256 .f32) (p : Fin 64) (a : Seq 32)
    (h132 : ∀ (i : Fin 36) (d : Fin 256), v132 (ix3 p i d) = padTwo a i.val d)
    (h133 : ∀ j, v133 j = 0) (h134 : ∀ j, v134 j = 0) :
    slab (k0_pay29 (F := Ideal) w00 w01 w02 w10 w11 w12 b v123 v132 v133 v134) p = conv6 w00 w01 w02 w10 w11 w12 b a (slab v123 p) := by
  funext i d
  rw [slab_apply]
  unfold k0_pay29 conv6
  simp only [addf_apply, mulf_apply, broadcast_apply]
  -- the three windows of the first bordered block, then the three of the second
  rw [window36_apply 0 v132 _ p i d (by omega), window36_apply 1 v132 _ p i d (by omega), window36_apply 2 v132 _ p i d (by omega),
    window36_apply 0 _ _ p i d (by omega), window36_apply 1 _ _ p i d (by omega), window36_apply 2 _ _ p i d (by omega)]
  rw [h132, h132, h132, bordered_apply v133 v134 v123 _ h133 h134, bordered_apply v133 v134 v123 _ h133 h134,
    bordered_apply v133 v134 v123 _ h133 h134]
  rfl

/-- The second two-input convolution: the six weighted terms, the bias block, and their sum. -/
theorem pay32_row (w00 w01 w02 w10 w11 w12 b : EReal) (v95 v129 : FVec Ideal S64x32x256 .f32) (p : Fin 64) :
    slab (k0_pay32 (F := Ideal) (k0_pay30 (F := Ideal) w00 w01 w02 w10 w11 w12 v95 v129) (k0_pay31 (F := Ideal) b)) p
      = conv6 w00 w01 w02 w10 w11 w12 b (slab v95 p) (slab v129 p) := by
  -- operation for operation the three payloads together are the first two-input convolution, taken over the border of
  -- `v95` and two zero blocks
  have hcomp : k0_pay32 (F := Ideal) (k0_pay30 (F := Ideal) w00 w01 w02 w10 w11 w12 v95 v129) (k0_pay31 (F := Ideal) b)
      = k0_pay29 (F := Ideal) w00 w01 w02 w10 w11 w12 b v129 (k0_pay26 (F := Ideal) v95) (k0_pay27 (F := Ideal)) (k0_pay28 (F := Ideal)) := rfl
  rw [hcomp]
  exact pay29_row w00 w01 w02 w10 w11 w12 b v129 _ _ _ p (slab v95 p) (pay26_pad v95 p) pay27_zero pay28_zero

end Cert.KernelIdeal.Stages

end
-- ==== Proof.KAttn.lean ====
/-
  The kernel body's attention stages read at one member `p` of the block: the squared norms as lane sums, the inner
  products as the batched matrix product, the attention applied to a weight matrix, and the second attention with its
  row and column sums re-weighting the two feature sequences before pooling.
-/
import proofs.«401517_j58695023067400_1_alg».proof.Proof.Gen.KernelIdeal.Skeleton
import proofs.«401517_j58695023067400_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stages

open Idealize.ShloMosaic Idealize.ShloMosaic.ValueIdx Cert.KernelIdeal Cert.KernelIdeal.Gen Abcnn

/-! ## Pointwise facts and sums along one axis -/

/-- The square root of an array, read at an index. -/
private theorem sqrt_apply {s : Shape} {φ : FTy} (x : FVec Ideal s φ) (i : s.Idx) : sqrt x i = Ideal.sqrt (x i) := rfl

/-- The named third. -/
private theorem inv3_eq : Named.named (F := Ideal) κ "inv_3" (φ := .f32) 0x3EAAAAAB#32 = ((1 / 3 : ℝ) : EReal) :=
  IdealRules.named_const.ideal_named_scalar _ _ _ _ rfl

/-- A sum along the last axis of a rank-3 array. -/
private theorem sumLast_apply {n0 n1 n2 : ℕ} (x : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (p : Fin n0) (i : Fin n1) :
    multiReduction .add [2] ⟨2, ![n0, n1]⟩ x 0x00000000#32 h hφ hacc (ix2 p i) = ∑ d : Fin n2, x (ix3 p i d) := by
  refine (Ideal.multiReduction_add_single x 0x00000000#32 h hφ hacc (ix2 p i)).trans ?_
  exact Finset.sum_congr rfl fun k _ => congrArg x (funext fun a => Fin.ext (by
    match a with | ⟨0, _⟩ => rfl | ⟨1, _⟩ => rfl | ⟨2, _⟩ => rfl))

/-- A sum along the middle axis of a rank-3 array. -/
private theorem sumMid_apply {n0 n1 n2 : ℕ} (x : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (p : Fin n0) (j : Fin n2) :
    multiReduction .add [1] ⟨2, ![n0, n2]⟩ x 0x00000000#32 h hφ hacc (ix2 p j) = ∑ i : Fin n1, x (ix3 p i j) := by
  refine (Ideal.multiReduction_add_single x 0x00000000#32 h hφ hacc (ix2 p j)).trans ?_
  exact Finset.sum_congr rfl fun k _ => congrArg x (funext fun a => Fin.ext (by
    match a with | ⟨0, _⟩ => rfl | ⟨1, _⟩ => rfl | ⟨2, _⟩ => rfl))

/-! ## The keepdims re-layings read at an index -/

/-- An `[a, b]` array cast to `[a, b, 1]` reads, at `(p, i, u)`, the operand at `(p, i)`. -/
private theorem shapeCast_ab_ab1_apply {α : Type} {a b : ℕ} (x : (⟨2, ![a, b]⟩ : Shape).Idx → α)
    (h : (⟨2, ![a, b]⟩ : Shape).ShapeCasts ⟨3, ![a, b, 1]⟩) (p : Fin a) (i : Fin b) (u : Fin 1) :
    shapeCast ⟨3, ![a, b, 1]⟩ x h (ix3 p i u) = x (ix2 p i) :=
  shapeCast_apply x h _ _ (by
    have hu : u.val = 0 := by omega
    rw [Shape.rowMajor_val_three, Shape.rowMajor_val_two]
    show p.val * b + i.val = (p.val * b + i.val) * 1 + u.val
    rw [hu, Nat.mul_one, Nat.add_zero])

/-- An `[a, b]` array cast to `[a, 1, b]` reads, at `(p, u, j)`, the operand at `(p, j)`. -/
private theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-- An `[a, b, 1]` array broadcast to `[a, b, c]` reads, at `(p, i, j)`, the operand at `(p, i, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ v h (ix3 p i j) = v (ix3 p i (0 : Fin 1)) := by
  refine broadcastTo_apply v h (ix3 p i j) (ix3 p i (0 : Fin 1)) fun ax => ?_
  match ax with
  | ⟨0, _⟩ =>
    show p.val = if a = 1 then 0 else p.val
    split
    · have := p.isLt; omega
    · rfl
  | ⟨1, _⟩ =>
    show i.val = if b = 1 then 0 else i.val
    split
    · have := i.isLt; omega
    · rfl
  | ⟨2, _⟩ => rfl

/-- An `[a, 1, c]` array broadcast to `[a, b, c]` reads, at `(p, i, j)`, the operand at `(p, 0, j)`. -/
private theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ v h (ix3 p i j) = v (ix3 p (0 : Fin 1) j) := by
  refine broadcastTo_apply v h (ix3 p i j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand at `(0, i, j)`. -/
private theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-! ## Pooling -/

/-- A window of 32 positions cut from a 34-position block at offset `k` reads, at `(p, i, d)`, the block at `(p, i + k, d)`. -/
private theorem window_apply {α : Type} (k : ℕ) (X : (⟨3, ![64, 34, 256]⟩ : Shape).Idx → α)
    (h : (⟨3, ![64, 34, 256]⟩ : Shape).Slices ![0, k, 0] ⟨3, ![64, 32, 256]⟩)
    (p : Fin 64) (i : Fin 32) (d : Fin 256) (hk : i.val + k < 34) :
    extractStridedSlice ⟨3, ![64, 32, 256]⟩ ![0, k, 0] X h (ix3 p i d) = X (ix3 p ⟨i.val + k, hk⟩ d) :=
  slice3_axis1_apply k X h p i d ⟨i.val + k, hk⟩ (Nat.add_comm _ _)

/-- The three windows added and divided by three are the width-3 average pooling of the member. -/
private theorem pool_apply (z : FVec Ideal S64x34x256 .f32) (p : Fin 64) (i : Fin 32) (d : Fin 256) :
    mulf (addf (addf (extractStridedSlice S64x32x256 ![0, 0, 0] z slices_S64x34x256_o0_0_0_S64x32x256)
        (extractStridedSlice S64x32x256 ![0, 1, 0] z slices_S64x34x256_o0_1_0_S64x32x256))
        (extractStridedSlice S64x32x256 ![0, 2, 0] z slices_S64x34x256_o0_2_0_S64x32x256))
      (broadcast S64x32x256 (Named.named (F := Ideal) κ "inv_3" (φ := .f32) 0x3EAAAAAB#32)) (ix3 p i d)
      = pool3 (slab z p) i d := by
  rw [mulf_apply, addf_apply, addf_apply, broadcast_apply, inv3_eq,
    window_apply 0 z _ p i d (by omega), window_apply 1 z _ p i d (by omega), window_apply 2 z _ p i d (by omega)]
  rfl

/-- The kernel's pooled block read at a member. -/
private theorem pay22_apply (y : FVec Ideal S64x34x256 .f32) (p : Fin 64) (i : Fin 32) (d : Fin 256) :
    k0_pay22 (F := Ideal) y (ix3 p i d) = pool3 (slab y p) i d := pool_apply y p i d

/-! ## The batched matrix products read at an index -/

/-- Where the product of inner products over 32 positions reads its operands: the member's coordinate on axis 0, the
    row of the first and the row of the second on axis 1, the contraction's coordinate on axis 2. -/
private theorem gram32_lhs_0 (i : S64x32x32.Idx) (q : dot_S64x32x256_S64x32x256_S64x32x32_2_2_1_1_0_0.contr.Idx) :
    (dot_S64x32x256_S64x32x256_S64x32x32_2_2_1_1_0_0.lhsIdx i q 0).val = (i 0).val := by
  unfold DotDims.lhsIdx
  rw [dif_pos (show (0 : Fin S64x32x256.rank) ∈ dot_S64x32x256_S64x32x256_S64x32x32_2_2_1_1_0_0.lhsBatch by decide)]
  rfl
private theorem gram32_lhs_1 (i : S64x32x32.Idx) (q : dot_S64x32x256_S64x32x256_S64x32x32_2_2_1_1_0_0.contr.Idx) :
    (dot_S64x32x256_S64x32x256_S64x32x32_2_2_1_1_0_0.lhsIdx i q 1).val = (i 1).val := by
  unfold DotDims.lhsIdx
  rw [dif_neg (show ¬(1 : Fin S64x32x256.rank) ∈ dot_S64x32x256_S64x32x256_S64x32x32_2_2_1_1_0_0.lhsBatch by decide), dif_pos (show (1 : Fin S64x32x256.rank) ∈ dot_S64x32x256_S64x32x256_S64x32x32_2_2_1_1_0_0.lhsNonContracting by decide)]
  rfl
private theorem gram32_lhs_2 (i : S64x32x32.Idx) (q : dot_S64x32x256_S64x32x256_S64x32x32_2_2_1_1_0_0.contr.Idx) :
    (dot_S64x32x256_S64x32x256_S64x32x32_2_2_1_1_0_0.lhsIdx i q 2).val = (q ⟨0, by decide⟩).val :=
  dot_S64x32x256_S64x32x256_S64x32x32_2_2_1_1_0_0.lhsIdx_val_of_single rfl i q
private theorem gram32_rhs_0 (i : S64x32x32.Idx) (q : dot_S64x32x256_S64x32x256_S64x32x32_2_2_1_1_0_0.contr.Idx) :
    (dot_S64x32x256_S64x32x256_S64x32x32_2_2_1_1_0_0.rhsIdx i q 0).val = (i 0).val := by
  unfold DotDims.rhsIdx
  rw [dif_pos (show (0 : Fin S64x32x256.rank) ∈ dot_S64x32x256_S64x32x256_S64x32x32_2_2_1_1_0_0.rhsBatch by decide)]
  rfl
private theorem gram32_rhs_1 (i : S64x32x32.Idx) (q : dot_S64x32x256_S64x32x256_S64x32x32_2_2_1_1_0_0.contr.Idx) :
    (dot_S64x32x256_S64x32x256_S64x32x32_2_2_1_1_0_0.rhsIdx i q 1).val = (i 2).val := by
  unfold DotDims.rhsIdx
  rw [dif_neg (show ¬(1 : Fin S64x32x256.rank) ∈ dot_S64x32x256_S64x32x256_S64x32x32_2_2_1_1_0_0.rhsBatch by decide), dif_pos (show (1 : Fin S64x32x256.rank) ∈ dot_S64x32x256_S64x32x256_S64x32x32_2_2_1_1_0_0.rhsNonContracting by decide)]
  rfl
private theorem gram32_rhs_2 (i : S64x32x32.Idx) (q : dot_S64x32x256_S64x32x256_S64x32x32_2_2_1_1_0_0.contr.Idx) :
    (dot_S64x32x256_S64x32x256_S64x32x32_2_2_1_1_0_0.rhsIdx i q 2).val = (q ⟨0, by decide⟩).val :=
  dot_S64x32x256_S64x32x256_S64x32x32_2_2_1_1_0_0.rhsIdx_val_of_single rfl i q

/-- The batched product of two 32-position sequences along their features, into a zero accumulator, read at member `p`:
    the inner product of position `i` of the first with position `j` of the second. -/
private theorem gram32_apply (x y : FVec Ideal S64x32x256 .bf16) (p : Fin 64) (i j : Fin 32) :
    matmul dot_S64x32x256_S64x32x256_S64x32x32_2_2_1_1_0_0 none x y (constant (F := Ideal) S64x32x32 .f32 0x00000000#32) (ix3 p i j)
      = ∑ d : Fin 256, x (ix3 p i d) * y (ix3 p j d) := by
  simp only [matmul]
  rw [Ideal.matmul_constant_zero_apply, ← Equiv.sum_comp (contrEquiv1 dot_S64x32x256_S64x32x256_S64x32x32_2_2_1_1_0_0 256 rfl rfl).symm]
  refine Finset.sum_congr rfl fun k _ => ?_
  have hk := contrEquiv1_symm_val dot_S64x32x256_S64x32x256_S64x32x32_2_2_1_1_0_0 256 rfl rfl k
  have el : dot_S64x32x256_S64x32x256_S64x32x32_2_2_1_1_0_0.lhsIdx (ix3 p i j) ((contrEquiv1 dot_S64x32x256_S64x32x256_S64x32x32_2_2_1_1_0_0 256 rfl rfl).symm k) = ix3 p i k := funext fun a => Fin.ext (by
    match a with
    | ⟨0, _⟩ => exact gram32_lhs_0 _ _
    | ⟨1, _⟩ => exact gram32_lhs_1 _ _
    | ⟨2, _⟩ => exact (gram32_lhs_2 _ _).trans hk)
  have er : dot_S64x32x256_S64x32x256_S64x32x32_2_2_1_1_0_0.rhsIdx (ix3 p i j) ((contrEquiv1 dot_S64x32x256_S64x32x256_S64x32x32_2_2_1_1_0_0 256 rfl rfl).symm k) = ix3 p j k := funext fun a => Fin.ext (by
    match a with
    | ⟨0, _⟩ => exact gram32_rhs_0 _ _
    | ⟨1, _⟩ => exact gram32_rhs_1 _ _
    | ⟨2, _⟩ => exact (gram32_rhs_2 _ _).trans hk)
  rw [el, er]

/-- Where the product of inner products over 34 positions reads its operands: the member's coordinate on axis 0, the
    row of the first and the row of the second on axis 1, the contraction's coordinate on axis 2. -/
private theorem gram34_lhs_0 (i : S64x34x34.Idx) (q : dot_S64x34x256_S64x34x256_S64x34x34_2_2_1_1_0_0.contr.Idx) :
    (dot_S64x34x256_S64x34x256_S64x34x34_2_2_1_1_0_0.lhsIdx i q 0).val = (i 0).val := by
  unfold DotDims.lhsIdx
  rw [dif_pos (show (0 : Fin S64x34x256.rank) ∈ dot_S64x34x256_S64x34x256_S64x34x34_2_2_1_1_0_0.lhsBatch by decide)]
  rfl
private theorem gram34_lhs_1 (i : S64x34x34.Idx) (q : dot_S64x34x256_S64x34x256_S64x34x34_2_2_1_1_0_0.contr.Idx) :
    (dot_S64x34x256_S64x34x256_S64x34x34_2_2_1_1_0_0.lhsIdx i q 1).val = (i 1).val := by
  unfold DotDims.lhsIdx
  rw [dif_neg (show ¬(1 : Fin S64x34x256.rank) ∈ dot_S64x34x256_S64x34x256_S64x34x34_2_2_1_1_0_0.lhsBatch by decide), dif_pos (show (1 : Fin S64x34x256.rank) ∈ dot_S64x34x256_S64x34x256_S64x34x34_2_2_1_1_0_0.lhsNonContracting by decide)]
  rfl
private theorem gram34_lhs_2 (i : S64x34x34.Idx) (q : dot_S64x34x256_S64x34x256_S64x34x34_2_2_1_1_0_0.contr.Idx) :
    (dot_S64x34x256_S64x34x256_S64x34x34_2_2_1_1_0_0.lhsIdx i q 2).val = (q ⟨0, by decide⟩).val :=
  dot_S64x34x256_S64x34x256_S64x34x34_2_2_1_1_0_0.lhsIdx_val_of_single rfl i q
private theorem gram34_rhs_0 (i : S64x34x34.Idx) (q : dot_S64x34x256_S64x34x256_S64x34x34_2_2_1_1_0_0.contr.Idx) :
    (dot_S64x34x256_S64x34x256_S64x34x34_2_2_1_1_0_0.rhsIdx i q 0).val = (i 0).val := by
  unfold DotDims.rhsIdx
  rw [dif_pos (show (0 : Fin S64x34x256.rank) ∈ dot_S64x34x256_S64x34x256_S64x34x34_2_2_1_1_0_0.rhsBatch by decide)]
  rfl
private theorem gram34_rhs_1 (i : S64x34x34.Idx) (q : dot_S64x34x256_S64x34x256_S64x34x34_2_2_1_1_0_0.contr.Idx) :
    (dot_S64x34x256_S64x34x256_S64x34x34_2_2_1_1_0_0.rhsIdx i q 1).val = (i 2).val := by
  unfold DotDims.rhsIdx
  rw [dif_neg (show ¬(1 : Fin S64x34x256.rank) ∈ dot_S64x34x256_S64x34x256_S64x34x34_2_2_1_1_0_0.rhsBatch by decide), dif_pos (show (1 : Fin S64x34x256.rank) ∈ dot_S64x34x256_S64x34x256_S64x34x34_2_2_1_1_0_0.rhsNonContracting by decide)]
  rfl
private theorem gram34_rhs_2 (i : S64x34x34.Idx) (q : dot_S64x34x256_S64x34x256_S64x34x34_2_2_1_1_0_0.contr.Idx) :
    (dot_S64x34x256_S64x34x256_S64x34x34_2_2_1_1_0_0.rhsIdx i q 2).val = (q ⟨0, by decide⟩).val :=
  dot_S64x34x256_S64x34x256_S64x34x34_2_2_1_1_0_0.rhsIdx_val_of_single rfl i q

/-- The batched product of two 34-position sequences along their features, into a zero accumulator, read at member `p`:
    the inner product of position `i` of the first with position `j` of the second. -/
private theorem gram34_apply (x y : FVec Ideal S64x34x256 .bf16) (p : Fin 64) (i j : Fin 34) :
    matmul dot_S64x34x256_S64x34x256_S64x34x34_2_2_1_1_0_0 none x y (constant (F := Ideal) S64x34x34 .f32 0x00000000#32) (ix3 p i j)
      = ∑ d : Fin 256, x (ix3 p i d) * y (ix3 p j d) := by
  simp only [matmul]
  rw [Ideal.matmul_constant_zero_apply, ← Equiv.sum_comp (contrEquiv1 dot_S64x34x256_S64x34x256_S64x34x34_2_2_1_1_0_0 256 rfl rfl).symm]
  refine Finset.sum_congr rfl fun k _ => ?_
  have hk := contrEquiv1_symm_val dot_S64x34x256_S64x34x256_S64x34x34_2_2_1_1_0_0 256 rfl rfl k
  have el : dot_S64x34x256_S64x34x256_S64x34x34_2_2_1_1_0_0.lhsIdx (ix3 p i j) ((contrEquiv1 dot_S64x34x256_S64x34x256_S64x34x34_2_2_1_1_0_0 256 rfl rfl).symm k) = ix3 p i k := funext fun a => Fin.ext (by
    match a with
    | ⟨0, _⟩ => exact gram34_lhs_0 _ _
    | ⟨1, _⟩ => exact gram34_lhs_1 _ _
    | ⟨2, _⟩ => exact (gram34_lhs_2 _ _).trans hk)
  have er : dot_S64x34x256_S64x34x256_S64x34x34_2_2_1_1_0_0.rhsIdx (ix3 p i j) ((contrEquiv1 dot_S64x34x256_S64x34x256_S64x34x34_2_2_1_1_0_0 256 rfl rfl).symm k) = ix3 p j k := funext fun a => Fin.ext (by
    match a with
    | ⟨0, _⟩ => exact gram34_rhs_0 _ _
    | ⟨1, _⟩ => exact gram34_rhs_1 _ _
    | ⟨2, _⟩ => exact (gram34_rhs_2 _ _).trans hk)
  rw [el, er]

/-- Where the product of an attention matrix with a feature sequence reads its operands: the member's coordinate on axis 0
    of both, the output row on axis 1 of the first, the contraction's coordinate on axis 2 of the first and axis 1 of the
    second, the output feature on axis 2 of the second. -/
private theorem aw_lhs_0 (i : S64x32x256.Idx) (q : dot_S64x32x32_S64x32x256_S64x32x256_2_1_1_2_0_0.contr.Idx) :
    (dot_S64x32x32_S64x32x256_S64x32x256_2_1_1_2_0_0.lhsIdx i q 0).val = (i 0).val := by
  unfold DotDims.lhsIdx
  rw [dif_pos (show (0 : Fin S64x32x32.rank) ∈ dot_S64x32x32_S64x32x256_S64x32x256_2_1_1_2_0_0.lhsBatch by decide)]
  rfl
private theorem aw_lhs_1 (i : S64x32x256.Idx) (q : dot_S64x32x32_S64x32x256_S64x32x256_2_1_1_2_0_0.contr.Idx) :
    (dot_S64x32x32_S64x32x256_S64x32x256_2_1_1_2_0_0.lhsIdx i q 1).val = (i 1).val := by
  unfold DotDims.lhsIdx
  rw [dif_neg (show ¬(1 : Fin S64x32x32.rank) ∈ dot_S64x32x32_S64x32x256_S64x32x256_2_1_1_2_0_0.lhsBatch by decide), dif_pos (show (1 : Fin S64x32x32.rank) ∈ dot_S64x32x32_S64x32x256_S64x32x256_2_1_1_2_0_0.lhsNonContracting by decide)]
  rfl
private theorem aw_lhs_2 (i : S64x32x256.Idx) (q : dot_S64x32x32_S64x32x256_S64x32x256_2_1_1_2_0_0.contr.Idx) :
    (dot_S64x32x32_S64x32x256_S64x32x256_2_1_1_2_0_0.lhsIdx i q 2).val = (q ⟨0, by decide⟩).val :=
  dot_S64x32x32_S64x32x256_S64x32x256_2_1_1_2_0_0.lhsIdx_val_of_single rfl i q
private theorem aw_rhs_0 (i : S64x32x256.Idx) (q : dot_S64x32x32_S64x32x256_S64x32x256_2_1_1_2_0_0.contr.Idx) :
    (dot_S64x32x32_S64x32x256_S64x32x256_2_1_1_2_0_0.rhsIdx i q 0).val = (i 0).val := by
  unfold DotDims.rhsIdx
  rw [dif_pos (show (0 : Fin S64x32x256.rank) ∈ dot_S64x32x32_S64x32x256_S64x32x256_2_1_1_2_0_0.rhsBatch by decide)]
  rfl
private theorem aw_rhs_1 (i : S64x32x256.Idx) (q : dot_S64x32x32_S64x32x256_S64x32x256_2_1_1_2_0_0.contr.Idx) :
    (dot_S64x32x32_S64x32x256_S64x32x256_2_1_1_2_0_0.rhsIdx i q 1).val = (q ⟨0, by decide⟩).val :=
  dot_S64x32x32_S64x32x256_S64x32x256_2_1_1_2_0_0.rhsIdx_val_of_single rfl i q
private theorem aw_rhs_2 (i : S64x32x256.Idx) (q : dot_S64x32x32_S64x32x256_S64x32x256_2_1_1_2_0_0.contr.Idx) :
    (dot_S64x32x32_S64x32x256_S64x32x256_2_1_1_2_0_0.rhsIdx i q 2).val = (i 2).val := by
  unfold DotDims.rhsIdx
  rw [dif_neg (show ¬(2 : Fin S64x32x256.rank) ∈ dot_S64x32x32_S64x32x256_S64x32x256_2_1_1_2_0_0.rhsBatch by decide), dif_pos (show (2 : Fin S64x32x256.rank) ∈ dot_S64x32x32_S64x32x256_S64x32x256_2_1_1_2_0_0.rhsNonContracting by decide)]
  rfl

/-- The batched product of an attention matrix with a feature sequence, into a zero accumulator, read at member `p`. -/
private theorem aw_apply (A : FVec Ideal S64x32x32 .bf16) (V : FVec Ideal S64x32x256 .bf16) (p : Fin 64) (i : Fin 32) (d : Fin 256) :
    matmul dot_S64x32x32_S64x32x256_S64x32x256_2_1_1_2_0_0 none A V (constant (F := Ideal) S64x32x256 .f32 0x00000000#32) (ix3 p i d)
      = ∑ j : Fin 32, A (ix3 p i j) * V (ix3 p j d) := by
  simp only [matmul]
  rw [Ideal.matmul_constant_zero_apply, ← Equiv.sum_comp (contrEquiv1 dot_S64x32x32_S64x32x256_S64x32x256_2_1_1_2_0_0 32 rfl rfl).symm]
  refine Finset.sum_congr rfl fun k _ => ?_
  have hk := contrEquiv1_symm_val dot_S64x32x32_S64x32x256_S64x32x256_2_1_1_2_0_0 32 rfl rfl k
  have el : dot_S64x32x32_S64x32x256_S64x32x256_2_1_1_2_0_0.lhsIdx (ix3 p i d) ((contrEquiv1 dot_S64x32x32_S64x32x256_S64x32x256_2_1_1_2_0_0 32 rfl rfl).symm k) = ix3 p i k := funext fun a => Fin.ext (by
    match a with
    | ⟨0, _⟩ => exact aw_lhs_0 _ _
    | ⟨1, _⟩ => exact aw_lhs_1 _ _
    | ⟨2, _⟩ => exact (aw_lhs_2 _ _).trans hk)
  have er : dot_S64x32x32_S64x32x256_S64x32x256_2_1_1_2_0_0.rhsIdx (ix3 p i d) ((contrEquiv1 dot_S64x32x32_S64x32x256_S64x32x256_2_1_1_2_0_0 32 rfl rfl).symm k) = ix3 p k d := funext fun a => Fin.ext (by
    match a with
    | ⟨0, _⟩ => exact aw_rhs_0 _ _
    | ⟨1, _⟩ => exact (aw_rhs_1 _ _).trans hk
    | ⟨2, _⟩ => exact aw_rhs_2 _ _)
  rw [el, er]

/-! ## The attention stages at a member -/

/-- The first attention matrix, from the first representation `a` and the second sentence's convolution `y` (pooled inside). -/
theorem pay23_row (a : FVec Ideal S64x32x256 .f32) (y : FVec Ideal S64x34x256 .f32) (p : Fin 64) :
    slab (k0_pay23 (F := Ideal) a y) p = attn (slab a p) (pool3 (slab y p)) := by
  funext i j
  rw [slab_apply]
  unfold k0_pay23 attn
  simp only [divf_apply, addf_apply, subf_apply, mulf_apply, maximumf_apply, broadcast_apply, sqrt_apply, truncf_apply]
  rw [broadcastTo_ab1_abc_apply, shapeCast_ab_ab1_apply, sumLast_apply,
    broadcastTo_a1c_abc_apply, shapeCast_ab_a1b_apply, sumLast_apply, gram32_apply]
  simp only [mulf_apply, truncf_apply, pay22_apply, slab_apply]
  rfl

/-- The first attention applied to a weight matrix (the same for both weight matrices). -/
theorem pay24_row (W : Vec Ideal S32x256 .f32) (a : FVec Ideal S64x32x256 .f32) (y : FVec Ideal S64x34x256 .f32) (p : Fin 64) :
    slab (k0_pay24 (F := Ideal) W a y) p = applyW (attn (slab a p) (pool3 (slab y p))) (fun j d => W (ix2 j d)) := by
  funext i d
  rw [slab_apply]
  unfold k0_pay24 applyW
  rw [aw_apply]
  refine Finset.sum_congr rfl fun j _ => ?_
  rw [truncf_apply, truncf_apply, broadcastTo_1bc_abc_apply, shapeCast_self, shapeCast_ab_1ab_apply, ← pay23_row]
  rfl
theorem pay25_row (W : Vec Ideal S32x256 .f32) (a : FVec Ideal S64x32x256 .f32) (y : FVec Ideal S64x34x256 .f32) (p : Fin 64) :
    slab (k0_pay25 (F := Ideal) W a y) p = applyW (attn (slab a p) (pool3 (slab y p))) (fun j d => W (ix2 j d)) := by
  funext i d
  rw [slab_apply]
  unfold k0_pay25 applyW
  rw [aw_apply]
  refine Finset.sum_congr rfl fun j _ => ?_
  rw [truncf_apply, truncf_apply, broadcastTo_1bc_abc_apply, shapeCast_self, shapeCast_ab_1ab_apply, ← pay23_row]
  rfl

/-- The second attention matrix, of the first feature sequence `u` and the second `v + w`. -/
theorem pay33_row (u v w : FVec Ideal S64x34x256 .f32) (p : Fin 64) :
    slab (k0_pay33 (F := Ideal) u v w) p = attn (slab u p) (slab (k0_pay32 (F := Ideal) v w) p) := by
  funext i j
  rw [slab_apply]
  unfold k0_pay33 attn
  simp only [divf_apply, addf_apply, subf_apply, mulf_apply, maximumf_apply, broadcast_apply, sqrt_apply, truncf_apply]
  rw [broadcastTo_ab1_abc_apply, shapeCast_ab_ab1_apply, sumLast_apply,
    broadcastTo_a1c_abc_apply, shapeCast_ab_a1b_apply, sumLast_apply, gram34_apply]
  simp only [mulf_apply, truncf_apply, slab_apply]
  rfl

/-- The first feature sequence re-weighted by the attention's sums along its second index, then pooled. -/
theorem pay34_row (u v w : FVec Ideal S64x34x256 .f32) (p : Fin 64) :
    slab (k0_pay34 (F := Ideal) u v w) p
      = pool3 (scaleRows (slab u p) (sumOverSecond (attn (slab u p) (slab (k0_pay32 (F := Ideal) v w) p)))) := by
  funext i d
  rw [slab_apply]
  unfold k0_pay34
  refine (pool_apply _ p i d).trans (congrArg (fun z => pool3 z i d) ?_)
  funext r e
  rw [slab_apply, mulf_apply, broadcastTo_ab1_abc_apply, shapeCast_ab_ab1_apply, sumLast_apply]
  unfold scaleRows sumOverSecond
  rw [← pay33_row]
  rfl

/-- The second feature sequence re-weighted by the attention's sums along its first index, then pooled. -/
theorem pay35_row (u v w : FVec Ideal S64x34x256 .f32) (p : Fin 64) :
    slab (k0_pay35 (F := Ideal) u v w) p
      = pool3 (scaleRows (slab (k0_pay32 (F := Ideal) v w) p) (sumOverFirst (attn (slab u p) (slab (k0_pay32 (F := Ideal) v w) p)))) := by
  funext i d
  rw [slab_apply]
  unfold k0_pay35
  refine (pool_apply _ p i d).trans (congrArg (fun z => pool3 z i d) ?_)
  funext r e
  rw [slab_apply, mulf_apply, broadcastTo_ab1_abc_apply, shapeCast_ab_ab1_apply, sumMid_apply]
  unfold scaleRows sumOverFirst
  rw [← pay33_row]
  rfl

end Cert.KernelIdeal.Stages

end
-- ==== Proof.KFinal.lean ====
/-
  The kernel body's scalar reads and its last stage read at one member `p` of the block: each weight and bias as the
  entry of its small array, and the two logits as the dense layers of the two pooled-and-averaged feature vectors.
-/
import proofs.«401517_j58695023067400_1_alg».proof.Proof.Gen.KernelIdeal.Skeleton
import proofs.«401517_j58695023067400_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stages

open Idealize.ShloMosaic Idealize.ShloMosaic.ValueIdx Cert.KernelIdeal Cert.KernelIdeal.Gen Abcnn

/-- Each convolution weight and bias is the entry of the loaded array it was sliced from. -/
theorem pay1_eq (v : Vec Ideal S3 .f32) : k0_pay1 (F := Ideal) v = v (ix1 0) :=
  congrArg v (funext fun a => match a with | ⟨0, _⟩ => rfl)
theorem pay2_eq (v : Vec Ideal S3 .f32) : k0_pay2 (F := Ideal) v = v (ix1 1) :=
  congrArg v (funext fun a => match a with | ⟨0, _⟩ => rfl)
theorem pay3_eq (v : Vec Ideal S3 .f32) : k0_pay3 (F := Ideal) v = v (ix1 2) :=
  congrArg v (funext fun a => match a with | ⟨0, _⟩ => rfl)
theorem pay4_eq (v : Vec Ideal S1 .f32) : k0_pay4 (F := Ideal) v = v (ix1 0) := by
  show extractAt ![0] (shapeCast S1 v shapeCasts_S1_S1) inpos_S1_p0 = _
  rw [shapeCast_self]
  exact congrArg v (funext fun a => match a with | ⟨0, _⟩ => rfl)
theorem pay5_eq (v : Vec Ideal S3 .f32) : k0_pay5 (F := Ideal) v = v (ix1 0) :=
  congrArg v (funext fun a => match a with | ⟨0, _⟩ => rfl)
theorem pay6_eq (v : Vec Ideal S3 .f32) : k0_pay6 (F := Ideal) v = v (ix1 1) :=
  congrArg v (funext fun a => match a with | ⟨0, _⟩ => rfl)
theorem pay7_eq (v : Vec Ideal S3 .f32) : k0_pay7 (F := Ideal) v = v (ix1 2) :=
  congrArg v (funext fun a => match a with | ⟨0, _⟩ => rfl)
theorem pay8_eq (v : Vec Ideal S1 .f32) : k0_pay8 (F := Ideal) v = v (ix1 0) := by
  show extractAt ![0] (shapeCast S1 v shapeCasts_S1_S1) inpos_S1_p0 = _
  rw [shapeCast_self]
  exact congrArg v (funext fun a => match a with | ⟨0, _⟩ => rfl)
theorem pay9_eq (v : Vec Ideal S2x3 .f32) : k0_pay9 (F := Ideal) v = v (ix2 0 0) :=
  congrArg v (funext fun a => match a with | ⟨0, _⟩ => rfl | ⟨1, _⟩ => rfl)
theorem pay10_eq (v : Vec Ideal S2x3 .f32) : k0_pay10 (F := Ideal) v = v (ix2 0 1) :=
  congrArg v (funext fun a => match a with | ⟨0, _⟩ => rfl | ⟨1, _⟩ => rfl)
theorem pay11_eq (v : Vec Ideal S2x3 .f32) : k0_pay11 (F := Ideal) v = v (ix2 0 2) :=
  congrArg v (funext fun a => match a with | ⟨0, _⟩ => rfl | ⟨1, _⟩ => rfl)
theorem pay12_eq (v : Vec Ideal S2x3 .f32) : k0_pay12 (F := Ideal) v = v (ix2 1 0) :=
  congrArg v (funext fun a => match a with | ⟨0, _⟩ => rfl | ⟨1, _⟩ => rfl)
theorem pay13_eq (v : Vec Ideal S2x3 .f32) : k0_pay13 (F := Ideal) v = v (ix2 1 1) :=
  congrArg v (funext fun a => match a with | ⟨0, _⟩ => rfl | ⟨1, _⟩ => rfl)
theorem pay14_eq (v : Vec Ideal S2x3 .f32) : k0_pay14 (F := Ideal) v = v (ix2 1 2) :=
  congrArg v (funext fun a => match a with | ⟨0, _⟩ => rfl | ⟨1, _⟩ => rfl)
theorem pay15_eq (v : Vec Ideal S1 .f32) : k0_pay15 (F := Ideal) v = v (ix1 0) := by
  show extractAt ![0] (shapeCast S1 v shapeCasts_S1_S1) inpos_S1_p0 = _
  rw [shapeCast_self]
  exact congrArg v (funext fun a => match a with | ⟨0, _⟩ => rfl)

/-- The two dense biases are passed on re-laid from one row to a plain vector. -/
theorem pay18_apply (v : Vec Ideal S1x64 .f32) (n : Fin 64) : k0_pay18 (F := Ideal) v (ix1 n) = v (ix2 0 n) := by
  show shapeCast S64 (shapeCast S1x64 v shapeCasts_S1x64_S1x64) shapeCasts_S1x64_S64 (ix1 n) = _
  rw [shapeCast_self]
  refine shapeCast_apply v shapeCasts_S1x64_S64 (ix1 n) (ix2 0 n) ?_
  rw [Shape.rowMajor_val_two, Shape.rowMajor_val_one]
  show 0 * 64 + n.val = n.val
  omega
theorem pay19_apply (v : Vec Ideal S1x2 .f32) (c : Fin 2) : k0_pay19 (F := Ideal) v (ix1 c) = v (ix2 0 c) := by
  show shapeCast S2 (shapeCast S1x2 v shapeCasts_S1x2_S1x2) shapeCasts_S1x2_S2 (ix1 c) = _
  rw [shapeCast_self]
  refine shapeCast_apply v shapeCasts_S1x2_S2 (ix1 c) (ix2 0 c) ?_
  rw [Shape.rowMajor_val_two, Shape.rowMajor_val_one]
  show 0 * 2 + c.val = c.val
  omega

/-! ## The last stage, operation by operation -/

/-- The block `[z1, u, z2]` along the sequence axis, the two borders zero: member `p` at position `i` of the 36 is the
    bordered sequence of member `p` of `u`. -/
private theorem border_apply (z1 z2 : FVec Ideal S64x2x256 .f32) (u : FVec Ideal S64x32x256 .f32)
    (hz1 : ∀ j, z1 j = 0) (hz2 : ∀ j, z2 j = 0) (p : Fin 64) (i : Fin 36) (d : Fin 256) :
    concatenate S64x36x256 1 [⟨S64x2x256, z1⟩, ⟨S64x32x256, u⟩, ⟨S64x2x256, z2⟩]
      concatenates_S64x2x256_S64x32x256_S64x2x256_S64x36x256_d1 (ix3 p i d) = padTwo (slab u p) i.val d := by
  unfold padTwo
  by_cases h1 : i.val < 2
  · rw [dif_neg (show ¬(2 ≤ i.val ∧ i.val < 34) by omega), ← hz1 (ix3 p ⟨i.val, h1⟩ d)]
    exact concatenate_apply_piece (t := S64x36x256) 1 _ _ (ix3 p i d) 0 (by show (0 : ℕ) < 3; omega) S64x2x256 z1 rfl rfl 0 rfl
      (ix3 p ⟨i.val, h1⟩ d) (fun b hb => match b with | ⟨0, _⟩ => rfl | ⟨1, _⟩ => (hb rfl).elim | ⟨2, _⟩ => rfl)
      (by show 0 + i.val = i.val; omega)
  · by_cases h2 : i.val < 34
    · rw [dif_pos (show 2 ≤ i.val ∧ i.val < 34 from ⟨by omega, h2⟩)]
      exact concatenate_apply_piece (t := S64x36x256) 1 _ _ (ix3 p i d) 1 (by show (1 : ℕ) < 3; omega) S64x32x256 u rfl rfl 2 rfl
        (ix3 p ⟨i.val - 2, by omega⟩ d) (fun b hb => match b with | ⟨0, _⟩ => rfl | ⟨1, _⟩ => (hb rfl).elim | ⟨2, _⟩ => rfl)
        (by show 2 + (i.val - 2) = i.val; omega)
    · rw [dif_neg (show ¬(2 ≤ i.val ∧ i.val < 34) by omega), ← hz2 (ix3 p ⟨i.val - 34, by omega⟩ d)]
      exact concatenate_apply_piece (t := S64x36x256) 1 _ _ (ix3 p i d) 2 (by show (2 : ℕ) < 3; omega) S64x2x256 z2 rfl rfl 34 rfl
        (ix3 p ⟨i.val - 34, by omega⟩ d) (fun b hb => match b with | ⟨0, _⟩ => rfl | ⟨1, _⟩ => (hb rfl).elim | ⟨2, _⟩ => rfl)
        (by show 34 + (i.val - 34) = i.val; omega)

/-- A slice of the bordered block at offset `k` along the sequence axis reads position `i + k`. -/
private theorem slice_apply (k : ℕ) (hk : k ≤ 2) (x : FVec Ideal S64x36x256 .f32) (h : S64x36x256.Slices ![0, k, 0] S64x34x256)
    (p : Fin 64) (i : Fin 34) (d : Fin 256) :
    extractStridedSlice S64x34x256 ![0, k, 0] x h (ix3 p i d) = x (ix3 p ⟨i.val + k, by omega⟩ d) := by
  refine extractStridedSlice_apply _ x h (ix3 p i d) _ fun a => ?_
  match a with
  | ⟨0, _⟩ => show p.val = 0 + p.val; omega
  | ⟨1, _⟩ => show i.val + k = k + i.val; omega
  | ⟨2, _⟩ => show d.val = 0 + d.val; omega

/-- The three weighted slices of a bordered block plus the bias, as the body writes them. -/
private abbrev convBlock (w0 w1 w2 b : Ideal .f32) (x : FVec Ideal S64x36x256 .f32) : FVec Ideal S64x34x256 .f32 :=
  addf (addf (addf (mulf (broadcast S64x34x256 w0) (extractStridedSlice S64x34x256 ![0, 0, 0] x slices_S64x36x256_o0_0_0_S64x34x256))
      (mulf (broadcast S64x34x256 w1) (extractStridedSlice S64x34x256 ![0, 1, 0] x slices_S64x36x256_o0_1_0_S64x34x256)))
      (mulf (broadcast S64x34x256 w2) (extractStridedSlice S64x34x256 ![0, 2, 0] x slices_S64x36x256_o0_2_0_S64x34x256)))
    (broadcast S64x34x256 b)

/-- Over a block whose member `p` is the bordered sequence `a`, that is the width-3 convolution of `a`. -/
private theorem conv_apply (w0 w1 w2 b : Ideal .f32) (x : FVec Ideal S64x36x256 .f32) (a : Seq 32) (p : Fin 64)
    (hx : ∀ (i : Fin 36) (d : Fin 256), x (ix3 p i d) = padTwo a i.val d) (i : Fin 34) (d : Fin 256) :
    convBlock w0 w1 w2 b x (ix3 p i d) = conv3 w0 w1 w2 b a i d := by
  show w0 * extractStridedSlice S64x34x256 ![0, 0, 0] x _ (ix3 p i d) + w1 * extractStridedSlice S64x34x256 ![0, 1, 0] x _ (ix3 p i d)
      + w2 * extractStridedSlice S64x34x256 ![0, 2, 0] x _ (ix3 p i d) + b = _
  rw [slice_apply 0 (by omega), slice_apply 1 (by omega), slice_apply 2 (by omega), hx, hx, hx]
  rfl

/-- The sum over the 34 positions of a block, at member `p` and feature `d`. -/
private theorem sum34_apply (src : FVec Ideal S64x34x256 .f32) (p : Fin 64) (d : Fin 256) :
    multiReduction (F := Ideal) .add [1] S64x256 src 0x00000000#32 reduces_S64x34x256_S64x256 (.inl rfl) rfl (ix2 p d)
      = ∑ i : Fin 34, src (ix3 p i d) := by
  refine (Ideal.multiReduction_add_single src 0x00000000#32 reduces_S64x34x256_S64x256 (.inl rfl) rfl (ix2 p d)).trans ?_
  refine Finset.sum_congr rfl fun i _ => congrArg src (funext fun a => Fin.ext ?_)
  match a with
  | ⟨0, _⟩ => rfl
  | ⟨1, _⟩ => rfl
  | ⟨2, _⟩ => rfl

/-- The mean over the sequence of the convolution of a bordered block, at member `p`. -/
private theorem mean_apply (w0 w1 w2 b : Ideal .f32) (x : FVec Ideal S64x36x256 .f32) (a : Seq 32) (p : Fin 64)
    (hx : ∀ (i : Fin 36) (d : Fin 256), x (ix3 p i d) = padTwo a i.val d) (d : Fin 256) :
    divf (multiReduction (F := Ideal) .add [1] S64x256 (convBlock w0 w1 w2 b x) 0x00000000#32 reduces_S64x34x256_S64x256 (.inl rfl) rfl)
      (broadcast S64x256 (Scalar.ofBits .f32 0x42080000#32)) (ix2 p d) = meanSeq (conv3 w0 w1 w2 b a) d := by
  refine (divf_apply _ _ _).trans ?_
  rw [sum34_apply]
  exact congrArg (Ideal.div · len34W) (Finset.sum_congr rfl fun i _ => conv_apply w0 w1 w2 b x a p hx i d)

/-- Two blocks of feature vectors side by side (narrowing the format changes no value), at member `p`. -/
private theorem join_apply (A B : FVec Ideal S64x256 .f32) (p : Fin 64) (k : Fin 512) :
    truncf .bf16 (concatenate S64x512 1 [⟨S64x256, A⟩, ⟨S64x256, B⟩] concatenates_S64x256_S64x256_S64x512_d1) bitsLt_bf16_f32 (ix2 p k)
      = joinHalves (fun d => A (ix2 p d)) (fun d => B (ix2 p d)) k := by
  refine (truncf_apply (φ := .f32) (ψ := .bf16) _ _ _).trans ?_
  unfold joinHalves
  by_cases h : k.val < 256
  · rw [dif_pos h]
    exact concatenate_apply_piece (t := S64x512) 1 _ _ (ix2 p k) 0 (by show (0 : ℕ) < 2; omega) S64x256 A rfl rfl 0 rfl
      (ix2 p ⟨k.val, h⟩) (fun b hb => match b with | ⟨0, _⟩ => rfl | ⟨1, _⟩ => (hb rfl).elim) (by show 0 + k.val = k.val; omega)
  · rw [dif_neg h]
    exact concatenate_apply_piece (t := S64x512) 1 _ _ (ix2 p k) 1 (by show (1 : ℕ) < 2; omega) S64x256 B rfl rfl 256 rfl
      (ix2 p ⟨k.val - 256, by omega⟩) (fun b hb => match b with | ⟨0, _⟩ => rfl | ⟨1, _⟩ => (hb rfl).elim)
      (by show 256 + (k.val - 256) = k.val; omega)

/-- The operand indices of the first dense product, axis by axis. -/
private theorem lhs_dense1_0 (i : S64x64.Idx) (q : dot_S64x512_S512x64_S64x64_1_0_0_1_n_n.contr.Idx) :
    (dot_S64x512_S512x64_S64x64_1_0_0_1_n_n.lhsIdx i q 0).val = (i 0).val := by
  unfold DotDims.lhsIdx
  rw [dif_neg (show ¬(0 : Fin S64x512.rank) ∈ dot_S64x512_S512x64_S64x64_1_0_0_1_n_n.lhsBatch by decide), dif_pos (show (0 : Fin S64x512.rank) ∈ dot_S64x512_S512x64_S64x64_1_0_0_1_n_n.lhsNonContracting by decide)]
  rfl
private theorem lhs_dense1_1 (i : S64x64.Idx) (q : dot_S64x512_S512x64_S64x64_1_0_0_1_n_n.contr.Idx) :
    (dot_S64x512_S512x64_S64x64_1_0_0_1_n_n.lhsIdx i q 1).val = (q ⟨0, by decide⟩).val :=
  dot_S64x512_S512x64_S64x64_1_0_0_1_n_n.lhsIdx_val_of_single rfl i q
private theorem rhs_dense1_0 (i : S64x64.Idx) (q : dot_S64x512_S512x64_S64x64_1_0_0_1_n_n.contr.Idx) :
    (dot_S64x512_S512x64_S64x64_1_0_0_1_n_n.rhsIdx i q 0).val = (q ⟨0, by decide⟩).val :=
  dot_S64x512_S512x64_S64x64_1_0_0_1_n_n.rhsIdx_val_of_single rfl i q
private theorem rhs_dense1_1 (i : S64x64.Idx) (q : dot_S64x512_S512x64_S64x64_1_0_0_1_n_n.contr.Idx) :
    (dot_S64x512_S512x64_S64x64_1_0_0_1_n_n.rhsIdx i q 1).val = (i 1).val := by
  unfold DotDims.rhsIdx
  rw [dif_neg (show ¬(1 : Fin S512x64.rank) ∈ dot_S64x512_S512x64_S64x64_1_0_0_1_n_n.rhsBatch by decide), dif_pos (show (1 : Fin S512x64.rank) ∈ dot_S64x512_S512x64_S64x64_1_0_0_1_n_n.rhsNonContracting by decide)]
  rfl

/-- The first dense product into a zero accumulator, at member `p` and hidden unit `n`: the sum over the 512 features. -/
private theorem dense1_apply (x : FVec Ideal S64x512 .bf16) (w : FVec Ideal S512x64 .bf16) (p n : Fin 64) :
    matmul dot_S64x512_S512x64_S64x64_1_0_0_1_n_n none x w (constant S64x64 .f32 0x00000000#32) (ix2 p n)
      = ∑ k : Fin 512, x (ix2 p k) * w (ix2 k n) := by
  simp only [matmul]
  rw [Ideal.matmul_constant_zero_apply, ← Equiv.sum_comp (contrEquiv1 dot_S64x512_S512x64_S64x64_1_0_0_1_n_n 512 rfl rfl).symm]
  refine Finset.sum_congr rfl fun k _ => ?_
  have hk := contrEquiv1_symm_val dot_S64x512_S512x64_S64x64_1_0_0_1_n_n 512 rfl rfl k
  have el : dot_S64x512_S512x64_S64x64_1_0_0_1_n_n.lhsIdx (ix2 p n) ((contrEquiv1 dot_S64x512_S512x64_S64x64_1_0_0_1_n_n 512 rfl rfl).symm k) = ix2 p k := funext fun a => Fin.ext (by
    match a with
    | ⟨0, _⟩ => exact lhs_dense1_0 _ _
    | ⟨1, _⟩ => exact (lhs_dense1_1 _ _).trans hk)
  have er : dot_S64x512_S512x64_S64x64_1_0_0_1_n_n.rhsIdx (ix2 p n) ((contrEquiv1 dot_S64x512_S512x64_S64x64_1_0_0_1_n_n 512 rfl rfl).symm k) = ix2 k n := funext fun a => Fin.ext (by
    match a with
    | ⟨0, _⟩ => exact (rhs_dense1_0 _ _).trans hk
    | ⟨1, _⟩ => exact rhs_dense1_1 _ _)
  rw [el, er]

/-- The operand indices of the second dense product, axis by axis. -/
private theorem lhs_dense2_0 (i : S64x2.Idx) (q : dot_S64x64_S64x2_S64x2_1_0_0_1_n_n.contr.Idx) :
    (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by decide), dif_pos (show (0 : Fin S64x64.rank) ∈ dot_S64x64_S64x2_S64x2_1_0_0_1_n_n.lhsNonContracting by decide)]
  rfl
private theorem lhs_dense2_1 (i : S64x2.Idx) (q : dot_S64x64_S64x2_S64x2_1_0_0_1_n_n.contr.Idx) :
    (dot_S64x64_S64x2_S64x2_1_0_0_1_n_n.lhsIdx i q 1).val = (q ⟨0, by decide⟩).val :=
  dot_S64x64_S64x2_S64x2_1_0_0_1_n_n.lhsIdx_val_of_single rfl i q
private theorem rhs_dense2_0 (i : S64x2.Idx) (q : dot_S64x64_S64x2_S64x2_1_0_0_1_n_n.contr.Idx) :
    (dot_S64x64_S64x2_S64x2_1_0_0_1_n_n.rhsIdx i q 0).val = (q ⟨0, by decide⟩).val :=
  dot_S64x64_S64x2_S64x2_1_0_0_1_n_n.rhsIdx_val_of_single rfl i q
private theorem rhs_dense2_1 (i : S64x2.Idx) (q : dot_S64x64_S64x2_S64x2_1_0_0_1_n_n.contr.Idx) :
    (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by decide), dif_pos (show (1 : Fin S64x2.rank) ∈ dot_S64x64_S64x2_S64x2_1_0_0_1_n_n.rhsNonContracting by decide)]
  rfl

/-- The second dense product into a zero accumulator, at member `p` and logit `c`: the sum over the 64 hidden units. -/
private theorem dense2_apply (x : FVec Ideal S64x64 .bf16) (w : FVec Ideal S64x2 .bf16) (p : Fin 64) (c : Fin 2) :
    matmul dot_S64x64_S64x2_S64x2_1_0_0_1_n_n none x w (constant S64x2 .f32 0x00000000#32) (ix2 p c)
      = ∑ n : Fin 64, x (ix2 p n) * w (ix2 n c) := by
  simp only [matmul]
  rw [Ideal.matmul_constant_zero_apply, ← Equiv.sum_comp (contrEquiv1 dot_S64x64_S64x2_S64x2_1_0_0_1_n_n 64 rfl rfl).symm]
  refine Finset.sum_congr rfl fun k _ => ?_
  have hk := contrEquiv1_symm_val dot_S64x64_S64x2_S64x2_1_0_0_1_n_n 64 rfl rfl k
  have el : dot_S64x64_S64x2_S64x2_1_0_0_1_n_n.lhsIdx (ix2 p c) ((contrEquiv1 dot_S64x64_S64x2_S64x2_1_0_0_1_n_n 64 rfl rfl).symm k) = ix2 p k := funext fun a => Fin.ext (by
    match a with
    | ⟨0, _⟩ => exact lhs_dense2_0 _ _
    | ⟨1, _⟩ => exact (lhs_dense2_1 _ _).trans hk)
  have er : dot_S64x64_S64x2_S64x2_1_0_0_1_n_n.rhsIdx (ix2 p c) ((contrEquiv1 dot_S64x64_S64x2_S64x2_1_0_0_1_n_n 64 rfl rfl).symm k) = ix2 k c := funext fun a => Fin.ext (by
    match a with
    | ⟨0, _⟩ => exact (rhs_dense2_0 _ _).trans hk
    | ⟨1, _⟩ => exact rhs_dense2_1 _ _)
  rw [el, er]

/-- A bias vector re-laid as one row and repeated down the 64 members reads its own entry. -/
private theorem bias64_apply (fb : FVec Ideal S64 .f32) (p n : Fin 64) :
    broadcastTo S64x64 (shapeCast S1x64 fb shapeCasts_S64_S1x64) broadcasts_S1x64_S64x64 (ix2 p n) = fb (ix1 n) := by
  refine (broadcastTo_apply _ broadcasts_S1x64_S64x64 (ix2 p n) (ix2 0 n) fun a => ?_).trans ?_
  · match a with
    | ⟨0, _⟩ => show 0 = if (1 : ℕ) = 1 then 0 else _; rw [if_pos rfl]
    | ⟨1, _⟩ => show n.val = if (64 : ℕ) = 1 then 0 else n.val; rw [if_neg (by decide)]
  · refine shapeCast_apply fb shapeCasts_S64_S1x64 (ix2 0 n) (ix1 n) ?_
    rw [Shape.rowMajor_val_one, Shape.rowMajor_val_two]
    show n.val = 0 * 64 + n.val
    omega
private theorem bias2_apply (fb : FVec Ideal S2 .f32) (p : Fin 64) (c : Fin 2) :
    broadcastTo S64x2 (shapeCast S1x2 fb shapeCasts_S2_S1x2) broadcasts_S1x2_S64x2 (ix2 p c) = fb (ix1 c) := by
  refine (broadcastTo_apply _ broadcasts_S1x2_S64x2 (ix2 p c) (ix2 0 c) fun a => ?_).trans ?_
  · match a with
    | ⟨0, _⟩ => show 0 = if (1 : ℕ) = 1 then 0 else _; rw [if_pos rfl]
    | ⟨1, _⟩ => show c.val = if (2 : ℕ) = 1 then 0 else c.val; rw [if_neg (by decide)]
  · refine shapeCast_apply fb shapeCasts_S2_S1x2 (ix2 0 c) (ix1 c) ?_
    rw [Shape.rowMajor_val_one, Shape.rowMajor_val_two]
    show c.val = 0 * 2 + c.val
    omega

/-- `tanh` of a block is `tanh` entry by entry. -/
private theorem tanh_apply {s : Shape} {φ : FTy} (a : FVec Ideal s φ) (i : s.Idx) : tanh a i = Ideal.tanh (a i) := rfl

/-- The hidden layer of a block of feature vectors (narrowing the format changes no value), at member `p` and unit `n`. -/
private theorem hidden_apply (x : FVec Ideal S64x512 .bf16) (fw1 : FVec Ideal S512x64 .f32) (fb1 : FVec Ideal S64 .f32) (p n : Fin 64) :
    truncf .bf16 (tanh (addf (matmul dot_S64x512_S512x64_S64x64_1_0_0_1_n_n none x (truncf .bf16 fw1 bitsLt_bf16_f32) (constant S64x64 .f32 0x00000000#32))
      (broadcastTo S64x64 (shapeCast S1x64 fb1 shapeCasts_S64_S1x64) broadcasts_S1x64_S64x64))) bitsLt_bf16_f32 (ix2 p n)
      = Ideal.tanh ((∑ k : Fin 512, x (ix2 p k) * fw1 (ix2 k n)) + fb1 (ix1 n)) := by
  refine (truncf_apply (φ := .f32) (ψ := .bf16) _ _ _).trans ?_
  refine (tanh_apply _ _).trans (congrArg Ideal.tanh ?_)
  refine (addf_apply _ _ _).trans ?_
  rw [dense1_apply, bias64_apply]
  rfl

/-- The two logits of a block of hidden vectors, at member `p`. -/
private theorem out_apply (h : FVec Ideal S64x64 .bf16) (fw2 : FVec Ideal S64x2 .f32) (fb2 : FVec Ideal S2 .f32) (p : Fin 64) (c : Fin 2) :
    addf (matmul dot_S64x64_S64x2_S64x2_1_0_0_1_n_n none h (truncf .bf16 fw2 bitsLt_bf16_f32) (constant S64x2 .f32 0x00000000#32))
      (broadcastTo S64x2 (shapeCast S1x2 fb2 shapeCasts_S2_S1x2) broadcasts_S1x2_S64x2) (ix2 p c)
      = (∑ n : Fin 64, h (ix2 p n) * fw2 (ix2 n c)) + fb2 (ix1 c) := by
  refine (addf_apply _ _ _).trans ?_
  rw [dense2_apply, bias2_apply]
  rfl

/-- The last stage: the second convolution and the mean over the sequence of each pooled sequence, the two means side by
    side, the hidden layer and the two logits. `z1`, `z2` are the zero borders. -/
theorem pay38_apply (w0 w1 w2 b : EReal) (fw1 : Vec Ideal S512x64 .f32) (fb1 : FVec Ideal S64 .f32) (fw2 : Vec Ideal S64x2 .f32)
    (fb2 : FVec Ideal S2 .f32) (u v : FVec Ideal S64x32x256 .f32) (z1 z2 : FVec Ideal S64x2x256 .f32)
    (hz1 : ∀ j, z1 j = 0) (hz2 : ∀ j, z2 j = 0) (p : Fin 64) (c : Fin 2) :
    k0_pay38 (F := Ideal) w0 w1 w2 b fw1 fb1 fw2 fb2 u v z1 z2 (ix2 p c)
      = logits2 (fun n c => fw2 (ix2 n c)) (fun c => fb2 (ix1 c))
          (hidden (fun k n => fw1 (ix2 k n)) (fun n => fb1 (ix1 n))
            (joinHalves (meanSeq (conv3 w0 w1 w2 b (slab u p))) (meanSeq (conv3 w0 w1 w2 b (slab v p))))) c := by
  -- the two logits from the block of hidden vectors
  refine (out_apply _ fw2 fb2 p c).trans ?_
  unfold logits2
  refine congrArg (· + fb2 (ix1 c)) (Finset.sum_congr rfl fun n _ => congrArg (· * fw2 (ix2 n c)) ?_)
  -- a hidden unit from the block of joined means
  refine (hidden_apply _ fw1 fb1 p n).trans ?_
  unfold Abcnn.hidden
  refine congrArg Ideal.tanh (congrArg (· + fb1 (ix1 n)) (Finset.sum_congr rfl fun k _ => congrArg (· * fw1 (ix2 k n)) ?_))
  -- a joined feature from the two blocks of means
  refine (join_apply _ _ p k).trans ?_
  refine congrArg₂ (fun a b => joinHalves a b k) (funext fun d => ?_) (funext fun d => ?_)
  -- each mean from its bordered block; the second block's borders are zero words
  · exact mean_apply w0 w1 w2 b _ (slab u p) p (fun i d => border_apply z1 z2 u hz1 hz2 p i d) d
  · exact mean_apply w0 w1 w2 b _ (slab v p) p
      (fun i d => border_apply _ _ v (fun _ => Ideal.ofBits_zero_f32) (fun _ => Ideal.ofBits_zero_f32) p i d) d

end Cert.KernelIdeal.Stages

end
-- ==== Proof.KBlock.lean ====
/-
  The block the kernel stores, read at member `p` of the block and logit `c`: the whole per-pair map (Spec.lean
  `rowLogits`) of member `p` of the two embedding blocks, with each weight and bias read from its small array. The
  stages of KConv / KAttn / KFinal composed in the order the body computes them.
-/
import proofs.«401517_j58695023067400_1_alg».proof.Proof.Gen.KernelIdeal.Frame
import proofs.«401517_j58695023067400_1_alg».proof.Proof.KConv
import proofs.«401517_j58695023067400_1_alg».proof.Proof.KAttn
import proofs.«401517_j58695023067400_1_alg».proof.Proof.KFinal

noncomputable section

namespace Cert.KernelIdeal.Stages

open Idealize.ShloMosaic Idealize.ShloMosaic.ValueIdx Cert.KernelIdeal Cert.KernelIdeal.Gen Abcnn

/-- The offsets of a rectangle that starts at the origin, however many axes. -/
private theorem zeroOff1 : (![0] : Fin 1 → Nat) = fun _ => 0 := funext fun a => match a with | ⟨0, _⟩ => rfl
private theorem zeroOff2 : (![0, 0] : Fin 2 → Nat) = fun _ => 0 := funext fun a => match a with | ⟨0, _⟩ => rfl | ⟨1, _⟩ => rfl
private theorem zeroOff3 : (![0, 0, 0] : Fin 3 → Nat) = fun _ => 0 :=
  funext fun a => match a with | ⟨0, _⟩ => rfl | ⟨1, _⟩ => rfl | ⟨2, _⟩ => rfl

/-- What point `t`'s body leaves in the output block, at member `p` and logit `c`. -/
theorem block_eq (x0 x1 : Vec Ideal S64x32x256 .f32) (x2 : Vec Ideal S3 .f32) (x3 : Vec Ideal S1 .f32) (x4 : Vec Ideal S3 .f32)
    (x5 : Vec Ideal S1 .f32) (x6 : Vec Ideal S2x3 .f32) (x7 : Vec Ideal S1 .f32) (x8 x9 : Vec Ideal S32x256 .f32)
    (x10 : Vec Ideal S512x64 .f32) (x11 : Vec Ideal S1x64 .f32) (x12 : Vec Ideal S64x2 .f32) (x13 : Vec Ideal S1x2 .f32)
    (p : Fin 64) (c : Fin 2) :
    out0_14 (F := Ideal) x0 x1 x2 x3 x4 x5 x6 x7 x8 x9 x10 x11 x12 x13 (ix2 p c)
      = rowLogits (x2 (ix1 0)) (x2 (ix1 1)) (x2 (ix1 2)) (x3 (ix1 0)) (x4 (ix1 0)) (x4 (ix1 1)) (x4 (ix1 2)) (x5 (ix1 0))
          (x6 (ix2 0 0)) (x6 (ix2 0 1)) (x6 (ix2 0 2)) (x6 (ix2 1 0)) (x6 (ix2 1 1)) (x6 (ix2 1 2)) (x7 (ix1 0))
          (fun j d => x8 (ix2 j d)) (fun j d => x9 (ix2 j d)) (fun k n => x10 (ix2 k n)) (fun n => x11 (ix2 0 n))
          (fun n c => x12 (ix2 n c)) (fun c => x13 (ix2 0 c)) (slab x0 p) (slab x1 p) c := by
  unfold out0_14
  -- the one store covers the whole block, and every load reads its whole block
  rw [View.canon_unit_zero zeroOff2]
  simp only [View.ld_unit_zero (S := S3) zeroOff1, View.ld_unit_zero (S := S1) zeroOff1, View.ld_unit_zero (S := S2x3) zeroOff2,
    View.ld_unit_zero (S := S64x32x256) zeroOff3, View.ld_unit_zero (S := S32x256) zeroOff2, View.ld_unit_zero (S := S512x64) zeroOff2,
    View.ld_unit_zero (S := S1x64) zeroOff2, View.ld_unit_zero (S := S64x2) zeroOff2, View.ld_unit_zero (S := S1x2) zeroOff2]
  -- the last stage, its two borders the zero blocks
  rw [pay38_apply _ _ _ _ _ _ _ _ _ _ _ _ pay36_zero pay37_zero]
  -- the two re-weighted and pooled sequences, and the second attention's two inputs
  simp only [pay34_row, pay35_row, pay32_row]
  rw [pay29_row _ _ _ _ _ _ _ _ _ _ _ p _ (fun i d => pay26_pad _ p i d) pay27_zero pay28_zero]
  -- the first attention applied to the two weight matrices, and the two first representations
  simp only [pay24_row, pay25_row, pay22_row, pay20_row, pay21_row, pay16_eq, pay17_eq]
  -- the weights and biases
  simp only [pay1_eq, pay2_eq, pay3_eq, pay4_eq, pay5_eq, pay6_eq, pay7_eq, pay8_eq, pay9_eq, pay10_eq, pay11_eq, pay12_eq,
    pay13_eq, pay14_eq, pay15_eq, pay18_apply, pay19_apply]
  unfold rowLogits rep
  rfl

end Cert.KernelIdeal.Stages

end
-- ==== Proof.KValue.lean ====
/-
  The kernel program's result as one function of its arguments. Grid point `t` stores the logits of batch members
  `64 t … 64 t + 63`; the 32 blocks tile the `[2048, 2]` array, so entry `(b, c)` of it is the per-pair map of member `b`
  of the two gathered embedding arrays; the program's result is the column-wise softmax of that array.
-/
import proofs.«401517_j58695023067400_1_alg».proof.Proof.KHost
import proofs.«401517_j58695023067400_1_alg».proof.Proof.KBlock

noncomputable section

namespace Cert.KernelIdeal.KVal

open Idealize.ShloMosaic Idealize.ShloMosaic.ValueIdx Idealize.ShloMosaic.TcCoe Idealize.SL.Sem Cert.KernelIdeal Cert.KernelIdeal.Gen Abcnn

variable (m : (ℓ : Loc nD τ sig) → Buf (Elt Ideal) ℓ) (ρ : Dev nD → PrngReg)

/-- The logits of every batch member, from the launch contents of the arguments. -/
def logits (c : Dev nD) : FVec Ideal S2048x2 .f32 := fun j =>
  rowLogits ((m ((c.tc : Thread nD τ).loc main_arg3)) (ix1 0)) ((m ((c.tc : Thread nD τ).loc main_arg3)) (ix1 1)) ((m ((c.tc : Thread nD τ).loc main_arg3)) (ix1 2)) ((m ((c.tc : Thread nD τ).loc main_arg4)) ix0)
    ((m ((c.tc : Thread nD τ).loc main_arg5)) (ix1 0)) ((m ((c.tc : Thread nD τ).loc main_arg5)) (ix1 1)) ((m ((c.tc : Thread nD τ).loc main_arg5)) (ix1 2)) ((m ((c.tc : Thread nD τ).loc main_arg6)) ix0)
    ((m ((c.tc : Thread nD τ).loc main_arg7)) (ix2 0 0)) ((m ((c.tc : Thread nD τ).loc main_arg7)) (ix2 0 1)) ((m ((c.tc : Thread nD τ).loc main_arg7)) (ix2 0 2))
    ((m ((c.tc : Thread nD τ).loc main_arg7)) (ix2 1 0)) ((m ((c.tc : Thread nD τ).loc main_arg7)) (ix2 1 1)) ((m ((c.tc : Thread nD τ).loc main_arg7)) (ix2 1 2)) ((m ((c.tc : Thread nD τ).loc main_arg8)) ix0)
    (fun j d => (m ((c.tc : Thread nD τ).loc main_arg9)) (ix2 j d)) (fun j d => (m ((c.tc : Thread nD τ).loc main_arg10)) (ix2 j d)) (fun k n => (m ((c.tc : Thread nD τ).loc main_arg11)) (ix2 k n))
    (fun n => (m ((c.tc : Thread nD τ).loc main_arg12)) (ix1 n)) (fun n k => (m ((c.tc : Thread nD τ).loc main_arg13)) (ix2 n k)) (fun k => (m ((c.tc : Thread nD τ).loc main_arg14)) (ix1 k))
    (slab (gathered (m ((c.tc : Thread nD τ).loc main_arg2)) (m ((c.tc : Thread nD τ).loc main_arg0))) (j 0)) (slab (gathered (m ((c.tc : Thread nD τ).loc main_arg2)) (m ((c.tc : Thread nD τ).loc main_arg1))) (j 0)) (j 1)

/-- The index maps of the three batched windows — the two embedding arrays and the result — send grid point `t` to
    block `t` along the batch axis and to block zero along the others. -/
theorem idx_batched : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 2) = t.val ∧ win0_14.index t (1 : Fin 2) = 0 :=
  (by decide +kernel : ∀ t : Fin grid0.N, _)

/-- The index maps of the twelve windows that hold weights and biases are constantly zero. -/
theorem idx_whole : ∀ t : Fin cfg0.N,
    win0_2.index t = (fun _ => 0) ∧ win0_3.index t = (fun _ => 0) ∧ win0_4.index t = (fun _ => 0)
    ∧ win0_5.index t = (fun _ => 0) ∧ win0_6.index t = (fun _ => 0) ∧ win0_7.index t = (fun _ => 0)
    ∧ win0_8.index t = (fun _ => 0) ∧ win0_9.index t = (fun _ => 0) ∧ win0_10.index t = (fun _ => 0)
    ∧ win0_11.index t = (fun _ => 0) ∧ win0_12.index t = (fun _ => 0) ∧ win0_13.index t = (fun _ => 0) :=
  (by decide +kernel : ∀ t : Fin grid0.N, _)

-- A window as large as its array, at block index zero on every axis: an entry of the block is the same entry of the array.
set_option hygiene false in
local macro "read_whole_block " w:ident ref:ident hz:term : tactic =>
  `(tactic| (funext x; unfold iblk; rw [View.read_apply]; show V m c $ref _ = V m c $ref _
             exact congrArg (V m c $ref) (funext fun a => Fin.ext (Pipeline.Window.rect_emb_val_of_index_zero $w _ a (congrFun $hz a) x))))

/-- Each of the twelve windows of weights and biases holds, at every grid point, the whole of its array. -/
theorem blk2 (c : Dev nD) (t : Fin cfg0.N) : (iblk m c 2 t : Vec Ideal S3 .f32) = (V m c main_arg3 : S3.Idx → EReal) := by
  read_whole_block win0_2 main_arg3 (idx_whole t).1
theorem blk3 (c : Dev nD) (t : Fin cfg0.N) : (iblk m c 3 t : Vec Ideal S1 .f32) = (V m c main_v2 : S1.Idx → EReal) := by
  read_whole_block win0_3 main_v2 (idx_whole t).2.1
theorem blk4 (c : Dev nD) (t : Fin cfg0.N) : (iblk m c 4 t : Vec Ideal S3 .f32) = (V m c main_arg5 : S3.Idx → EReal) := by
  read_whole_block win0_4 main_arg5 (idx_whole t).2.2.1
theorem blk5 (c : Dev nD) (t : Fin cfg0.N) : (iblk m c 5 t : Vec Ideal S1 .f32) = (V m c main_v3 : S1.Idx → EReal) := by
  read_whole_block win0_5 main_v3 (idx_whole t).2.2.2.1
theorem blk6 (c : Dev nD) (t : Fin cfg0.N) : (iblk m c 6 t : Vec Ideal S2x3 .f32) = (V m c main_arg7 : S2x3.Idx → EReal) := by
  read_whole_block win0_6 main_arg7 (idx_whole t).2.2.2.2.1
theorem blk7 (c : Dev nD) (t : Fin cfg0.N) : (iblk m c 7 t : Vec Ideal S1 .f32) = (V m c main_v4 : S1.Idx → EReal) := by
  read_whole_block win0_7 main_v4 (idx_whole t).2.2.2.2.2.1
theorem blk8 (c : Dev nD) (t : Fin cfg0.N) : (iblk m c 8 t : Vec Ideal S32x256 .f32) = (V m c main_arg9 : S32x256.Idx → EReal) := by
  read_whole_block win0_8 main_arg9 (idx_whole t).2.2.2.2.2.2.1
theorem blk9 (c : Dev nD) (t : Fin cfg0.N) : (iblk m c 9 t : Vec Ideal S32x256 .f32) = (V m c main_arg10 : S32x256.Idx → EReal) := by
  read_whole_block win0_9 main_arg10 (idx_whole t).2.2.2.2.2.2.2.1
theorem blk10 (c : Dev nD) (t : Fin cfg0.N) : (iblk m c 10 t : Vec Ideal S512x64 .f32) = (V m c main_arg11 : S512x64.Idx → EReal) := by
  read_whole_block win0_10 main_arg11 (idx_whole t).2.2.2.2.2.2.2.2.1
theorem blk11 (c : Dev nD) (t : Fin cfg0.N) : (iblk m c 11 t : Vec Ideal S1x64 .f32) = (V m c main_v5 : S1x64.Idx → EReal) := by
  read_whole_block win0_11 main_v5 (idx_whole t).2.2.2.2.2.2.2.2.2.1
theorem blk12 (c : Dev nD) (t : Fin cfg0.N) : (iblk m c 12 t : Vec Ideal S64x2 .f32) = (V m c main_arg13 : S64x2.Idx → EReal) := by
  read_whole_block win0_12 main_arg13 (idx_whole t).2.2.2.2.2.2.2.2.2.2.1
theorem blk13 (c : Dev nD) (t : Fin cfg0.N) : (iblk m c 13 t : Vec Ideal S1x2 .f32) = (V m c main_v6 : S1x2.Idx → EReal) := by
  read_whole_block win0_13 main_v6 (idx_whole t).2.2.2.2.2.2.2.2.2.2.2

/-- Member `p` of grid point `t`'s block of the first embedding array is member `64 t + p` of the array. -/
theorem slab_blk0 (c : Dev nD) (t : Fin cfg0.N) (p : Fin 64) (b : Fin 2048) (hb : b.val = 64 * t.val + p.val) :
    slab (iblk m c 0 t : Vec Ideal S64x32x256 .f32) p = slab (V m c main_v0 : S2048x32x256.Idx → EReal) b := by
  funext i d
  rw [slab_apply, slab_apply]
  unfold iblk
  rw [View.read_apply]
  show V m c main_v0 _ = V m c main_v0 _
  congr 1
  funext a
  apply Fin.ext
  obtain ⟨e0, e1, e2, -⟩ := idx_batched t
  match a with
  | ⟨0, _⟩ => show win0_0.index t (0 : Fin 3) * 64 + 1 * p.val = b.val; rw [e0, hb]; omega
  | ⟨1, _⟩ => show win0_0.index t (1 : Fin 3) * 32 + 1 * i.val = i.val; rw [e1]; omega
  | ⟨2, _⟩ => show win0_0.index t (2 : Fin 3) * 256 + 1 * d.val = d.val; rw [e2]; omega

/-- The same for the second embedding array. -/
theorem slab_blk1 (c : Dev nD) (t : Fin cfg0.N) (p : Fin 64) (b : Fin 2048) (hb : b.val = 64 * t.val + p.val) :
    slab (iblk m c 1 t : Vec Ideal S64x32x256 .f32) p = slab (V m c main_v1 : S2048x32x256.Idx → EReal) b := by
  funext i d
  rw [slab_apply, slab_apply]
  unfold iblk
  rw [View.read_apply]
  show V m c main_v1 _ = V m c main_v1 _
  congr 1
  funext a
  apply Fin.ext
  obtain ⟨-, -, -, e0, e1, e2, -⟩ := idx_batched t
  match a with
  | ⟨0, _⟩ => show win0_1.index t (0 : Fin 3) * 64 + 1 * p.val = b.val; rw [e0, hb]; omega
  | ⟨1, _⟩ => show win0_1.index t (1 : Fin 3) * 32 + 1 * i.val = i.val; rw [e1]; omega
  | ⟨2, _⟩ => show win0_1.index t (2 : Fin 3) * 256 + 1 * d.val = d.val; rw [e2]; omega

/-- The logits of every batch member, from the arrays as the region finds them. -/
def entryLogits (c : Dev nD) : FVec Ideal S2048x2 .f32 := fun j =>
  rowLogits ((V m c main_arg3 : S3.Idx → EReal) (ix1 0)) ((V m c main_arg3 : S3.Idx → EReal) (ix1 1)) ((V m c main_arg3 : S3.Idx → EReal) (ix1 2)) ((V m c main_v2 : S1.Idx → EReal) (ix1 0))
    ((V m c main_arg5 : S3.Idx → EReal) (ix1 0)) ((V m c main_arg5 : S3.Idx → EReal) (ix1 1)) ((V m c main_arg5 : S3.Idx → EReal) (ix1 2)) ((V m c main_v3 : S1.Idx → EReal) (ix1 0))
    ((V m c main_arg7 : S2x3.Idx → EReal) (ix2 0 0)) ((V m c main_arg7 : S2x3.Idx → EReal) (ix2 0 1)) ((V m c main_arg7 : S2x3.Idx → EReal) (ix2 0 2))
    ((V m c main_arg7 : S2x3.Idx → EReal) (ix2 1 0)) ((V m c main_arg7 : S2x3.Idx → EReal) (ix2 1 1)) ((V m c main_arg7 : S2x3.Idx → EReal) (ix2 1 2)) ((V m c main_v4 : S1.Idx → EReal) (ix1 0))
    (fun j d => (V m c main_arg9 : S32x256.Idx → EReal) (ix2 j d)) (fun j d => (V m c main_arg10 : S32x256.Idx → EReal) (ix2 j d)) (fun k n => (V m c main_arg11 : S512x64.Idx → EReal) (ix2 k n))
    (fun n => (V m c main_v5 : S1x64.Idx → EReal) (ix2 0 n)) (fun n k => (V m c main_arg13 : S64x2.Idx → EReal) (ix2 n k)) (fun k => (V m c main_v6 : S1x2.Idx → EReal) (ix2 0 k))
    (slab (V m c main_v0 : S2048x32x256.Idx → EReal) (j 0)) (slab (V m c main_v1 : S2048x32x256.Idx → EReal) (j 0)) (j 1)

/-- Entry `(p, q)` of what grid point `t` stores is entry `(64 t + p, q)` of the logits array. -/
theorem stored_apply (c : Dev nD) (t : Fin cfg0.N) (p : Fin 64) (q : Fin 2) (b : Fin 2048) (hb : b.val = 64 * t.val + p.val) :
    out0_14 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 p q)
      = entryLogits m c (ix2 b q) := by
  refine (Stages.block_eq (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) p q).trans ?_
  rw [blk2, blk3, blk4, blk5, blk6, blk7, blk8, blk9, blk10, blk11, blk12, blk13, slab_blk0 m c t p b hb, slab_blk1 m c t p b hb]
  rfl

/-- What grid point `t` writes back is block `t` of the logits array. -/
theorem flushed_eq (c : Dev nD) (t : Fin cfg0.N) :
    (dats m 0 c).flushed 14 t = ((cfg0.win 14).blk t).view.read (Elt Ideal) (entryLogits m c) := by
  show (cfg0.win 14).cut (grid0.coords t) ((dats m 0 c).after 14 t) = _
  rw [after0_14]
  funext y
  obtain ⟨p, q, rfl⟩ : ∃ (p : Fin 64) (q : Fin 2), y = ix2 p q := ⟨y 0, y 1, eq_ix2 y⟩
  have ht : t.val < 32 := lt_of_lt_of_eq t.isLt N_0
  have hemb : ((cfg0.win 14).blk t).view.emb (ix2 p q) = ix2 (⟨64 * t.val + p.val, by omega⟩ : Fin 2048) q := by
    funext a
    apply Fin.ext
    obtain ⟨-, -, -, -, -, -, e0, e1⟩ := idx_batched t
    match a with
    | ⟨0, _⟩ => show win0_14.index t (0 : Fin 2) * 64 + 1 * p.val = 64 * t.val + p.val; rw [e0]; omega
    | ⟨1, _⟩ => show win0_14.index t (1 : Fin 2) * 2 + 1 * q.val = q.val; rw [e1]; omega
  rw [View.read_apply, hemb]
  exact stored_apply m c t p q _ rfl

/-- Row `r` of the logits array lies in the block of grid point `r / 64`. -/
theorem covered (i : S2048x2.Idx) :
    ∃ t : Fin cfg0.N, (cfg0.win 14).flush t = true ∧ i ∈ ((cfg0.win 14).blk t).view.set := by
  have hi0 : (i 0).val < 2048 := (i 0).isLt
  have hi1 : (i 1).val < 2 := (i 1).isLt
  obtain ⟨t, ht⟩ : ∃ t : Fin cfg0.N, t.val = (i 0).val / 64 :=
    ⟨⟨(i 0).val / 64, lt_of_lt_of_eq (show (i 0).val / 64 < 32 by omega) N_0.symm⟩, rfl⟩
  refine ⟨t, flush0_14 t, ?_⟩
  show i ∈ ((View.whole main_v7).slice (win0_14.rect t)).set
  rw [View.set_slice_whole, Rect.mem_set_unit]
  intro a
  obtain ⟨-, -, -, -, -, -, e0, e1⟩ := idx_batched t
  match a with
  | ⟨0, _⟩ => show win0_14.index t (0 : Fin 2) * 64 ≤ (i 0).val ∧ (i 0).val < win0_14.index t (0 : Fin 2) * 64 + 64; rw [e0, ht]; omega
  | ⟨1, _⟩ => show win0_14.index t (1 : Fin 2) * 2 ≤ (i 1).val ∧ (i 1).val < win0_14.index t (1 : Fin 2) * 2 + 2; rw [e1]; omega

/-- After the last grid point the result array of the region is the logits array. -/
theorem region_result (c : Dev nD) : (dats m 0 c).arrAt 14 cfg0.N = entryLogits m c :=
  (dats m 0 c).arrAt_eq_of_cover 14 (entryLogits m c) (fun t _ => flushed_eq m c t) covered

/-- The contents the region finds are the launch contents for the arguments no host operation has written, the gathered
    rows for the two embedding arrays, and the re-laid biases: so the logits array is the one stated over the launch
    contents. -/
theorem entryLogits_eq (c : Dev nD) (h0 : IdxInRange (m ((c.tc : Thread nD τ).loc main_arg0)))
    (h1 : IdxInRange (m ((c.tc : Thread nD τ).loc main_arg1))) : entryLogits m c = logits m c := by
  funext j
  unfold entryLogits logits
  rw [V_main_arg3, V_main_arg5, V_main_arg7, V_main_arg9, V_main_arg10, V_main_arg11, V_main_arg13, V_e1 m c h0, V_e2 m c h1,
    V_c1b, V_c2b, V_c3b,
    show (fun n => (V m c main_v5 : S1x64.Idx → EReal) (ix2 0 n)) = (fun n => (m ((c.tc : Thread nD τ).loc main_arg12)) (ix1 n))
      from funext fun n => V_fb1 m c n,
    show (fun k => (V m c main_v6 : S1x2.Idx → EReal) (ix2 0 k)) = (fun k => (m ((c.tc : Thread nD τ).loc main_arg14)) (ix1 k))
      from funext fun k => V_fb2 m c k]

set_option maxHeartbeats 1000000 in
/-- The fourteen operations after the region compute the column-wise softmax of the region's result array. -/
theorem tail_value (c : Dev nD) :
    Pipeline.afterTail₀ cfgs (dats m) 0 (V0 m) [hostOps1] c main_v18 = tail (entryLogits m c) := by
  have e : Pipeline.withArrays (cfgs 0).spec c (V0 m c) (fun w => (dats m 0 c).arrAt w (cfgs 0).N) (Proc.devRef .tc main_v7)
      = entryLogits m c :=
    (Pipeline.withArrays_arr spec0 launch0.win.arr_inj c (V0 m c) (fun w => (dats m 0 c).arrAt w cfg0.N) 14).trans (region_result m c)
  unfold Pipeline.afterTail₀
  show StableHlo.after hostOps1 _ (Proc.devRef .tc main_v18) = _
  after_results
  rw [e]
  rfl

/-- With every index in range: every weakly fair execution of the program terminates with its result at the softmax of
    the logits and its arguments unchanged. -/
theorem kernel_run (h0 : ∀ c : Dev nD, IdxInRange (m ((c.tc : Thread nD τ).loc main_arg0))) (h1 : ∀ c : Dev nD, IdxInRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v18) = tail (logits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_v18 (Pipeline.mem_restRefs_of main_v18 (by decide) (by decide))).trans
        ((tail_value m c).trans (congrArg tail (entryLogits_eq m c (h0 c) (h1 c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).2 main_arg12 (Pipeline.mem_restRefs_of main_arg12 (by decide) (by decide))).trans (W_main_arg12 m (dats m) c),
      ((h c).1 12).trans (((dats m 0 c).arrAt_in 12 rfl _).trans ((A_eq m c 12).trans (V_main_arg13 m c))),
      ((h c).2 main_arg14 (Pipeline.mem_restRefs_of main_arg14 (by decide) (by decide))).trans (W_main_arg14 m (dats m) c)⟩)
    (run_main m ρ)

end Cert.KernelIdeal.KVal

end
-- ==== Proof.RConv.lean ====
/-
  The reference's convolution, pooling and border stages, each read at one member `b` of the batch of 2048: the stage of
  the batch, read at member `b`, is the stage function (Spec.lean) of the earlier stages read at member `b`.

  Each kind of stage is treated once, for arbitrary operands: the width-3 convolution (a zero border of two positions,
  three windows each times a weight, a bias), the width-3 average pooling (three windows summed, divided by three), the
  re-weighting of a sequence by per-position weights, and the two-input convolution (two batches stacked, bordered, six
  taps summed from zero, a bias). The ten stages below are instances: each stage is, by unfolding its definition, the
  corresponding expression in the earlier stages.
-/
import proofs.«401517_j58695023067400_1_alg».proof.Proof.RefRead
import proofs.«401517_j58695023067400_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.ReferenceIdeal.Stages

open Idealize.ShloMosaic Idealize.ShloMosaic.ValueIdx Cert.ReferenceIdeal Cert.ReferenceIdeal.ReadP Abcnn
open Cert.ReferenceIdeal.Gen

/-! ## Scalars: the word of three, the border value, broadcast scalars, single weights -/

/-- The single-precision word 0x40400000 is the real number three. -/
private theorem ofBits_three : Ideal.ofBits .f32 0x40400000#32 = ((3 : ℝ) : EReal) := by
  simp [Ideal.ofBits, Ideal.ieee]
  rw [← EReal.coe_mul]; norm_num

/-- The border value: the integer zero converted to a float is zero. -/
private theorem border_zero (j : S_.Idx) : (sitofp (F := Ideal) .f32 (constantI S_ 32 0#32)) j = (0 : EReal) := by
  show (((0#32 : BitVec 32).toInt : ℝ) : EReal) = 0
  simp

/-- A scalar broadcast to the 34-position shape reads as the scalar everywhere. -/
private theorem bcast34_read {α : Type} (c : S_.Idx → α) (j : S2048x34x256.Idx) :
    broadcastInDim S2048x34x256 ![] bcast_S_S2048x34x256 c j = c ix0 :=
  broadcastInDim_apply _ bcast_S_S2048x34x256 c j ix0 (fun a => a.elim0)

/-- Entry `k` of a vector of three, cut out as a one-entry slice and reshaped to a scalar. -/
private theorem w3_0 {α : Type} (w : S3.Idx → α) (j : S_.Idx) :
    shapeCast S_ (extractStridedSlice S1 ![0] w slices_S3_S1_0) shapeCasts_S1_S_ j = w (ix1 0) := by
  rw [shapeCast_apply _ shapeCasts_S1_S_ j (ix1 0) (by rw [Shape.rowMajor_val_one]; exact (Shape.rowMajorPi_zero _ _).symm)]
  exact extractStridedSlice_apply ![0] w slices_S3_S1_0 (ix1 0) (ix1 0) (fun a => match a with | ⟨0, _⟩ => rfl)

private theorem w3_1 {α : Type} (w : S3.Idx → α) (j : S_.Idx) :
    shapeCast S_ (extractStridedSlice S1 ![1] w slices_S3_S1_1) shapeCasts_S1_S_ j = w (ix1 1) := by
  rw [shapeCast_apply _ shapeCasts_S1_S_ j (ix1 0) (by rw [Shape.rowMajor_val_one]; exact (Shape.rowMajorPi_zero _ _).symm)]
  exact extractStridedSlice_apply ![1] w slices_S3_S1_1 (ix1 0) (ix1 1) (fun a => match a with | ⟨0, _⟩ => rfl)

private theorem w3_2 {α : Type} (w : S3.Idx → α) (j : S_.Idx) :
    shapeCast S_ (extractStridedSlice S1 ![2] w slices_S3_S1_2) shapeCasts_S1_S_ j = w (ix1 2) := by
  rw [shapeCast_apply _ shapeCasts_S1_S_ j (ix1 0) (by rw [Shape.rowMajor_val_one]; exact (Shape.rowMajorPi_zero _ _).symm)]
  exact extractStridedSlice_apply ![2] w slices_S3_S1_2 (ix1 0) (ix1 2) (fun a => match a with | ⟨0, _⟩ => rfl)

/-! ## The width-3 convolution -/

/-- The three windows of 34 positions inside the 36 bordered ones: window `k` at position `i` is position `i + k`. -/
private theorem win36_0 {α : Type} (z : S2048x36x256.Idx → α) (b : Fin 2048) (i : Fin 34) (d : Fin 256) :
    extractStridedSlice S2048x34x256 ![0, 0, 0] z slices_S2048x36x256_S2048x34x256_0_0_0 (ix3 b i d)
      = z (ix3 b ⟨i.val, by have := i.isLt; omega⟩ d) :=
  extractStridedSlice_apply ![0, 0, 0] z slices_S2048x36x256_S2048x34x256_0_0_0 (ix3 b i d) (ix3 b ⟨i.val, by have := i.isLt; omega⟩ d)
    (fun a => match a with
      | ⟨0, _⟩ => by show b.val = 0 + b.val; omega
      | ⟨1, _⟩ => by show i.val = 0 + i.val; omega
      | ⟨2, _⟩ => by show d.val = 0 + d.val; omega)

private theorem win36_1 {α : Type} (z : S2048x36x256.Idx → α) (b : Fin 2048) (i : Fin 34) (d : Fin 256) :
    extractStridedSlice S2048x34x256 ![0, 1, 0] z slices_S2048x36x256_S2048x34x256_0_1_0 (ix3 b i d)
      = z (ix3 b ⟨i.val + 1, by have := i.isLt; omega⟩ d) :=
  extractStridedSlice_apply ![0, 1, 0] z slices_S2048x36x256_S2048x34x256_0_1_0 (ix3 b i d) (ix3 b ⟨i.val + 1, by have := i.isLt; omega⟩ d)
    (fun a => match a with
      | ⟨0, _⟩ => by show b.val = 0 + b.val; omega
      | ⟨1, _⟩ => by show i.val + 1 = 1 + i.val; omega
      | ⟨2, _⟩ => by show d.val = 0 + d.val; omega)

private theorem win36_2 {α : Type} (z : S2048x36x256.Idx → α) (b : Fin 2048) (i : Fin 34) (d : Fin 256) :
    extractStridedSlice S2048x34x256 ![0, 2, 0] z slices_S2048x36x256_S2048x34x256_0_2_0 (ix3 b i d)
      = z (ix3 b ⟨i.val + 2, by have := i.isLt; omega⟩ d) :=
  extractStridedSlice_apply ![0, 2, 0] z slices_S2048x36x256_S2048x34x256_0_2_0 (ix3 b i d) (ix3 b ⟨i.val + 2, by have := i.isLt; omega⟩ d)
    (fun a => match a with
      | ⟨0, _⟩ => by show b.val = 0 + b.val; omega
      | ⟨1, _⟩ => by show i.val + 2 = 2 + i.val; omega
      | ⟨2, _⟩ => by show d.val = 0 + d.val; omega)

/-- The bordered sequence: a batch of 32-position sequences padded by two positions on each side with a value that reads
    as zero, read at member `b`, position `i` of the 36, is `padTwo` of member `b`. -/
private theorem pad36_read (x : S2048x32x256.Idx → EReal) (v : S_.Idx → EReal) (hv : ∀ j, v j = 0)
    (b : Fin 2048) (i : Fin 36) (d : Fin 256) :
    pad S2048x36x256 ![0, 2, 0] ![0, 2, 0] ![0, 0, 0] x v pads_S2048x32x256_S2048x36x256_000_220_000 h_S_ (ix3 b i d)
      = padTwo (slab x b) i.val d := by
  unfold padTwo
  by_cases h : 2 ≤ i.val ∧ i.val < 34
  · rw [dif_pos h]
    exact pad_apply_of_inside _ _ _ x v pads_S2048x32x256_S2048x36x256_000_220_000 h_S_ (ix3 b i d)
      (ix3 b ⟨i.val - 2, by omega⟩ d) (fun a => match a with
        | ⟨0, _⟩ => by show b.val = 0 + b.val * (0 + 1); omega
        | ⟨1, _⟩ => by show i.val = 2 + (i.val - 2) * (0 + 1); omega
        | ⟨2, _⟩ => by show d.val = 0 + d.val * (0 + 1); omega)
  · rw [dif_neg h, pad_apply_of_not_inside _ _ _ x v pads_S2048x32x256_S2048x36x256_000_220_000 h_S_ (ix3 b i d) (1 : Fin 3)
      (by
        show ¬(2 ≤ i.val ∧ (i.val - 2) % (0 + 1) = 0 ∧ (i.val - 2) / (0 + 1) < 32)
        omega)]
    exact hv _

/-- The width-3 convolution as the program spells it — the bordered batch, three windows each times a broadcast weight,
    summed, plus the broadcast bias — read at member `b` is `conv3` of member `b`. -/
private theorem conv3_read (y : (⟨S2048x32x256, .f32⟩ : BufTy).Contents (Elt Ideal)) (w : (⟨S3, .f32⟩ : BufTy).Contents (Elt Ideal))
    (c : (⟨S_, .f32⟩ : BufTy).Contents (Elt Ideal)) (b : Fin 2048) :
    slab (addf (addf (addf
        (mulf (broadcastInDim S2048x34x256 ![] bcast_S_S2048x34x256 (shapeCast S_ (extractStridedSlice S1 ![0] w slices_S3_S1_0) shapeCasts_S1_S_))
          (extractStridedSlice S2048x34x256 ![0, 0, 0] (pad S2048x36x256 ![0, 2, 0] ![0, 2, 0] ![0, 0, 0] y (sitofp (F := Ideal) .f32 (constantI S_ 32 0#32)) pads_S2048x32x256_S2048x36x256_000_220_000 h_S_) slices_S2048x36x256_S2048x34x256_0_0_0))
        (mulf (broadcastInDim S2048x34x256 ![] bcast_S_S2048x34x256 (shapeCast S_ (extractStridedSlice S1 ![1] w slices_S3_S1_1) shapeCasts_S1_S_))
          (extractStridedSlice S2048x34x256 ![0, 1, 0] (pad S2048x36x256 ![0, 2, 0] ![0, 2, 0] ![0, 0, 0] y (sitofp (F := Ideal) .f32 (constantI S_ 32 0#32)) pads_S2048x32x256_S2048x36x256_000_220_000 h_S_) slices_S2048x36x256_S2048x34x256_0_1_0)))
        (mulf (broadcastInDim S2048x34x256 ![] bcast_S_S2048x34x256 (shapeCast S_ (extractStridedSlice S1 ![2] w slices_S3_S1_2) shapeCasts_S1_S_))
          (extractStridedSlice S2048x34x256 ![0, 2, 0] (pad S2048x36x256 ![0, 2, 0] ![0, 2, 0] ![0, 0, 0] y (sitofp (F := Ideal) .f32 (constantI S_ 32 0#32)) pads_S2048x32x256_S2048x36x256_000_220_000 h_S_) slices_S2048x36x256_S2048x34x256_0_2_0)))
        (broadcastInDim S2048x34x256 ![] bcast_S_S2048x34x256 c)) b
      = conv3 (w (ix1 0)) (w (ix1 1)) (w (ix1 2)) (c ix0) (slab y b) := by
  funext i d
  rw [slab_apply]
  simp only [addf_apply, mulf_apply, win36_0, win36_1, win36_2]
  rw [bcast34_read, bcast34_read, bcast34_read, bcast34_read, w3_0, w3_1, w3_2]
  rw [pad36_read _ _ border_zero, pad36_read _ _ border_zero, pad36_read _ _ border_zero]
  rfl

/-! ## Pooling and re-weighting -/

/-- The three windows of 32 positions inside 34: window `k` at position `i` is position `i + k`. -/
private theorem win34_0 {α : Type} (z : S2048x34x256.Idx → α) (b : Fin 2048) (i : Fin 32) (d : Fin 256) :
    extractStridedSlice S2048x32x256 ![0, 0, 0] z slices_S2048x34x256_S2048x32x256_0_0_0 (ix3 b i d)
      = z (ix3 b ⟨i.val, by have := i.isLt; omega⟩ d) :=
  extractStridedSlice_apply ![0, 0, 0] z slices_S2048x34x256_S2048x32x256_0_0_0 (ix3 b i d) (ix3 b ⟨i.val, by have := i.isLt; omega⟩ d)
    (fun a => match a with
      | ⟨0, _⟩ => by show b.val = 0 + b.val; omega
      | ⟨1, _⟩ => by show i.val = 0 + i.val; omega
      | ⟨2, _⟩ => by show d.val = 0 + d.val; omega)

private theorem win34_1 {α : Type} (z : S2048x34x256.Idx → α) (b : Fin 2048) (i : Fin 32) (d : Fin 256) :
    extractStridedSlice S2048x32x256 ![0, 1, 0] z slices_S2048x34x256_S2048x32x256_0_1_0 (ix3 b i d)
      = z (ix3 b ⟨i.val + 1, by have := i.isLt; omega⟩ d) :=
  extractStridedSlice_apply ![0, 1, 0] z slices_S2048x34x256_S2048x32x256_0_1_0 (ix3 b i d) (ix3 b ⟨i.val + 1, by have := i.isLt; omega⟩ d)
    (fun a => match a with
      | ⟨0, _⟩ => by show b.val = 0 + b.val; omega
      | ⟨1, _⟩ => by show i.val + 1 = 1 + i.val; omega
      | ⟨2, _⟩ => by show d.val = 0 + d.val; omega)

private theorem win34_2 {α : Type} (z : S2048x34x256.Idx → α) (b : Fin 2048) (i : Fin 32) (d : Fin 256) :
    extractStridedSlice S2048x32x256 ![0, 2, 0] z slices_S2048x34x256_S2048x32x256_0_2_0 (ix3 b i d)
      = z (ix3 b ⟨i.val + 2, by have := i.isLt; omega⟩ d) :=
  extractStridedSlice_apply ![0, 2, 0] z slices_S2048x34x256_S2048x32x256_0_2_0 (ix3 b i d) (ix3 b ⟨i.val + 2, by have := i.isLt; omega⟩ d)
    (fun a => match a with
      | ⟨0, _⟩ => by show b.val = 0 + b.val; omega
      | ⟨1, _⟩ => by show i.val + 2 = 2 + i.val; omega
      | ⟨2, _⟩ => by show d.val = 0 + d.val; omega)

/-- A scalar broadcast to the 32-position shape reads as the scalar everywhere. -/
private theorem bcast32_read {α : Type} (c : S_.Idx → α) (j : S2048x32x256.Idx) :
    broadcastInDim S2048x32x256 ![] bcast_S_S2048x32x256 c j = c ix0 :=
  broadcastInDim_apply _ bcast_S_S2048x32x256 c j ix0 (fun a => a.elim0)

/-- Width-3 average pooling as the program spells it — three windows summed and divided by the word of three — read at
    member `b` is `pool3` of member `b`: dividing by three is multiplying by a third. -/
private theorem pool3_read (z : (⟨S2048x34x256, .f32⟩ : BufTy).Contents (Elt Ideal)) (b : Fin 2048) :
    slab (Host.divf (F := Ideal) (addf (addf
        (extractStridedSlice S2048x32x256 ![0, 0, 0] z slices_S2048x34x256_S2048x32x256_0_0_0)
        (extractStridedSlice S2048x32x256 ![0, 1, 0] z slices_S2048x34x256_S2048x32x256_0_1_0))
        (extractStridedSlice S2048x32x256 ![0, 2, 0] z slices_S2048x34x256_S2048x32x256_0_2_0))
        (broadcastInDim S2048x32x256 ![] bcast_S_S2048x32x256 (constant (F := Ideal) S_ .f32 0x40400000#32))) b
      = pool3 (slab z b) := by
  funext i d
  rw [slab_apply]
  show Ideal.div _ _ = _
  simp only [addf_apply, win34_0, win34_1, win34_2]
  rw [bcast32_read, constant_apply, ofBits_three, Ideal.div_coe (by norm_num : (3 : ℝ) ≠ 0)]
  rfl

/-- A sequence times per-position weights, the weights broadcast along the features as the program does (first to a unit
    feature axis, then along it), read at member `b`. -/
private theorem scale_read (c : FVec Ideal S2048x34x256 .f32) (s : FVec Ideal S2048x34 .f32) (b : Fin 2048) :
    slab (mulf c (broadcastInDim S2048x34x256 ![0, 1, 2] bcast_S2048x34x1_S2048x34x256_0_1_2
        (broadcastInDim S2048x34x1 ![0, 1] bcast_S2048x34_S2048x34x1_0_1 s))) b
      = scaleRows (slab c b) (fun i => s (ix2 b i)) := by
  funext i d
  rw [slab_apply, mulf_apply]
  rw [broadcastInDim_apply _ bcast_S2048x34x1_S2048x34x256_0_1_2 _ (ix3 b i d) (ix3 b i (0 : Fin 1)) (fun a => match a with
      | ⟨0, _⟩ => by show b.val = if (2048 : Nat) = 1 then 0 else b.val; rw [if_neg (by decide)]
      | ⟨1, _⟩ => by show i.val = if (34 : Nat) = 1 then 0 else i.val; rw [if_neg (by decide)]
      | ⟨2, _⟩ => by show 0 = if (1 : Nat) = 1 then 0 else d.val; rw [if_pos rfl])]
  rw [broadcastInDim_apply _ bcast_S2048x34_S2048x34x1_0_1 s (ix3 b i (0 : Fin 1)) (ix2 b i) (fun a => match a with
      | ⟨0, _⟩ => by show b.val = if (2048 : Nat) = 1 then 0 else b.val; rw [if_neg (by decide)]
      | ⟨1, _⟩ => by show i.val = if (34 : Nat) = 1 then 0 else i.val; rw [if_neg (by decide)])]
  rfl

/-! ## The two-input convolution -/

/-- Entry `(p, k)` of the 2 × 3 weight table, cut out as a one-entry slice and reshaped to a scalar. -/
private theorem w6_read {α : Type} (p k : ℕ) (hp : p < 2) (hk : k < 3) (h : S2x3.Slices ![p, k] S1x1) (w : S2x3.Idx → α) (j : S_.Idx) :
    shapeCast S_ (extractStridedSlice S1x1 ![p, k] w h) shapeCasts_S1x1_S_ j = w (ix2 (⟨p, hp⟩ : Fin 2) (⟨k, hk⟩ : Fin 3)) := by
  rw [shapeCast_apply _ shapeCasts_S1x1_S_ j (ix2 (0 : Fin 1) (0 : Fin 1)) (by
    rw [Shape.rowMajor_val_two]; exact (Shape.rowMajorPi_zero _ _).symm)]
  exact extractStridedSlice_apply ![p, k] w h (ix2 (0 : Fin 1) (0 : Fin 1)) (ix2 (⟨p, hp⟩ : Fin 2) (⟨k, hk⟩ : Fin 3)) (fun a => match a with
    | ⟨0, _⟩ => by show p = p + 0; omega
    | ⟨1, _⟩ => by show k = k + 0; omega)

/-- Two batches stacked along a new second axis (each first given a unit axis there): member 0 of the pair is the first
    batch, member 1 the second. -/
private theorem stack_read_0 {α : Type} (u v : S2048x32x256.Idx → α) (b : Fin 2048) (i : Fin 32) (d : Fin 256) :
    concatenate S2048x2x32x256 1
        [⟨S2048x1x32x256, broadcastInDim S2048x1x32x256 ![0, 2, 3] bcast_S2048x32x256_S2048x1x32x256_0_2_3 u⟩,
         ⟨S2048x1x32x256, broadcastInDim S2048x1x32x256 ![0, 2, 3] bcast_S2048x32x256_S2048x1x32x256_0_2_3 v⟩]
        concatenates_S2048x1x32x256_S2048x1x32x256_S2048x2x32x256_d1 (ix4 b (⟨0, by omega⟩ : Fin 2) i d) = u (ix3 b i d) := by
  rw [concatenate_apply_piece (t := S2048x2x32x256) 1
        [⟨S2048x1x32x256, broadcastInDim S2048x1x32x256 ![0, 2, 3] bcast_S2048x32x256_S2048x1x32x256_0_2_3 u⟩,
         ⟨S2048x1x32x256, broadcastInDim S2048x1x32x256 ![0, 2, 3] bcast_S2048x32x256_S2048x1x32x256_0_2_3 v⟩]
        concatenates_S2048x1x32x256_S2048x1x32x256_S2048x2x32x256_d1 (ix4 b (⟨0, by omega⟩ : Fin 2) i d)
      0 (by show (0 : ℕ) < 2; omega) S2048x1x32x256 _ rfl rfl 0 rfl (ix4 b (0 : Fin 1) i d)
      (fun a => match a with
        | ⟨0, _⟩ => fun _ => rfl
        | ⟨1, _⟩ => fun h => absurd rfl h
        | ⟨2, _⟩ => fun _ => rfl
        | ⟨3, _⟩ => fun _ => rfl)
      rfl]
  exact broadcastInDim_apply _ bcast_S2048x32x256_S2048x1x32x256_0_2_3 u (ix4 b (0 : Fin 1) i d) (ix3 b i d) (fun a => match a with
    | ⟨0, _⟩ => by show b.val = if (2048 : Nat) = 1 then 0 else b.val; rw [if_neg (by decide)]
    | ⟨1, _⟩ => by show i.val = if (32 : Nat) = 1 then 0 else i.val; rw [if_neg (by decide)]
    | ⟨2, _⟩ => by show d.val = if (256 : Nat) = 1 then 0 else d.val; rw [if_neg (by decide)])

private theorem stack_read_1 {α : Type} (u v : S2048x32x256.Idx → α) (b : Fin 2048) (i : Fin 32) (d : Fin 256) :
    concatenate S2048x2x32x256 1
        [⟨S2048x1x32x256, broadcastInDim S2048x1x32x256 ![0, 2, 3] bcast_S2048x32x256_S2048x1x32x256_0_2_3 u⟩,
         ⟨S2048x1x32x256, broadcastInDim S2048x1x32x256 ![0, 2, 3] bcast_S2048x32x256_S2048x1x32x256_0_2_3 v⟩]
        concatenates_S2048x1x32x256_S2048x1x32x256_S2048x2x32x256_d1 (ix4 b (⟨1, by omega⟩ : Fin 2) i d) = v (ix3 b i d) := by
  rw [concatenate_apply_piece (t := S2048x2x32x256) 1
        [⟨S2048x1x32x256, broadcastInDim S2048x1x32x256 ![0, 2, 3] bcast_S2048x32x256_S2048x1x32x256_0_2_3 u⟩,
         ⟨S2048x1x32x256, broadcastInDim S2048x1x32x256 ![0, 2, 3] bcast_S2048x32x256_S2048x1x32x256_0_2_3 v⟩]
        concatenates_S2048x1x32x256_S2048x1x32x256_S2048x2x32x256_d1 (ix4 b (⟨1, by omega⟩ : Fin 2) i d)
      1 (by show (1 : ℕ) < 2; omega) S2048x1x32x256 _ rfl rfl 1 rfl (ix4 b (0 : Fin 1) i d)
      (fun a => match a with
        | ⟨0, _⟩ => fun _ => rfl
        | ⟨1, _⟩ => fun h => absurd rfl h
        | ⟨2, _⟩ => fun _ => rfl
        | ⟨3, _⟩ => fun _ => rfl)
      rfl]
  exact broadcastInDim_apply _ bcast_S2048x32x256_S2048x1x32x256_0_2_3 v (ix4 b (0 : Fin 1) i d) (ix3 b i d) (fun a => match a with
    | ⟨0, _⟩ => by show b.val = if (2048 : Nat) = 1 then 0 else b.val; rw [if_neg (by decide)]
    | ⟨1, _⟩ => by show i.val = if (32 : Nat) = 1 then 0 else i.val; rw [if_neg (by decide)]
    | ⟨2, _⟩ => by show d.val = if (256 : Nat) = 1 then 0 else d.val; rw [if_neg (by decide)])

/-- One tap of the two-input convolution: the stack of two batches bordered by two zero positions on each side of the
    sequence axis, window `k` of member `p` of the pair, the unit axis dropped. At member `b`, position `i`, it is the
    bordered sequence of member `p` at position `i + k`. -/
private theorem tap4_read (p k : ℕ) (hp : p < 2) (hk : k ≤ 2) (h : S2048x2x36x256.Slices ![0, p, k, 0] S2048x1x34x256)
    (x : S2048x2x32x256.Idx → EReal) (v : S_.Idx → EReal) (hv : ∀ j, v j = 0) (b : Fin 2048) (y : Seq 32)
    (hy : ∀ i' d', x (ix4 b (⟨p, hp⟩ : Fin 2) i' d') = y i' d') (i : Fin 34) (d : Fin 256) :
    shapeCast S2048x34x256 (extractStridedSlice S2048x1x34x256 ![0, p, k, 0]
        (pad S2048x2x36x256 ![0, 0, 2, 0] ![0, 0, 2, 0] ![0, 0, 0, 0] x v pads_S2048x2x32x256_S2048x2x36x256_000_000_220_000 h_S_) h)
      shapeCasts_S2048x1x34x256_S2048x34x256 (ix3 b i d) = padTwo y (i.val + k) d := by
  have hi := i.isLt
  rw [shapeCast_apply _ shapeCasts_S2048x1x34x256_S2048x34x256 (ix3 b i d) (ix4 b (0 : Fin 1) i d) (by
    rw [Shape.rowMajor_val_four, Shape.rowMajor_val_three]
    show ((b.val * 1 + 0) * 34 + i.val) * 256 + d.val = (b.val * 34 + i.val) * 256 + d.val
    omega)]
  rw [extractStridedSlice_apply _ _ h (ix4 b (0 : Fin 1) i d) (ix4 b (⟨p, hp⟩ : Fin 2) (⟨i.val + k, by omega⟩ : Fin 36) d) (fun a => match a with
    | ⟨0, _⟩ => by show b.val = 0 + b.val; omega
    | ⟨1, _⟩ => by show p = p + 0; omega
    | ⟨2, _⟩ => by show i.val + k = k + i.val; omega
    | ⟨3, _⟩ => by show d.val = 0 + d.val; omega)]
  unfold padTwo
  by_cases hin : 2 ≤ i.val + k ∧ i.val + k < 34
  · rw [dif_pos hin, pad_apply_of_inside _ _ _ x v pads_S2048x2x32x256_S2048x2x36x256_000_000_220_000 h_S_ _
      (ix4 b (⟨p, hp⟩ : Fin 2) (⟨i.val + k - 2, by omega⟩ : Fin 32) d) (fun a => match a with
        | ⟨0, _⟩ => by show b.val = 0 + b.val * (0 + 1); omega
        | ⟨1, _⟩ => by show p = 0 + p * (0 + 1); omega
        | ⟨2, _⟩ => by show i.val + k = 2 + (i.val + k - 2) * (0 + 1); omega
        | ⟨3, _⟩ => by show d.val = 0 + d.val * (0 + 1); omega)]
    exact hy _ _
  · rw [dif_neg hin, pad_apply_of_not_inside _ _ _ x v pads_S2048x2x32x256_S2048x2x36x256_000_000_220_000 h_S_ _ (2 : Fin 4) (by
      show ¬(2 ≤ i.val + k ∧ (i.val + k - 2) % (0 + 1) = 0 ∧ (i.val + k - 2) / (0 + 1) < 32)
      omega)]
    exact hv _

/-- The two-input width-3 convolution as the program spells it — the stacked pair `P`, bordered; six taps, each a
    broadcast weight times a window of one member of the pair, summed onto a broadcast zero; plus the broadcast bias — read
    at member `b` is `conv6` of the two batches' members `b`. -/
private theorem conv6_read (u v : (⟨S2048x32x256, .f32⟩ : BufTy).Contents (Elt Ideal)) (w : (⟨S2x3, .f32⟩ : BufTy).Contents (Elt Ideal))
    (c : (⟨S_, .f32⟩ : BufTy).Contents (Elt Ideal)) (P : (⟨S2048x2x36x256, .f32⟩ : BufTy).Contents (Elt Ideal))
    (hP : P = pad S2048x2x36x256 ![0, 0, 2, 0] ![0, 0, 2, 0] ![0, 0, 0, 0]
        (concatenate S2048x2x32x256 1
          [⟨S2048x1x32x256, broadcastInDim S2048x1x32x256 ![0, 2, 3] bcast_S2048x32x256_S2048x1x32x256_0_2_3 u⟩,
           ⟨S2048x1x32x256, broadcastInDim S2048x1x32x256 ![0, 2, 3] bcast_S2048x32x256_S2048x1x32x256_0_2_3 v⟩]
          concatenates_S2048x1x32x256_S2048x1x32x256_S2048x2x32x256_d1)
        (sitofp (F := Ideal) .f32 (constantI S_ 32 0#32)) pads_S2048x2x32x256_S2048x2x36x256_000_000_220_000 h_S_)
    (b : Fin 2048) :
    slab (addf (addf (addf (addf (addf (addf (addf
        (broadcastInDim S2048x34x256 ![] bcast_S_S2048x34x256 (constant (F := Ideal) S_ .f32 0x00000000#32))
        (mulf (broadcastInDim S2048x34x256 ![] bcast_S_S2048x34x256 (shapeCast S_ (extractStridedSlice S1x1 ![0, 0] w slices_S2x3_S1x1_0_0) shapeCasts_S1x1_S_))
          (shapeCast S2048x34x256 (extractStridedSlice S2048x1x34x256 ![0, 0, 0, 0] P slices_S2048x2x36x256_S2048x1x34x256_0_0_0_0) shapeCasts_S2048x1x34x256_S2048x34x256)))
        (mulf (broadcastInDim S2048x34x256 ![] bcast_S_S2048x34x256 (shapeCast S_ (extractStridedSlice S1x1 ![0, 1] w slices_S2x3_S1x1_0_1) shapeCasts_S1x1_S_))
          (shapeCast S2048x34x256 (extractStridedSlice S2048x1x34x256 ![0, 0, 1, 0] P slices_S2048x2x36x256_S2048x1x34x256_0_0_1_0) shapeCasts_S2048x1x34x256_S2048x34x256)))
        (mulf (broadcastInDim S2048x34x256 ![] bcast_S_S2048x34x256 (shapeCast S_ (extractStridedSlice S1x1 ![0, 2] w slices_S2x3_S1x1_0_2) shapeCasts_S1x1_S_))
          (shapeCast S2048x34x256 (extractStridedSlice S2048x1x34x256 ![0, 0, 2, 0] P slices_S2048x2x36x256_S2048x1x34x256_0_0_2_0) shapeCasts_S2048x1x34x256_S2048x34x256)))
        (mulf (broadcastInDim S2048x34x256 ![] bcast_S_S2048x34x256 (shapeCast S_ (extractStridedSlice S1x1 ![1, 0] w slices_S2x3_S1x1_1_0) shapeCasts_S1x1_S_))
          (shapeCast S2048x34x256 (extractStridedSlice S2048x1x34x256 ![0, 1, 0, 0] P slices_S2048x2x36x256_S2048x1x34x256_0_1_0_0) shapeCasts_S2048x1x34x256_S2048x34x256)))
        (mulf (broadcastInDim S2048x34x256 ![] bcast_S_S2048x34x256 (shapeCast S_ (extractStridedSlice S1x1 ![1, 1] w slices_S2x3_S1x1_1_1) shapeCasts_S1x1_S_))
          (shapeCast S2048x34x256 (extractStridedSlice S2048x1x34x256 ![0, 1, 1, 0] P slices_S2048x2x36x256_S2048x1x34x256_0_1_1_0) shapeCasts_S2048x1x34x256_S2048x34x256)))
        (mulf (broadcastInDim S2048x34x256 ![] bcast_S_S2048x34x256 (shapeCast S_ (extractStridedSlice S1x1 ![1, 2] w slices_S2x3_S1x1_1_2) shapeCasts_S1x1_S_))
          (shapeCast S2048x34x256 (extractStridedSlice S2048x1x34x256 ![0, 1, 2, 0] P slices_S2048x2x36x256_S2048x1x34x256_0_1_2_0) shapeCasts_S2048x1x34x256_S2048x34x256)))
        (broadcastInDim S2048x34x256 ![] bcast_S_S2048x34x256 c)) b
      = conv6 (w (ix2 0 0)) (w (ix2 0 1)) (w (ix2 0 2)) (w (ix2 1 0)) (w (ix2 1 1)) (w (ix2 1 2)) (c ix0) (slab u b) (slab v b) := by
  subst hP
  funext i d
  rw [slab_apply]
  simp only [addf_apply, mulf_apply]
  rw [bcast34_read, bcast34_read, bcast34_read, bcast34_read, bcast34_read, bcast34_read, bcast34_read, bcast34_read]
  rw [w6_read 0 0 (by omega) (by omega), w6_read 0 1 (by omega) (by omega), w6_read 0 2 (by omega) (by omega),
    w6_read 1 0 (by omega) (by omega), w6_read 1 1 (by omega) (by omega), w6_read 1 2 (by omega) (by omega)]
  rw [tap4_read 0 0 (by omega) (by omega) _ _ _ border_zero b (slab u b) (fun i' d' => stack_read_0 u v b i' d'),
    tap4_read 0 1 (by omega) (by omega) _ _ _ border_zero b (slab u b) (fun i' d' => stack_read_0 u v b i' d'),
    tap4_read 0 2 (by omega) (by omega) _ _ _ border_zero b (slab u b) (fun i' d' => stack_read_0 u v b i' d'),
    tap4_read 1 0 (by omega) (by omega) _ _ _ border_zero b (slab v b) (fun i' d' => stack_read_1 u v b i' d'),
    tap4_read 1 1 (by omega) (by omega) _ _ _ border_zero b (slab v b) (fun i' d' => stack_read_1 u v b i' d'),
    tap4_read 1 2 (by omega) (by omega) _ _ _ border_zero b (slab v b) (fun i' d' => stack_read_1 u v b i' d')]
  rw [constant_apply, Ideal.ofBits_zero_f32, zero_add]
  rfl

/-! ## The ten stages -/

variable (x0 x1 : (⟨S2048x32, .i32⟩ : BufTy).Contents (Elt Ideal)) (x2 : (⟨S100000x256, .f32⟩ : BufTy).Contents (Elt Ideal)) (x3 : (⟨S3, .f32⟩ : BufTy).Contents (Elt Ideal)) (x4 : (⟨S_, .f32⟩ : BufTy).Contents (Elt Ideal))
  (x5 : (⟨S3, .f32⟩ : BufTy).Contents (Elt Ideal)) (x6 : (⟨S_, .f32⟩ : BufTy).Contents (Elt Ideal)) (x7 : (⟨S2x3, .f32⟩ : BufTy).Contents (Elt Ideal)) (x8 : (⟨S_, .f32⟩ : BufTy).Contents (Elt Ideal)) (x9 x10 : (⟨S32x256, .f32⟩ : BufTy).Contents (Elt Ideal))
  (x11 : (⟨S512x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal))

/-- The first sentence's convolution and its representation (pooling by division by three). -/
theorem ref_v33_row (b : Fin 2048) : slab (val_main_v33 (F := Ideal) x0 x2 x3 x4) b = conv3 (x3 (ix1 0)) (x3 (ix1 1)) (x3 (ix1 2)) (x4 ix0) (slab (val_main_v6 (F := Ideal) x0 x2) b) :=
  conv3_read (val_main_v6 (F := Ideal) x0 x2) x3 x4 b
theorem ref_v40_row (b : Fin 2048) : slab (val_main_v40 (F := Ideal) x0 x2 x3 x4) b = rep (x3 (ix1 0)) (x3 (ix1 1)) (x3 (ix1 2)) (x4 ix0) (slab (val_main_v6 (F := Ideal) x0 x2) b) :=
  (pool3_read (val_main_v33 (F := Ideal) x0 x2 x3 x4) b).trans (congrArg pool3 (ref_v33_row x0 x2 x3 x4 b))

/-- The second sentence's. -/
theorem ref_v60_row (b : Fin 2048) : slab (val_main_v60 (F := Ideal) x1 x2 x3 x4) b = conv3 (x3 (ix1 0)) (x3 (ix1 1)) (x3 (ix1 2)) (x4 ix0) (slab (val_main_v13 (F := Ideal) x1 x2) b) :=
  conv3_read (val_main_v13 (F := Ideal) x1 x2) x3 x4 b
theorem ref_v67_row (b : Fin 2048) : slab (val_main_v67 (F := Ideal) x1 x2 x3 x4) b = rep (x3 (ix1 0)) (x3 (ix1 1)) (x3 (ix1 2)) (x4 ix0) (slab (val_main_v13 (F := Ideal) x1 x2) b) :=
  (pool3_read (val_main_v60 (F := Ideal) x1 x2 x3 x4) b).trans (congrArg pool3 (ref_v60_row x1 x2 x3 x4 b))

/-- The two two-input convolutions: the stacked pair, bordered, six weighted slices summed from zero, the bias. -/
theorem ref_v138_row (b : Fin 2048) :
    slab (val_main_v138 (F := Ideal) x0 x1 x2 x3 x4 x7 x8 x9) b = conv6 (x7 (ix2 0 0)) (x7 (ix2 0 1)) (x7 (ix2 0 2)) (x7 (ix2 1 0)) (x7 (ix2 1 1)) (x7 (ix2 1 2)) (x8 ix0) (slab (val_main_v40 (F := Ideal) x0 x2 x3 x4) b) (slab (val_main_v88 (F := Ideal) x0 x1 x2 x3 x4 x9) b) :=
  conv6_read (val_main_v40 (F := Ideal) x0 x2 x3 x4) (val_main_v88 (F := Ideal) x0 x1 x2 x3 x4 x9) x7 x8 _ rfl b
theorem ref_v187_row (b : Fin 2048) :
    slab (val_main_v187 (F := Ideal) x0 x1 x2 x3 x4 x7 x8 x10) b = conv6 (x7 (ix2 0 0)) (x7 (ix2 0 1)) (x7 (ix2 0 2)) (x7 (ix2 1 0)) (x7 (ix2 1 1)) (x7 (ix2 1 2)) (x8 ix0) (slab (val_main_v67 (F := Ideal) x1 x2 x3 x4) b) (slab (val_main_v89 (F := Ideal) x0 x1 x2 x3 x4 x10) b) :=
  conv6_read (val_main_v67 (F := Ideal) x1 x2 x3 x4) (val_main_v89 (F := Ideal) x0 x1 x2 x3 x4 x10) x7 x8 _ rfl b

/-- The feature sequences re-weighted by the attention's sums, then pooled. -/
theorem ref_v219_row (b : Fin 2048) :
    slab (val_main_v219 (F := Ideal) x0 x1 x2 x3 x4 x7 x8 x9 x10) b = pool3 (scaleRows (slab (val_main_v138 (F := Ideal) x0 x1 x2 x3 x4 x7 x8 x9) b) (fun i => (val_main_v208 (F := Ideal) x0 x1 x2 x3 x4 x7 x8 x9 x10) (ix2 b i))) :=
  (pool3_read (val_main_v212 (F := Ideal) x0 x1 x2 x3 x4 x7 x8 x9 x10) b).trans
    (congrArg pool3 (scale_read (val_main_v138 (F := Ideal) x0 x1 x2 x3 x4 x7 x8 x9) (val_main_v208 (F := Ideal) x0 x1 x2 x3 x4 x7 x8 x9 x10) b))
theorem ref_v229_row (b : Fin 2048) :
    slab (val_main_v229 (F := Ideal) x0 x1 x2 x3 x4 x7 x8 x9 x10) b = pool3 (scaleRows (slab (val_main_v187 (F := Ideal) x0 x1 x2 x3 x4 x7 x8 x10) b) (fun i => (val_main_v209 (F := Ideal) x0 x1 x2 x3 x4 x7 x8 x9 x10) (ix2 b i))) :=
  (pool3_read (val_main_v222 (F := Ideal) x0 x1 x2 x3 x4 x7 x8 x9 x10) b).trans
    (congrArg pool3 (scale_read (val_main_v187 (F := Ideal) x0 x1 x2 x3 x4 x7 x8 x10) (val_main_v209 (F := Ideal) x0 x1 x2 x3 x4 x7 x8 x9 x10) b))

/-- The second convolution of each pooled sequence. -/
theorem ref_v249_row (b : Fin 2048) : slab (val_main_v249 (F := Ideal) x0 x1 x2 x3 x4 x5 x6 x7 x8 x9 x10) b = conv3 (x5 (ix1 0)) (x5 (ix1 1)) (x5 (ix1 2)) (x6 ix0) (slab (val_main_v219 (F := Ideal) x0 x1 x2 x3 x4 x7 x8 x9 x10) b) :=
  conv3_read (val_main_v219 (F := Ideal) x0 x1 x2 x3 x4 x7 x8 x9 x10) x5 x6 b
theorem ref_v272_row (b : Fin 2048) : slab (val_main_v272 (F := Ideal) x0 x1 x2 x3 x4 x5 x6 x7 x8 x9 x10) b = conv3 (x5 (ix1 0)) (x5 (ix1 1)) (x5 (ix1 2)) (x6 ix0) (slab (val_main_v229 (F := Ideal) x0 x1 x2 x3 x4 x7 x8 x9 x10) b) :=
  conv3_read (val_main_v229 (F := Ideal) x0 x1 x2 x3 x4 x7 x8 x9 x10) x5 x6 b

end Cert.ReferenceIdeal.Stages

end
-- ==== Proof.RAttn.lean ====
/-
  The reference's attention stages read at one member `b` of the batch: squared norms as sums over the features, inner
  products as the batched dot product, the attention times a weight matrix, and the second attention with its two sums.
-/
import proofs.«401517_j58695023067400_1_alg».proof.Proof.RefRead
import proofs.«401517_j58695023067400_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Cert.ReferenceIdeal Cert.ReferenceIdeal.ReadP Abcnn

variable (x0 x1 : (⟨S2048x32, .i32⟩ : BufTy).Contents (Elt Ideal)) (x2 : (⟨S100000x256, .f32⟩ : BufTy).Contents (Elt Ideal)) (x3 : (⟨S3, .f32⟩ : BufTy).Contents (Elt Ideal)) (x4 : (⟨S_, .f32⟩ : BufTy).Contents (Elt Ideal))
  (x5 : (⟨S3, .f32⟩ : BufTy).Contents (Elt Ideal)) (x6 : (⟨S_, .f32⟩ : BufTy).Contents (Elt Ideal)) (x7 : (⟨S2x3, .f32⟩ : BufTy).Contents (Elt Ideal)) (x8 : (⟨S_, .f32⟩ : BufTy).Contents (Elt Ideal)) (x9 x10 : (⟨S32x256, .f32⟩ : BufTy).Contents (Elt Ideal))
  (x11 : (⟨S512x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal))

/-- The feature index of the first sequence's squared norm, followed back through the two broadcasts that spread it over the matrix. -/
private theorem sqA_idx (b : Fin 2048) (i j : Fin 32) (d : Fin 256) :
    idx_main_v69 (idx_main_v72 (idx_main_v74 (ix3 b i j))) d = ix3 b i d :=
  funext fun a => Fin.ext (by match a with | ⟨0, _⟩ => rfl | ⟨1, _⟩ => rfl | ⟨2, _⟩ => rfl)
private theorem sqB_idx (b : Fin 2048) (i j : Fin 32) (d : Fin 256) :
    idx_main_v71 (idx_main_v73 (idx_main_v75 (ix3 b i j))) d = ix3 b j d :=
  funext fun a => Fin.ext (by match a with | ⟨0, _⟩ => rfl | ⟨1, _⟩ => rfl | ⟨2, _⟩ => rfl)
private theorem dotA_idx (b : Fin 2048) (i j : Fin 32) (d : Fin 256) :
    lidx_main_v77 (ix3 b i j) d = ix3 b i d :=
  funext fun a => Fin.ext (by match a with | ⟨0, _⟩ => rfl | ⟨1, _⟩ => rfl | ⟨2, _⟩ => rfl)
private theorem dotB_idx (b : Fin 2048) (i j : Fin 32) (d : Fin 256) :
    ridx_main_v77 (ix3 b i j) d = ix3 b j d :=
  funext fun a => Fin.ext (by match a with | ⟨0, _⟩ => rfl | ⟨1, _⟩ => rfl | ⟨2, _⟩ => rfl)

/-- The first attention matrix. -/
theorem ref_v87_row (b : Fin 2048) : slab (val_main_v87 (F := Ideal) x0 x1 x2 x3 x4) b = attn (slab (val_main_v40 (F := Ideal) x0 x2 x3 x4) b) (slab (val_main_v67 (F := Ideal) x1 x2 x3 x4) b) := by
  funext i j
  unfold attn
  simp only [slab_apply]
  rw [val_main_v87_apply, val_main_v86_apply, val_main_cst_11_apply, val_main_v85_apply, val_main_v84_apply,
    val_main_cst_10_apply, val_main_v83_apply, val_main_v82_apply, val_main_v80_apply, val_main_v79_apply,
    val_main_v78_apply, val_main_cst_8_apply, val_main_v77_apply, val_main_v76_apply, val_main_v74_apply,
    val_main_v72_apply, val_main_v69_apply, val_main_cst_6_apply, val_main_v75_apply, val_main_v73_apply,
    val_main_v71_apply, val_main_cst_7_apply, Ideal.ofBits_def (φ := .f32) 0x00000000#32, Ideal.ofBits_zero_f32, zero_add, zero_add,
    val_main_v81_apply, val_main_cst_9_apply]
  simp only [val_main_v68_apply, val_main_v70_apply, sqA_idx, sqB_idx, dotA_idx, dotB_idx, Ideal.hostDivf_def,
    Ideal.hostUnary_sqrt_def, Ideal.maximumf_def, Ideal.mulf_def, Ideal.addf_def, Ideal.subf_def, Ideal.ofBits_def]

/-- The operand indices of the product with a weight matrix: position `i` of member `b` meets row `k` of the weights. -/
private theorem wA_idx (b : Fin 2048) (i : Fin 32) (d : Fin 256) (k : Fin 32) :
    lidx_main_v88 (ix3 b i d) k = ix3 b i k :=
  funext fun a => Fin.ext (by match a with | ⟨0, _⟩ => rfl | ⟨1, _⟩ => rfl | ⟨2, _⟩ => rfl)
private theorem wB_idx (b : Fin 2048) (i : Fin 32) (d : Fin 256) (k : Fin 32) :
    ridx_main_v88 (ix3 b i d) k = ix2 k d :=
  funext fun a => Fin.ext (by match a with | ⟨0, _⟩ => rfl | ⟨1, _⟩ => rfl)
private theorem wA_idx' (b : Fin 2048) (i : Fin 32) (d : Fin 256) (k : Fin 32) :
    lidx_main_v89 (ix3 b i d) k = ix3 b i k :=
  funext fun a => Fin.ext (by match a with | ⟨0, _⟩ => rfl | ⟨1, _⟩ => rfl | ⟨2, _⟩ => rfl)
private theorem wB_idx' (b : Fin 2048) (i : Fin 32) (d : Fin 256) (k : Fin 32) :
    ridx_main_v89 (ix3 b i d) k = ix2 k d :=
  funext fun a => Fin.ext (by match a with | ⟨0, _⟩ => rfl | ⟨1, _⟩ => rfl)

/-- The first attention times each weight matrix. -/
theorem ref_v88_row (b : Fin 2048) : slab (val_main_v88 (F := Ideal) x0 x1 x2 x3 x4 x9) b = applyW (slab (val_main_v87 (F := Ideal) x0 x1 x2 x3 x4) b) (fun j d => x9 (ix2 j d)) := by
  funext i d
  unfold applyW
  simp only [slab_apply]
  rw [val_main_v88_apply]
  simp only [wA_idx, wB_idx]
theorem ref_v89_row (b : Fin 2048) : slab (val_main_v89 (F := Ideal) x0 x1 x2 x3 x4 x10) b = applyW (slab (val_main_v87 (F := Ideal) x0 x1 x2 x3 x4) b) (fun j d => x10 (ix2 j d)) := by
  funext i d
  unfold applyW
  simp only [slab_apply]
  rw [val_main_v89_apply]
  simp only [wA_idx', wB_idx']

/-- The same four index identities for the second attention, over 34 positions. -/
private theorem sqA2_idx (b : Fin 2048) (i j : Fin 34) (d : Fin 256) :
    idx_main_v189 (idx_main_v192 (idx_main_v194 (ix3 b i j))) d = ix3 b i d :=
  funext fun a => Fin.ext (by match a with | ⟨0, _⟩ => rfl | ⟨1, _⟩ => rfl | ⟨2, _⟩ => rfl)
private theorem sqB2_idx (b : Fin 2048) (i j : Fin 34) (d : Fin 256) :
    idx_main_v191 (idx_main_v193 (idx_main_v195 (ix3 b i j))) d = ix3 b j d :=
  funext fun a => Fin.ext (by match a with | ⟨0, _⟩ => rfl | ⟨1, _⟩ => rfl | ⟨2, _⟩ => rfl)
private theorem dotA2_idx (b : Fin 2048) (i j : Fin 34) (d : Fin 256) :
    lidx_main_v197 (ix3 b i j) d = ix3 b i d :=
  funext fun a => Fin.ext (by match a with | ⟨0, _⟩ => rfl | ⟨1, _⟩ => rfl | ⟨2, _⟩ => rfl)
private theorem dotB2_idx (b : Fin 2048) (i j : Fin 34) (d : Fin 256) :
    ridx_main_v197 (ix3 b i j) d = ix3 b j d :=
  funext fun a => Fin.ext (by match a with | ⟨0, _⟩ => rfl | ⟨1, _⟩ => rfl | ⟨2, _⟩ => rfl)

/-- The second attention matrix and its sums along the second index and along the first. -/
theorem ref_v207_row (b : Fin 2048) : slab (val_main_v207 (F := Ideal) x0 x1 x2 x3 x4 x7 x8 x9 x10) b = attn (slab (val_main_v138 (F := Ideal) x0 x1 x2 x3 x4 x7 x8 x9) b) (slab (val_main_v187 (F := Ideal) x0 x1 x2 x3 x4 x7 x8 x10) b) := by
  funext i j
  unfold attn
  simp only [slab_apply]
  rw [val_main_v207_apply, val_main_v206_apply, val_main_cst_21_apply, val_main_v205_apply, val_main_v204_apply,
    val_main_cst_20_apply, val_main_v203_apply, val_main_v202_apply, val_main_v200_apply, val_main_v199_apply,
    val_main_v198_apply, val_main_cst_18_apply, val_main_v197_apply, val_main_v196_apply, val_main_v194_apply,
    val_main_v192_apply, val_main_v189_apply, val_main_cst_16_apply, val_main_v195_apply, val_main_v193_apply,
    val_main_v191_apply, val_main_cst_17_apply, Ideal.ofBits_def (φ := .f32) 0x00000000#32, Ideal.ofBits_zero_f32,
    zero_add, zero_add, val_main_v201_apply, val_main_cst_19_apply]
  simp only [val_main_v188_apply, val_main_v190_apply, sqA2_idx, sqB2_idx, dotA2_idx, dotB2_idx, Ideal.hostDivf_def,
    Ideal.hostUnary_sqrt_def, Ideal.maximumf_def, Ideal.mulf_def, Ideal.addf_def, Ideal.subf_def, Ideal.ofBits_def]

/-- The summed index of the two sums of the second attention: the last coordinate, and the middle one. -/
private theorem sumLast_idx (b : Fin 2048) (i k : Fin 34) : idx_main_v208 (ix2 b i) k = ix3 b i k :=
  funext fun a => Fin.ext (by match a with | ⟨0, _⟩ => rfl | ⟨1, _⟩ => rfl | ⟨2, _⟩ => rfl)
private theorem sumMid_idx (b : Fin 2048) (i k : Fin 34) : idx_main_v209 (ix2 b i) k = ix3 b k i :=
  funext fun a => Fin.ext (by match a with | ⟨0, _⟩ => rfl | ⟨1, _⟩ => rfl | ⟨2, _⟩ => rfl)

theorem ref_v208_row (b : Fin 2048) : (fun i => (val_main_v208 (F := Ideal) x0 x1 x2 x3 x4 x7 x8 x9 x10) (ix2 b i)) = sumOverSecond (slab (val_main_v207 (F := Ideal) x0 x1 x2 x3 x4 x7 x8 x9 x10) b) := by
  funext i
  unfold sumOverSecond
  simp only [slab_apply]
  rw [val_main_v208_apply, val_main_cst_22_apply, Ideal.ofBits_def, Ideal.ofBits_zero_f32, zero_add]
  simp only [sumLast_idx]
theorem ref_v209_row (b : Fin 2048) : (fun i => (val_main_v209 (F := Ideal) x0 x1 x2 x3 x4 x7 x8 x9 x10) (ix2 b i)) = sumOverFirst (slab (val_main_v207 (F := Ideal) x0 x1 x2 x3 x4 x7 x8 x9 x10) b) := by
  funext i
  unfold sumOverFirst
  simp only [slab_apply]
  rw [val_main_v209_apply, val_main_cst_23_apply, Ideal.ofBits_def, Ideal.ofBits_zero_f32, zero_add]
  simp only [sumMid_idx]

end Cert.ReferenceIdeal.Stages

end
-- ==== Proof.RFinal.lean ====
/-
  The reference's last stages read at one member `b` of the batch: the mean over the sequence, the two means side by
  side, the hidden layer and the two logits.
-/
import proofs.«401517_j58695023067400_1_alg».proof.Proof.RefRead
import proofs.«401517_j58695023067400_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Cert.ReferenceIdeal Cert.ReferenceIdeal.ReadP Abcnn

variable (x0 x1 : (⟨S2048x32, .i32⟩ : BufTy).Contents (Elt Ideal)) (x2 : (⟨S100000x256, .f32⟩ : BufTy).Contents (Elt Ideal)) (x3 : (⟨S3, .f32⟩ : BufTy).Contents (Elt Ideal)) (x4 : (⟨S_, .f32⟩ : BufTy).Contents (Elt Ideal))
  (x5 : (⟨S3, .f32⟩ : BufTy).Contents (Elt Ideal)) (x6 : (⟨S_, .f32⟩ : BufTy).Contents (Elt Ideal)) (x7 : (⟨S2x3, .f32⟩ : BufTy).Contents (Elt Ideal)) (x8 : (⟨S_, .f32⟩ : BufTy).Contents (Elt Ideal)) (x9 x10 : (⟨S32x256, .f32⟩ : BufTy).Contents (Elt Ideal))
  (x11 : (⟨S512x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal))

/-- The index at which the sum over the 34 positions reads its operand: member `b`, position `k`, feature `d`. -/
private theorem idx_v250_ix (b : Fin 2048) (d : Fin 256) (k : Fin 34) :
    idx_main_v250 (ix2 b d) k = ix3 b k d := by
  funext a; match a with | ⟨0, _⟩ => rfl | ⟨1, _⟩ => rfl | ⟨2, _⟩ => rfl
private theorem idx_v273_ix (b : Fin 2048) (d : Fin 256) (k : Fin 34) :
    idx_main_v273 (ix2 b d) k = ix3 b k d := by
  funext a; match a with | ⟨0, _⟩ => rfl | ⟨1, _⟩ => rfl | ⟨2, _⟩ => rfl

/-- The mean over the 34 positions of each second convolution. -/
theorem ref_v252_row (b : Fin 2048) : (fun d => (val_main_v252 (F := Ideal) x0 x1 x2 x3 x4 x5 x6 x7 x8 x9 x10) (ix2 b d)) = meanSeq (slab (val_main_v249 (F := Ideal) x0 x1 x2 x3 x4 x5 x6 x7 x8 x9 x10) b) := by
  funext d
  rw [val_main_v252_apply, Ideal.hostDivf_def, val_main_v250_apply, val_main_v251_apply, val_main_cst_28_apply,
    val_main_cst_27_apply]
  simp only [Ideal.ofBits_def, Ideal.ofBits_zero_f32, zero_add, idx_v250_ix]
  rfl
theorem ref_v275_row (b : Fin 2048) : (fun d => (val_main_v275 (F := Ideal) x0 x1 x2 x3 x4 x5 x6 x7 x8 x9 x10) (ix2 b d)) = meanSeq (slab (val_main_v272 (F := Ideal) x0 x1 x2 x3 x4 x5 x6 x7 x8 x9 x10) b) := by
  funext d
  rw [val_main_v275_apply, Ideal.hostDivf_def, val_main_v273_apply, val_main_v274_apply, val_main_cst_31_apply,
    val_main_cst_30_apply]
  simp only [Ideal.ofBits_def, Ideal.ofBits_zero_f32, zero_add, idx_v273_ix]
  rfl

/-- The two means side by side, read at member `b` and column `k`: the first mean's row for `k < 256`, the second's at
    `k - 256` otherwise. -/
private theorem v276_at (b : Fin 2048) (k : Fin 512) :
    (val_main_v276 (F := Ideal) x0 x1 x2 x3 x4 x5 x6 x7 x8 x9 x10) (ix2 b k)
      = joinHalves (fun d => (val_main_v252 (F := Ideal) x0 x1 x2 x3 x4 x5 x6 x7 x8 x9 x10) (ix2 b d)) (fun d => (val_main_v275 (F := Ideal) x0 x1 x2 x3 x4 x5 x6 x7 x8 x9 x10) (ix2 b d)) k := by
  unfold val_main_v276 joinHalves
  by_cases h : k.val < 256
  · rw [dif_pos h]
    exact concatenate_pair_apply_left (1 : Fin S2048x512.rank) _ _ Gen.concatenates_S2048x256_S2048x256_S2048x512_d1 (ix2 b k) rfl
      (ix2 b ⟨k.val, h⟩) (fun a => match a with | ⟨0, _⟩ => rfl | ⟨1, _⟩ => rfl)
  · rw [dif_neg h]
    exact concatenate_pair_apply_right (1 : Fin S2048x512.rank) _ _ Gen.concatenates_S2048x256_S2048x256_S2048x512_d1 (ix2 b k) rfl rfl
      (ix2 b ⟨k.val - 256, by omega⟩)
      (fun a => match a with | ⟨0, _⟩ => fun _ => rfl | ⟨1, _⟩ => fun hne => absurd rfl hne)
      (by show k.val - 256 + 256 = k.val; omega)

/-- The hidden layer at member `b` and unit `n`. -/
private theorem v281_at (b : Fin 2048) (n : Fin 64) :
    (val_main_v281 (F := Ideal) x0 x1 x2 x3 x4 x5 x6 x7 x8 x9 x10 x11 x12) (ix2 b n)
      = hidden (fun k n => x11 (ix2 k n)) (fun n => x12 (ix1 n))
          (joinHalves (fun d => (val_main_v252 (F := Ideal) x0 x1 x2 x3 x4 x5 x6 x7 x8 x9 x10) (ix2 b d)) (fun d => (val_main_v275 (F := Ideal) x0 x1 x2 x3 x4 x5 x6 x7 x8 x9 x10) (ix2 b d))) n := by
  have el : ∀ k : Fin 512, lidx_main_v277 (ix2 b n) k = ix2 b k := fun k => by
    funext a; match a with | ⟨0, _⟩ => rfl | ⟨1, _⟩ => rfl
  have er : ∀ k : Fin 512, ridx_main_v277 (ix2 b n) k = ix2 k n := fun k => by
    funext a; match a with | ⟨0, _⟩ => rfl | ⟨1, _⟩ => rfl
  have eb : idx_main_v278 (idx_main_v279 (ix2 b n)) = ix1 n := by
    funext a; match a with | ⟨0, _⟩ => rfl
  rw [val_main_v281_apply, Ideal.hostUnary_tanh_def, val_main_v280_apply, Ideal.addf_def, val_main_v277_apply,
    val_main_v279_apply, val_main_v278_apply, eb]
  simp only [el, er, v276_at]
  rfl

/-- The logits: the two means joined, the first dense layer with `tanh`, the second dense layer. -/
theorem ref_v285_apply (b : Fin 2048) (c : Fin 2) :
    (val_main_v285 (F := Ideal) x0 x1 x2 x3 x4 x5 x6 x7 x8 x9 x10 x11 x12 x13 x14) (ix2 b c)
      = logits2 (fun n c => x13 (ix2 n c)) (fun c => x14 (ix1 c))
          (hidden (fun k n => x11 (ix2 k n)) (fun n => x12 (ix1 n))
            (joinHalves (fun d => (val_main_v252 (F := Ideal) x0 x1 x2 x3 x4 x5 x6 x7 x8 x9 x10) (ix2 b d)) (fun d => (val_main_v275 (F := Ideal) x0 x1 x2 x3 x4 x5 x6 x7 x8 x9 x10) (ix2 b d)))) c := by
  have el : ∀ n : Fin 64, lidx_main_v282 (ix2 b c) n = ix2 b n := fun n => by
    funext a; match a with | ⟨0, _⟩ => rfl | ⟨1, _⟩ => rfl
  have er : ∀ n : Fin 64, ridx_main_v282 (ix2 b c) n = ix2 n c := fun n => by
    funext a; match a with | ⟨0, _⟩ => rfl | ⟨1, _⟩ => rfl
  have eb : idx_main_v283 (idx_main_v284 (ix2 b c)) = ix1 c := by
    funext a; match a with | ⟨0, _⟩ => rfl
  rw [val_main_v285_apply, Ideal.addf_def, val_main_v282_apply, val_main_v284_apply, val_main_v283_apply, eb]
  simp only [el, er, v281_at]
  rfl

end Cert.ReferenceIdeal.Stages

end
-- ==== Proof.RLogits.lean ====
/-
  The reference's logits read at member `b` of the batch and logit `c`: the whole per-pair map (Spec.lean `rowLogits`)
  of member `b` of the two gathered embedding arrays. The stages of RConv / RAttn / RFinal composed in program order.
-/
import proofs.«401517_j58695023067400_1_alg».proof.Proof.RConv
import proofs.«401517_j58695023067400_1_alg».proof.Proof.RAttn
import proofs.«401517_j58695023067400_1_alg».proof.Proof.RFinal

noncomputable section

namespace Cert.ReferenceIdeal.Stages

open Idealize.ShloMosaic Idealize.ShloMosaic.ValueIdx Cert.ReferenceIdeal Cert.ReferenceIdeal.ReadP Abcnn

variable (x0 x1 : (⟨S2048x32, .i32⟩ : BufTy).Contents (Elt Ideal)) (x2 : (⟨S100000x256, .f32⟩ : BufTy).Contents (Elt Ideal)) (x3 : (⟨S3, .f32⟩ : BufTy).Contents (Elt Ideal)) (x4 : (⟨S_, .f32⟩ : BufTy).Contents (Elt Ideal))
  (x5 : (⟨S3, .f32⟩ : BufTy).Contents (Elt Ideal)) (x6 : (⟨S_, .f32⟩ : BufTy).Contents (Elt Ideal)) (x7 : (⟨S2x3, .f32⟩ : BufTy).Contents (Elt Ideal)) (x8 : (⟨S_, .f32⟩ : BufTy).Contents (Elt Ideal)) (x9 x10 : (⟨S32x256, .f32⟩ : BufTy).Contents (Elt Ideal))
  (x11 : (⟨S512x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal))

/-- The logits of member `b`. -/
theorem ref_logits (b : Fin 2048) (c : Fin 2) :
    (val_main_v285 (F := Ideal) x0 x1 x2 x3 x4 x5 x6 x7 x8 x9 x10 x11 x12 x13 x14) (ix2 b c)
      = rowLogits (x3 (ix1 0)) (x3 (ix1 1)) (x3 (ix1 2)) (x4 ix0) (x5 (ix1 0)) (x5 (ix1 1)) (x5 (ix1 2)) (x6 ix0)
          (x7 (ix2 0 0)) (x7 (ix2 0 1)) (x7 (ix2 0 2)) (x7 (ix2 1 0)) (x7 (ix2 1 1)) (x7 (ix2 1 2)) (x8 ix0)
          (fun j d => x9 (ix2 j d)) (fun j d => x10 (ix2 j d)) (fun k n => x11 (ix2 k n)) (fun n => x12 (ix1 n))
          (fun n c => x13 (ix2 n c)) (fun c => x14 (ix1 c)) (slab (val_main_v6 (F := Ideal) x0 x2) b) (slab (val_main_v13 (F := Ideal) x1 x2) b) c := by
  rw [ref_v285_apply, ref_v252_row, ref_v275_row, ref_v249_row, ref_v272_row, ref_v219_row, ref_v229_row,
    ref_v208_row, ref_v209_row, ref_v207_row, ref_v138_row, ref_v187_row, ref_v88_row, ref_v89_row, ref_v87_row,
    ref_v40_row, ref_v67_row]
  unfold rowLogits
  rfl

end Cert.ReferenceIdeal.Stages

end
-- ==== Proof.Bridge.lean ====
/-
  The two programs meet in three places, each an equality of functions that differ only in which program's copy of a
  shape or of a dimension record spells them: the rows gathered from the embedding table, the column-wise softmax, and the
  reference's last stage as that softmax of its logits. With them the reference's result is the kernel's result.
-/
import proofs.«401517_j58695023067400_1_alg».proof.Proof.KValue
import proofs.«401517_j58695023067400_1_alg».proof.Proof.RLogits

noncomputable section

namespace Cert.Bridge

open Idealize.ShloMosaic Idealize.ShloMosaic.ValueIdx Abcnn
open Cert.ReferenceIdeal.ReadP

variable (x0 x1 : (⟨Cert.ReferenceIdeal.S2048x32, .i32⟩ : BufTy).Contents (Elt Ideal)) (x2 : (⟨Cert.ReferenceIdeal.S100000x256, .f32⟩ : BufTy).Contents (Elt Ideal)) (x3 : (⟨Cert.ReferenceIdeal.S3, .f32⟩ : BufTy).Contents (Elt Ideal)) (x4 : (⟨Cert.ReferenceIdeal.S_, .f32⟩ : BufTy).Contents (Elt Ideal))
  (x5 : (⟨Cert.ReferenceIdeal.S3, .f32⟩ : BufTy).Contents (Elt Ideal)) (x6 : (⟨Cert.ReferenceIdeal.S_, .f32⟩ : BufTy).Contents (Elt Ideal)) (x7 : (⟨Cert.ReferenceIdeal.S2x3, .f32⟩ : BufTy).Contents (Elt Ideal)) (x8 : (⟨Cert.ReferenceIdeal.S_, .f32⟩ : BufTy).Contents (Elt Ideal)) (x9 x10 : (⟨Cert.ReferenceIdeal.S32x256, .f32⟩ : BufTy).Contents (Elt Ideal))
  (x11 : (⟨Cert.ReferenceIdeal.S512x64, .f32⟩ : BufTy).Contents (Elt Ideal)) (x12 : (⟨Cert.ReferenceIdeal.S64, .f32⟩ : BufTy).Contents (Elt Ideal)) (x13 : (⟨Cert.ReferenceIdeal.S64x2, .f32⟩ : BufTy).Contents (Elt Ideal)) (x14 : (⟨Cert.ReferenceIdeal.S2, .f32⟩ : BufTy).Contents (Elt Ideal))

/-- The kernel program's gathered rows are the reference's gather stage (both add 100000 to an index below zero, then
    gather). -/
theorem gathered_eq_v6 : Cert.KernelIdeal.KVal.gathered x2 x0 = val_main_v6 (F := Ideal) x0 x2 := by
  unfold Cert.KernelIdeal.KVal.gathered val_main_v6 val_main_v5 val_main_v4 val_main_v3 val_main_v2 val_main_v1 val_main_v0
    val_main_c val_main_c_0
  rfl
theorem gathered_eq_v13 : Cert.KernelIdeal.KVal.gathered x2 x1 = val_main_v13 (F := Ideal) x1 x2 := by
  unfold Cert.KernelIdeal.KVal.gathered val_main_v13 val_main_v12 val_main_v11 val_main_v10 val_main_v9 val_main_v8 val_main_v7
    val_main_c_1 val_main_c_2
  rfl

/-- The reference's result is the column-wise softmax (the kernel program's own spelling of it) of the reference's logits. -/
theorem v296_eq_tail : val_main_v296 (F := Ideal) x0 x1 x2 x3 x4 x5 x6 x7 x8 x9 x10 x11 x12 x13 x14 = Cert.KernelIdeal.KVal.tail (val_main_v285 (F := Ideal) x0 x1 x2 x3 x4 x5 x6 x7 x8 x9 x10 x11 x12 x13 x14) := by
  unfold Cert.KernelIdeal.KVal.tail val_main_v296 val_main_v295 val_main_v294 val_main_v293 val_main_v292 val_main_v291 val_main_v290
    val_main_v289 val_main_v288 val_main_v287 val_main_v286 val_main_cst_32 val_main_cst_33 val_main_cst_34
  rfl

end Cert.Bridge

end
-- ==== Proof.PreDecode.lean ====
/-
  What the precondition says about the two index arrays: it is the conjunction of the finiteness of every float input with,
  for each index array, "every entry is at least -100000 and below 100000" (signed comparisons, all of them reduced by a
  conjunction over the array). Read back entry by entry that is `IdxInRange`.
-/
import proofs.«401517_j58695023067400_1_alg».proof.Defs
import proofs.«401517_j58695023067400_1_alg».proof.Proof.Gen.KernelIdeal
import proofs.«401517_j58695023067400_1_alg».proof.Proof.Gen.Pre_finite_inputs
import proofs.«401517_j58695023067400_1_alg».proof.Proof.Spec
import Idealize.ShloMosaic.Lib.ValueIdx
import Idealize.ShloMosaic.Lib.ReduceAll
import Idealize.ShloMosaic.Lib.StableHlo.Predicate

noncomputable section

namespace Cert.KernelIdeal.KVal

open Idealize.ShloMosaic Idealize.ShloMosaic.ValueIdx Idealize.ShloMosaic.TcCoe Idealize.SL.Sem Cert.KernelIdeal Abcnn

/-- The rank-0 shape has one index. -/
private instance : Subsingleton Cert.Pre_finite_inputs.S_.Idx := ⟨fun a b => funext fun d => d.elim0⟩

/-- One entry: the two signed comparisons against the words of -100000 and 100000, both passed, are the two inequalities. -/
private theorem range_of_bits (s : BitVec 32)
    (e : IntOp.andi (IntOp.cmpi .sge s 4294867296#32) (IntOp.cmpi .slt s 100000#32) = 1#1) :
    (-100000 : ℤ) ≤ s.toInt ∧ s.toInt < 100000 := by
  obtain ⟨e1, e2⟩ := IntOp.andi_eq_one.1 e
  unfold IntOp.cmpi at e1 e2
  have hK : (4294867296#32 : BitVec 32).toInt = -100000 := by decide
  have hc : (100000#32 : BitVec 32).toInt = 100000 := by decide
  have a1 := (StableHlo.Predicate.ofBool_eq_one_iff _).1 e1
  have a2 := (StableHlo.Predicate.ofBool_eq_one_iff _).1 e2
  simp only [BitVec.sle, BitVec.slt, hK, hc, decide_eq_true_eq] at a1 a2
  exact ⟨a1, a2⟩

/-- The whole array: the conjunction of that test over every entry being one says every entry is in range. -/
private theorem range_of_all (s : IVec Cert.Pre_finite_inputs.S2048x32 32)
    (e : Host.reduce IntOp.andi
          (andi
            (cmpi .sge s (broadcastInDim Cert.Pre_finite_inputs.S2048x32 ![] Cert.Pre_finite_inputs.Facts.bcast_S_S2048x32
              (constantI Cert.Pre_finite_inputs.S_ 32 4294867296#32)))
            (cmpi .slt s (broadcastInDim Cert.Pre_finite_inputs.S2048x32 ![] Cert.Pre_finite_inputs.Facts.bcast_S_S2048x32
              (constantI Cert.Pre_finite_inputs.S_ 32 100000#32))))
          (constantI Cert.Pre_finite_inputs.S_ 1 1#1) Cert.Pre_finite_inputs.Facts.reducesTo_S2048x32_S_d0_1
          Cert.Pre_finite_inputs.Facts.h_S_ ix0 = 1#1) :
    IdxInRange s := by
  intro i
  have ei := Host.reduce_andi_all _ _ _ _ _ e i
  exact range_of_bits (s i) ei

/-- Under the precondition every entry of both index arrays is in range, on every device. -/
theorem range_of_pre (m : (ℓ : Loc nD τ sig) → Buf (Elt Ideal) ℓ) (h : Cert.Pre_KernelIdeal m) (c : Dev nD) :
    IdxInRange (m ((c.tc : Thread nD τ).loc main_arg0)) ∧ IdxInRange (m ((c.tc : Thread nD τ).loc main_arg1)) := by
  have h1 := congrFun (h c) ix0
  dsimp only [Cert.Pre_finite_inputs.fn, Cert.Pre_finite_inputs.fn_part2, Cert.Pre_finite_inputs.fn_part3,
    Cert.Pre_finite_inputs.fn_part4] at h1
  obtain ⟨h12, h73⟩ := IntOp.andi_eq_one.1 h1
  obtain ⟨_, h66⟩ := IntOp.andi_eq_one.1 h12
  exact ⟨range_of_all _ h66, range_of_all _ h73⟩

end Cert.KernelIdeal.KVal

end
-- ==== Proof.LibAfterAppend.lean ====
/-
  A general fact about a straight line of host operations: the buffer contents after two lines run one after the other
  are the contents after the second line, started from the contents after the first.
-/
import Idealize.ShloMosaic.Lib.StableHlo.Run

namespace Idealize.ShloMosaic.StableHlo

variable {τ : Topo} {sig : RefSig} {Val : EltTy → Type}

/-- The fold of the operations' results over a concatenation is the fold over the second list of the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RFoldA.lean ====
/-
  The reference program's first six stretches of operations, read as values: after them the two feature sequences that
  the rest of the program reads hold their stages of the read module, and the arguments are untouched.
-/
import proofs.«401517_j58695023067400_1_alg».proof.Proof.RefRun
import proofs.«401517_j58695023067400_1_alg».proof.Proof.RefRead
import proofs.«401517_j58695023067400_1_alg».proof.Proof.LibAfterAppend

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-! ## One stretch at a time, from any contents

Each stretch of operations is a straight line: the contents after it are the fold of the operations' results over the
contents before it. Read at the buffer a later stretch needs, the fold is the composition of the stretch's functions
applied to the contents of the buffers the stretch reads; when those hold the stages of the read module, the
composition is, definition by definition, the stage of the buffer written. A buffer the stretch does not write is
left as it was. All of this holds for every float type and every contents `W` before the stretch. -/

section Stretches

variable {F : FTy → Type} [FloatOps F] (W : Valuation τ sig (Elt F))

/-- The buffers written by the first stretch: the two clamped index arrays and the two gathers. -/
private abbrev wr1 : List (Ref sig .tc) :=
  [main_c, main_v0, main_v1, main_c_0, main_v2, main_v3, main_v4, main_v5, main_v6, main_c_1, main_v7, main_v8, main_c_2,
   main_v9, main_v10, main_v11, main_v12, main_v13]

private theorem c1_writes : (ops_c1 : List (HloOp τ sig (Elt F))).Forall fun op =>
    op.writes ⊆ ((wr1).map (Proc.devRef (τ := τ) .tc)).toFinset := by
  simp only [wr1, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c1_keep {r : Ref sig .tc} (hr : r ∉ wr1) :
    after ops_c1 W (Proc.devRef .tc r) = W (Proc.devRef .tc r) :=
  after_of_writes_sub ops_c1 W c1_writes hr

/-- After the first stretch the first gather's buffer holds the table's rows at the first sentence's wrapped indices. -/
private theorem c1_v6 :
    after ops_c1 W (Proc.devRef .tc main_v6) = val_main_v6 (W (Proc.devRef .tc main_arg0)) (W (Proc.devRef .tc main_arg2)) := by
  after_results_simp
  rfl

/-- And the second gather's buffer holds the table's rows at the second sentence's wrapped indices. -/
private theorem c1_v13 :
    after ops_c1 W (Proc.devRef .tc main_v13) = val_main_v13 (W (Proc.devRef .tc main_arg1)) (W (Proc.devRef .tc main_arg2)) := by
  after_results_simp
  rfl

/-- The buffers written by the second stretch: the first sentence's padded three-tap convolution and its window mean. -/
private abbrev wr2 : List (Ref sig .tc) :=
  [main_c_3, main_call0_v0, main_v14, main_v15, main_v16, main_v17, main_v18, main_v19, main_v20, main_v21, main_v22,
   main_v23, main_v24, main_v25, main_v26, main_v27, main_v28, main_v29, main_v30, main_v31, main_v32, main_v33,
   main_v34, main_v35, main_v36, main_v37, main_v38, main_cst, main_v39, main_v40]

private theorem c2_writes : (ops_c2 : List (HloOp τ sig (Elt F))).Forall fun op =>
    op.writes ⊆ ((wr2).map (Proc.devRef (τ := τ) .tc)).toFinset := by
  simp only [wr2, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c2_keep {r : Ref sig .tc} (hr : r ∉ wr2) :
    after ops_c2 W (Proc.devRef .tc r) = W (Proc.devRef .tc r) :=
  after_of_writes_sub ops_c2 W c2_writes hr

/-- From contents whose first gather buffer holds its stage, the second stretch leaves the first sentence's
    representation at its stage: the same pad, three slices, weighted sum, bias, three-row window and division,
    applied to the same gather. -/
private theorem c2_v40 (x0 : (⟨S2048x32, .i32⟩ : BufTy).Contents (Elt F))
    (x2 : (⟨S100000x256, .f32⟩ : BufTy).Contents (Elt F))
    (h6 : W (Proc.devRef .tc main_v6) = val_main_v6 x0 x2) :
    after ops_c2 W (Proc.devRef .tc main_v40) = val_main_v40 x0 x2 (W (Proc.devRef .tc main_arg3)) (W (Proc.devRef .tc main_arg4)) := by
  after_results_simp
  rw [h6]
  unfold val_main_v40 val_main_v39 val_main_cst val_main_v38 val_main_v37 val_main_v36 val_main_v35 val_main_v34 val_main_v33
    val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_call0_v0 val_main_c_3
  rfl

/-- The buffers written by the third stretch: the second sentence's padded three-tap convolution and its window mean. -/
private abbrev wr3 : List (Ref sig .tc) :=
  [main_c_4, main_call1_v0, main_v41, main_v42, main_v43, main_v44, main_v45, main_v46, main_v47, main_v48, main_v49,
   main_v50, main_v51, main_v52, main_v53, main_v54, main_v55, main_v56, main_v57, main_v58, main_v59, main_v60,
   main_v61, main_v62, main_v63, main_v64, main_v65, main_cst_5, main_v66, main_v67]

private theorem c3_writes : (ops_c3 : List (HloOp τ sig (Elt F))).Forall fun op =>
    op.writes ⊆ ((wr3).map (Proc.devRef (τ := τ) .tc)).toFinset := by
  simp only [wr3, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c3_keep {r : Ref sig .tc} (hr : r ∉ wr3) :
    after ops_c3 W (Proc.devRef .tc r) = W (Proc.devRef .tc r) :=
  after_of_writes_sub ops_c3 W c3_writes hr

/-- The same for the second sentence, from its gather. -/
private theorem c3_v67 (x1 : (⟨S2048x32, .i32⟩ : BufTy).Contents (Elt F))
    (x2 : (⟨S100000x256, .f32⟩ : BufTy).Contents (Elt F))
    (h13 : W (Proc.devRef .tc main_v13) = val_main_v13 x1 x2) :
    after ops_c3 W (Proc.devRef .tc main_v67) = val_main_v67 x1 x2 (W (Proc.devRef .tc main_arg3)) (W (Proc.devRef .tc main_arg4)) := by
  after_results_simp
  rw [h13]
  unfold val_main_v67 val_main_v66 val_main_cst_5 val_main_v65 val_main_v64 val_main_v63 val_main_v62 val_main_v61 val_main_v60
    val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42
    val_main_v41 val_main_call1_v0 val_main_c_4
  rfl

/-- The buffers written by the fourth stretch: the squared norms, the pairwise distances, the attention matrix and its two products. -/
private abbrev wr4 : List (Ref sig .tc) :=
  [main_v68, main_cst_6, main_v69, main_v70, main_cst_7, main_v71, main_v72, main_v73, main_v74, main_v75, main_v76,
   main_v77, main_cst_8, main_v78, main_v79, main_v80, main_cst_9, main_v81, main_v82, main_v83, main_cst_10, main_v84,
   main_v85, main_cst_11, main_v86, main_v87, main_v88, main_v89]

private theorem c4_writes : (ops_c4 : List (HloOp τ sig (Elt F))).Forall fun op =>
    op.writes ⊆ ((wr4).map (Proc.devRef (τ := τ) .tc)).toFinset := by
  simp only [wr4, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c4_keep {r : Ref sig .tc} (hr : r ∉ wr4) :
    after ops_c4 W (Proc.devRef .tc r) = W (Proc.devRef .tc r) :=
  after_of_writes_sub ops_c4 W c4_writes hr

/-- From contents whose two representation buffers hold their stages, the fourth stretch leaves the attention matrix
    times the first weight matrix at its stage. Both representations stay named: only this stretch's own stages are
    opened before the two sides are compared. -/
private theorem c4_v88 (x0 : (⟨S2048x32, .i32⟩ : BufTy).Contents (Elt F))
    (x1 : (⟨S2048x32, .i32⟩ : BufTy).Contents (Elt F)) (x2 : (⟨S100000x256, .f32⟩ : BufTy).Contents (Elt F))
    (x3 : (⟨S3, .f32⟩ : BufTy).Contents (Elt F))
    (x4 : (⟨S_, .f32⟩ : BufTy).Contents (Elt F))
    (h40 : W (Proc.devRef .tc main_v40) = val_main_v40 x0 x2 x3 x4)
    (h67 : W (Proc.devRef .tc main_v67) = val_main_v67 x1 x2 x3 x4) :
    after ops_c4 W (Proc.devRef .tc main_v88) = val_main_v88 x0 x1 x2 x3 x4 (W (Proc.devRef .tc main_arg9)) := by
  after_results_simp
  rw [h40, h67]
  unfold val_main_v88 val_main_v87 val_main_v86 val_main_cst_11 val_main_v85 val_main_v84 val_main_cst_10 val_main_v83
    val_main_v82 val_main_v81 val_main_cst_9 val_main_v80 val_main_v79 val_main_v78 val_main_cst_8 val_main_v77
    val_main_v76 val_main_v75 val_main_v74 val_main_v73 val_main_v72 val_main_v71 val_main_cst_7 val_main_v70 val_main_v69
    val_main_cst_6 val_main_v68
  generalize val_main_v40 x0 x2 x3 x4 = y40
  generalize val_main_v67 x1 x2 x3 x4 = y67
  rfl

/-- And the attention matrix times the second weight matrix. -/
private theorem c4_v89 (x0 : (⟨S2048x32, .i32⟩ : BufTy).Contents (Elt F))
    (x1 : (⟨S2048x32, .i32⟩ : BufTy).Contents (Elt F)) (x2 : (⟨S100000x256, .f32⟩ : BufTy).Contents (Elt F))
    (x3 : (⟨S3, .f32⟩ : BufTy).Contents (Elt F))
    (x4 : (⟨S_, .f32⟩ : BufTy).Contents (Elt F))
    (h40 : W (Proc.devRef .tc main_v40) = val_main_v40 x0 x2 x3 x4)
    (h67 : W (Proc.devRef .tc main_v67) = val_main_v67 x1 x2 x3 x4) :
    after ops_c4 W (Proc.devRef .tc main_v89) = val_main_v89 x0 x1 x2 x3 x4 (W (Proc.devRef .tc main_arg10)) := by
  after_results_simp
  rw [h40, h67]
  unfold val_main_v89 val_main_v87 val_main_v86 val_main_cst_11 val_main_v85 val_main_v84 val_main_cst_10 val_main_v83
    val_main_v82 val_main_v81 val_main_cst_9 val_main_v80 val_main_v79 val_main_v78 val_main_cst_8 val_main_v77
    val_main_v76 val_main_v75 val_main_v74 val_main_v73 val_main_v72 val_main_v71 val_main_cst_7 val_main_v70 val_main_v69
    val_main_cst_6 val_main_v68
  generalize val_main_v40 x0 x2 x3 x4 = y40
  generalize val_main_v67 x1 x2 x3 x4 = y67
  rfl

/-- The buffers written by the fifth stretch: the first sentence's two-channel stack, its pad and the six-tap convolution. -/
private abbrev wr5 : List (Ref sig .tc) :=
  [main_v90, main_v91, main_v92, main_c_12, main_call2_v0, main_v93, main_cst_13, main_v94, main_v95, main_v96, main_v97,
   main_v98, main_v99, main_v100, main_v101, main_v102, main_v103, main_v104, main_v105, main_v106, main_v107, main_v108,
   main_v109, main_v110, main_v111, main_v112, main_v113, main_v114, main_v115, main_v116, main_v117, main_v118,
   main_v119, main_v120, main_v121, main_v122, main_v123, main_v124, main_v125, main_v126, main_v127, main_v128,
   main_v129, main_v130, main_v131, main_v132, main_v133, main_v134, main_v135, main_v136, main_v137, main_v138]

private theorem c5_writes : (ops_c5 : List (HloOp τ sig (Elt F))).Forall fun op =>
    op.writes ⊆ ((wr5).map (Proc.devRef (τ := τ) .tc)).toFinset := by
  simp only [wr5, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c5_keep {r : Ref sig .tc} (hr : r ∉ wr5) :
    after ops_c5 W (Proc.devRef .tc r) = W (Proc.devRef .tc r) :=
  after_of_writes_sub ops_c5 W c5_writes hr

/-- From contents whose first representation and first attention product hold their stages, the fifth stretch leaves
    the first feature sequence at its stage. -/
private theorem c5_v138 (x0 : (⟨S2048x32, .i32⟩ : BufTy).Contents (Elt F))
    (x1 : (⟨S2048x32, .i32⟩ : BufTy).Contents (Elt F)) (x2 : (⟨S100000x256, .f32⟩ : BufTy).Contents (Elt F))
    (x3 : (⟨S3, .f32⟩ : BufTy).Contents (Elt F))
    (x4 : (⟨S_, .f32⟩ : BufTy).Contents (Elt F)) (x9 : (⟨S32x256, .f32⟩ : BufTy).Contents (Elt F))
    (h40 : W (Proc.devRef .tc main_v40) = val_main_v40 x0 x2 x3 x4)
    (h88 : W (Proc.devRef .tc main_v88) = val_main_v88 x0 x1 x2 x3 x4 x9) :
    after ops_c5 W (Proc.devRef .tc main_v138) = val_main_v138 x0 x1 x2 x3 x4 (W (Proc.devRef .tc main_arg7)) (W (Proc.devRef .tc main_arg8)) x9 := by
  after_results_simp
  repeat (first | rw [unary_result] | (rw [unary_result_ne]; rotate_left; decide))
  rw [h40, h88]
  unfold val_main_v138 val_main_v137 val_main_v136 val_main_v135 val_main_v134 val_main_v133 val_main_v132 val_main_v131
    val_main_v130 val_main_v129 val_main_v128 val_main_v127 val_main_v126 val_main_v125 val_main_v124 val_main_v123
    val_main_v122 val_main_v121 val_main_v120 val_main_v119 val_main_v118 val_main_v117 val_main_v116 val_main_v115
    val_main_v114 val_main_v113 val_main_v112 val_main_v111 val_main_v110 val_main_v109 val_main_v108 val_main_v107
    val_main_v106 val_main_v105 val_main_v104 val_main_v103 val_main_v102 val_main_v101 val_main_v100 val_main_v99
    val_main_v98 val_main_v97 val_main_v96 val_main_v95 val_main_v94 val_main_cst_13 val_main_v93 val_main_call2_v0
    val_main_c_12 val_main_v92 val_main_v91 val_main_v90
  generalize val_main_v40 x0 x2 x3 x4 = y40
  generalize val_main_v88 x0 x1 x2 x3 x4 x9 = y88
  rfl

/-- The buffers written by the sixth stretch: the second sentence's two-channel stack, its pad and the six-tap convolution. -/
private abbrev wr6 : List (Ref sig .tc) :=
  [main_v139, main_v140, main_v141, main_c_14, main_call3_v0, main_v142, main_cst_15, main_v143, main_v144, main_v145,
   main_v146, main_v147, main_v148, main_v149, main_v150, main_v151, main_v152, main_v153, main_v154, main_v155,
   main_v156, main_v157, main_v158, main_v159, main_v160, main_v161, main_v162, main_v163, main_v164, main_v165,
   main_v166, main_v167, main_v168, main_v169, main_v170, main_v171, main_v172, main_v173, main_v174, main_v175,
   main_v176, main_v177, main_v178, main_v179, main_v180, main_v181, main_v182, main_v183, main_v184, main_v185,
   main_v186, main_v187]

private theorem c6_writes : (ops_c6 : List (HloOp τ sig (Elt F))).Forall fun op =>
    op.writes ⊆ ((wr6).map (Proc.devRef (τ := τ) .tc)).toFinset := by
  simp only [wr6, List.Forall, nullary_writes, unary_writes, binary_writes, ternary_writes, reshape_writes,
    Finset.singleton_subset_iff, List.mem_toFinset, List.map_cons, List.map_nil, List.mem_cons, true_or, or_true, and_self]

/-- A buffer outside that list holds after the stretch what it held before. -/
private theorem c6_keep {r : Ref sig .tc} (hr : r ∉ wr6) :
    after ops_c6 W (Proc.devRef .tc r) = W (Proc.devRef .tc r) :=
  after_of_writes_sub ops_c6 W c6_writes hr

/-- The same for the second sentence: the second feature sequence. -/
private theorem c6_v187 (x0 : (⟨S2048x32, .i32⟩ : BufTy).Contents (Elt F))
    (x1 : (⟨S2048x32, .i32⟩ : BufTy).Contents (Elt F)) (x2 : (⟨S100000x256, .f32⟩ : BufTy).Contents (Elt F))
    (x3 : (⟨S3, .f32⟩ : BufTy).Contents (Elt F))
    (x4 : (⟨S_, .f32⟩ : BufTy).Contents (Elt F)) (x10 : (⟨S32x256, .f32⟩ : BufTy).Contents (Elt F))
    (h67 : W (Proc.devRef .tc main_v67) = val_main_v67 x1 x2 x3 x4)
    (h89 : W (Proc.devRef .tc main_v89) = val_main_v89 x0 x1 x2 x3 x4 x10) :
    after ops_c6 W (Proc.devRef .tc main_v187) = val_main_v187 x0 x1 x2 x3 x4 (W (Proc.devRef .tc main_arg7)) (W (Proc.devRef .tc main_arg8)) x10 := by
  after_results_simp
  repeat (first | rw [unary_result] | (rw [unary_result_ne]; rotate_left; decide))
  rw [h67, h89]
  unfold val_main_v187 val_main_v186 val_main_v185 val_main_v184 val_main_v183 val_main_v182 val_main_v181 val_main_v180
    val_main_v179 val_main_v178 val_main_v177 val_main_v176 val_main_v175 val_main_v174 val_main_v173 val_main_v172
    val_main_v171 val_main_v170 val_main_v169 val_main_v168 val_main_v167 val_main_v166 val_main_v165 val_main_v164
    val_main_v163 val_main_v162 val_main_v161 val_main_v160 val_main_v159 val_main_v158 val_main_v157 val_main_v156
    val_main_v155 val_main_v154 val_main_v153 val_main_v152 val_main_v151 val_main_v150 val_main_v149 val_main_v148
    val_main_v147 val_main_v146 val_main_v145 val_main_v144 val_main_v143 val_main_cst_15 val_main_v142 val_main_call3_v0
    val_main_c_14 val_main_v141 val_main_v140 val_main_v139
  generalize val_main_v67 x1 x2 x3 x4 = y67
  generalize val_main_v89 x0 x1 x2 x3 x4 x10 = y89
  rfl

end Stretches

variable (m : (ℓ : Loc nD τ sig) → Buf (Elt Ideal) ℓ)

/-- The buffer contents after the first six stretches (the gathers, the two representations, the first attention and its
    two products, the two two-input convolutions), from the launch contents. -/
def W6 (c : Dev nD) : Valuation τ sig (Elt Ideal) :=
  after (ops_c6 (F := Ideal)) (after (ops_c5 (F := Ideal)) (after (ops_c4 (F := Ideal)) (after (ops_c3 (F := Ideal))
    (after (ops_c2 (F := Ideal)) (after (ops_c1 (F := Ideal)) (launchContents m c))))))

/-! ## The six stretches one after the other, from the launch contents

The contents after each stretch are named; at each level the buffers a later stretch reads hold their stages — by the
stretch's own lemma, fed with the facts of the level before — and a buffer that no stretch so far writes, an argument
above all, still holds its launch contents. -/

private def W1 (c : Dev nD) : Valuation τ sig (Elt Ideal) := after (ops_c1 (F := Ideal)) (launchContents m c)
private def W2 (c : Dev nD) : Valuation τ sig (Elt Ideal) := after (ops_c2 (F := Ideal)) (W1 m c)
private def W3 (c : Dev nD) : Valuation τ sig (Elt Ideal) := after (ops_c3 (F := Ideal)) (W2 m c)
private def W4 (c : Dev nD) : Valuation τ sig (Elt Ideal) := after (ops_c4 (F := Ideal)) (W3 m c)
private def W5 (c : Dev nD) : Valuation τ sig (Elt Ideal) := after (ops_c5 (F := Ideal)) (W4 m c)

private theorem W6_eq (c : Dev nD) : W6 m c = after (ops_c6 (F := Ideal)) (W5 m c) := rfl

/-- A buffer written by none of the first stretches holds its launch contents after them. -/
private theorem W1_keep (c : Dev nD) {r : Ref sig .tc} (h1 : r ∉ wr1) :
    W1 m c (Proc.devRef .tc r) = m ((c.tc : Thread nD τ).loc r) :=
  c1_keep (launchContents m c) h1
private theorem W2_keep (c : Dev nD) {r : Ref sig .tc} (h1 : r ∉ wr1) (h2 : r ∉ wr2) :
    W2 m c (Proc.devRef .tc r) = m ((c.tc : Thread nD τ).loc r) :=
  (c2_keep (W1 m c) h2).trans (W1_keep m c h1)
private theorem W3_keep (c : Dev nD) {r : Ref sig .tc} (h1 : r ∉ wr1) (h2 : r ∉ wr2) (h3 : r ∉ wr3) :
    W3 m c (Proc.devRef .tc r) = m ((c.tc : Thread nD τ).loc r) :=
  (c3_keep (W2 m c) h3).trans (W2_keep m c h1 h2)
private theorem W4_keep (c : Dev nD) {r : Ref sig .tc} (h1 : r ∉ wr1) (h2 : r ∉ wr2) (h3 : r ∉ wr3) (h4 : r ∉ wr4) :
    W4 m c (Proc.devRef .tc r) = m ((c.tc : Thread nD τ).loc r) :=
  (c4_keep (W3 m c) h4).trans (W3_keep m c h1 h2 h3)
private theorem W5_keep (c : Dev nD) {r : Ref sig .tc} (h1 : r ∉ wr1) (h2 : r ∉ wr2) (h3 : r ∉ wr3) (h4 : r ∉ wr4)
    (h5 : r ∉ wr5) : W5 m c (Proc.devRef .tc r) = m ((c.tc : Thread nD τ).loc r) :=
  (c5_keep (W4 m c) h5).trans (W4_keep m c h1 h2 h3 h4)
private theorem W6_keep (c : Dev nD) {r : Ref sig .tc} (h1 : r ∉ wr1) (h2 : r ∉ wr2) (h3 : r ∉ wr3) (h4 : r ∉ wr4)
    (h5 : r ∉ wr5) (h6 : r ∉ wr6) : W6 m c (Proc.devRef .tc r) = m ((c.tc : Thread nD τ).loc r) :=
  (c6_keep (W5 m c) h6).trans (W5_keep m c h1 h2 h3 h4 h5)

/-- After the first stretch: the two gathers. -/
private theorem W1_v6 (c : Dev nD) :
    W1 m c (Proc.devRef .tc main_v6) = val_main_v6 (F := Ideal) (m ((c.tc : Thread nD τ).loc main_arg0)) (m ((c.tc : Thread nD τ).loc main_arg2)) :=
  c1_v6 (launchContents m c)
private theorem W1_v13 (c : Dev nD) :
    W1 m c (Proc.devRef .tc main_v13) = val_main_v13 (F := Ideal) (m ((c.tc : Thread nD τ).loc main_arg1)) (m ((c.tc : Thread nD τ).loc main_arg2)) :=
  c1_v13 (launchContents m c)

/-- After the second: the first sentence's representation, and the second gather still in place. -/
private theorem W2_v40 (c : Dev nD) :
    W2 m c (Proc.devRef .tc main_v40) = val_main_v40 (F := Ideal) (m ((c.tc : Thread nD τ).loc main_arg0)) (m ((c.tc : Thread nD τ).loc main_arg2)) (m ((c.tc : Thread nD τ).loc main_arg3)) (m ((c.tc : Thread nD τ).loc main_arg4)) := by
  have h := c2_v40 (W1 m c) _ _ (W1_v6 m c)
  rw [W1_keep m c (r := main_arg3) (by decide), W1_keep m c (r := main_arg4) (by decide)] at h
  exact h
private theorem W2_v13 (c : Dev nD) :
    W2 m c (Proc.devRef .tc main_v13) = val_main_v13 (F := Ideal) (m ((c.tc : Thread nD τ).loc main_arg1)) (m ((c.tc : Thread nD τ).loc main_arg2)) :=
  (c2_keep (W1 m c) (by decide)).trans (W1_v13 m c)

/-- After the third: both representations. -/
private theorem W3_v67 (c : Dev nD) :
    W3 m c (Proc.devRef .tc main_v67) = val_main_v67 (F := Ideal) (m ((c.tc : Thread nD τ).loc main_arg1)) (m ((c.tc : Thread nD τ).loc main_arg2)) (m ((c.tc : Thread nD τ).loc main_arg3)) (m ((c.tc : Thread nD τ).loc main_arg4)) := by
  have h := c3_v67 (W2 m c) _ _ (W2_v13 m c)
  rw [W2_keep m c (r := main_arg3) (by decide) (by decide), W2_keep m c (r := main_arg4) (by decide) (by decide)] at h
  exact h
private theorem W3_v40 (c : Dev nD) :
    W3 m c (Proc.devRef .tc main_v40) = val_main_v40 (F := Ideal) (m ((c.tc : Thread nD τ).loc main_arg0)) (m ((c.tc : Thread nD τ).loc main_arg2)) (m ((c.tc : Thread nD τ).loc main_arg3)) (m ((c.tc : Thread nD τ).loc main_arg4)) :=
  (c3_keep (W2 m c) (by decide)).trans (W2_v40 m c)

/-- After the fourth: the attention matrix's two products, and both representations still in place. -/
private theorem W4_v88 (c : Dev nD) :
    W4 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  have h := c4_v88 (W3 m c) _ _ _ _ _ (W3_v40 m c) (W3_v67 m c)
  rw [W3_keep m c (r := main_arg9) (by decide) (by decide) (by decide)] at h
  exact h
private theorem W4_v89 (c : Dev nD) :
    W4 m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg10)) := by
  have h := c4_v89 (W3 m c) _ _ _ _ _ (W3_v40 m c) (W3_v67 m c)
  rw [W3_keep m c (r := main_arg10) (by decide) (by decide) (by decide)] at h
  exact h
private theorem W4_v40 (c : Dev nD) :
    W4 m c (Proc.devRef .tc main_v40) = val_main_v40 (F := Ideal) (m ((c.tc : Thread nD τ).loc main_arg0)) (m ((c.tc : Thread nD τ).loc main_arg2)) (m ((c.tc : Thread nD τ).loc main_arg3)) (m ((c.tc : Thread nD τ).loc main_arg4)) :=
  (c4_keep (W3 m c) (by decide)).trans (W3_v40 m c)
private theorem W4_v67 (c : Dev nD) :
    W4 m c (Proc.devRef .tc main_v67) = val_main_v67 (F := Ideal) (m ((c.tc : Thread nD τ).loc main_arg1)) (m ((c.tc : Thread nD τ).loc main_arg2)) (m ((c.tc : Thread nD τ).loc main_arg3)) (m ((c.tc : Thread nD τ).loc main_arg4)) :=
  (c4_keep (W3 m c) (by decide)).trans (W3_v67 m c)

/-- After the fifth: the first feature sequence; the second representation and the second product still in place. -/
private theorem W5_v138 (c : Dev nD) :
    W5 m c (Proc.devRef .tc main_v138) = val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) := by
  have h := c5_v138 (W4 m c) _ _ _ _ _ _ (W4_v40 m c) (W4_v88 m c)
  rw [W4_keep m c (r := main_arg7) (by decide) (by decide) (by decide) (by decide), W4_keep m c (r := main_arg8) (by decide) (by decide) (by decide) (by decide)] at h
  exact h
private theorem W5_v67 (c : Dev nD) :
    W5 m c (Proc.devRef .tc main_v67) = val_main_v67 (F := Ideal) (m ((c.tc : Thread nD τ).loc main_arg1)) (m ((c.tc : Thread nD τ).loc main_arg2)) (m ((c.tc : Thread nD τ).loc main_arg3)) (m ((c.tc : Thread nD τ).loc main_arg4)) :=
  (c5_keep (W4 m c) (by decide)).trans (W4_v67 m c)
private theorem W5_v89 (c : Dev nD) :
    W5 m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg10)) :=
  (c5_keep (W4 m c) (by decide)).trans (W4_v89 m c)

/-- The two feature sequences hold their stages. -/
theorem W6_v138 (c : Dev nD) :
    W6 m c (Proc.devRef .tc main_v138) = val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) := by
  rw [W6_eq]
  exact (c6_keep (W5 m c) (by decide)).trans (W5_v138 m c)
theorem W6_v187 (c : Dev nD) :
    W6 m c (Proc.devRef .tc main_v187) = val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg10)) := by
  rw [W6_eq]
  have h := c6_v187 (W5 m c) _ _ _ _ _ _ (W5_v67 m c) (W5_v89 m c)
  rw [W5_keep m c (r := main_arg7) (by decide) (by decide) (by decide) (by decide) (by decide),
    W5_keep m c (r := main_arg8) (by decide) (by decide) (by decide) (by decide) (by decide)] at h
  exact h

/-- No argument has been written. -/
theorem W6_arg0 (c : Dev nD) : W6 m c (Proc.devRef .tc main_arg0) = m ((c.tc : Thread nD τ).loc main_arg0) := by
  exact W6_keep m c (by decide) (by decide) (by decide) (by decide) (by decide) (by decide)
theorem W6_arg1 (c : Dev nD) : W6 m c (Proc.devRef .tc main_arg1) = m ((c.tc : Thread nD τ).loc main_arg1) := by
  exact W6_keep m c (by decide) (by decide) (by decide) (by decide) (by decide) (by decide)
theorem W6_arg2 (c : Dev nD) : W6 m c (Proc.devRef .tc main_arg2) = m ((c.tc : Thread nD τ).loc main_arg2) := by
  exact W6_keep m c (by decide) (by decide) (by decide) (by decide) (by decide) (by decide)
theorem W6_arg3 (c : Dev nD) : W6 m c (Proc.devRef .tc main_arg3) = m ((c.tc : Thread nD τ).loc main_arg3) := by
  exact W6_keep m c (by decide) (by decide) (by decide) (by decide) (by decide) (by decide)
theorem W6_arg4 (c : Dev nD) : W6 m c (Proc.devRef .tc main_arg4) = m ((c.tc : Thread nD τ).loc main_arg4) := by
  exact W6_keep m c (by decide) (by decide) (by decide) (by decide) (by decide) (by decide)
theorem W6_arg5 (c : Dev nD) : W6 m c (Proc.devRef .tc main_arg5) = m ((c.tc : Thread nD τ).loc main_arg5) := by
  exact W6_keep m c (by decide) (by decide) (by decide) (by decide) (by decide) (by decide)
theorem W6_arg6 (c : Dev nD) : W6 m c (Proc.devRef .tc main_arg6) = m ((c.tc : Thread nD τ).loc main_arg6) := by
  exact W6_keep m c (by decide) (by decide) (by decide) (by decide) (by decide) (by decide)
theorem W6_arg7 (c : Dev nD) : W6 m c (Proc.devRef .tc main_arg7) = m ((c.tc : Thread nD τ).loc main_arg7) := by
  exact W6_keep m c (by decide) (by decide) (by decide) (by decide) (by decide) (by decide)
theorem W6_arg8 (c : Dev nD) : W6 m c (Proc.devRef .tc main_arg8) = m ((c.tc : Thread nD τ).loc main_arg8) := by
  exact W6_keep m c (by decide) (by decide) (by decide) (by decide) (by decide) (by decide)
theorem W6_arg9 (c : Dev nD) : W6 m c (Proc.devRef .tc main_arg9) = m ((c.tc : Thread nD τ).loc main_arg9) := by
  exact W6_keep m c (by decide) (by decide) (by decide) (by decide) (by decide) (by decide)
theorem W6_arg10 (c : Dev nD) : W6 m c (Proc.devRef .tc main_arg10) = m ((c.tc : Thread nD τ).loc main_arg10) := by
  exact W6_keep m c (by decide) (by decide) (by decide) (by decide) (by decide) (by decide)
theorem W6_arg11 (c : Dev nD) : W6 m c (Proc.devRef .tc main_arg11) = m ((c.tc : Thread nD τ).loc main_arg11) := by
  exact W6_keep m c (by decide) (by decide) (by decide) (by decide) (by decide) (by decide)
theorem W6_arg12 (c : Dev nD) : W6 m c (Proc.devRef .tc main_arg12) = m ((c.tc : Thread nD τ).loc main_arg12) := by
  exact W6_keep m c (by decide) (by decide) (by decide) (by decide) (by decide) (by decide)
theorem W6_arg13 (c : Dev nD) : W6 m c (Proc.devRef .tc main_arg13) = m ((c.tc : Thread nD τ).loc main_arg13) := by
  exact W6_keep m c (by decide) (by decide) (by decide) (by decide) (by decide) (by decide)
theorem W6_arg14 (c : Dev nD) : W6 m c (Proc.devRef .tc main_arg14) = m ((c.tc : Thread nD τ).loc main_arg14) := by
  exact W6_keep m c (by decide) (by decide) (by decide) (by decide) (by decide) (by decide)

end Cert.ReferenceIdeal.RunP

end
-- ==== Proof.RFold.lean ====
/-
  The reference program's run with its result named: every weakly fair execution terminates with the result buffer at the
  last stage of the read module (RefRead.lean `val_main_v296`) of the arguments' launch contents, the arguments unchanged.
  The fold of the 340 operations' results (RefRun.lean `run_fold`) is read stretch by stretch: after each stretch the
  buffers that later stretches read hold their stages.
-/
import proofs.«401517_j58695023067400_1_alg».proof.Proof.RFoldA

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-! ## The arguments of the program, as variables

Each stage of the read module is a function of the arguments it depends on; the facts below are stated for arbitrary
values of the fifteen arguments and used at the launch contents. -/

variable {x0 x1 : (⟨S2048x32, .i32⟩ : BufTy).Contents (Elt Ideal)} {x2 : (⟨S100000x256, .f32⟩ : BufTy).Contents (Elt Ideal)}
  {x3 : (⟨S3, .f32⟩ : BufTy).Contents (Elt Ideal)} {x4 : (⟨S_, .f32⟩ : BufTy).Contents (Elt Ideal)}
  {x5 : (⟨S3, .f32⟩ : BufTy).Contents (Elt Ideal)} {x6 : (⟨S_, .f32⟩ : BufTy).Contents (Elt Ideal)}
  {x7 : (⟨S2x3, .f32⟩ : BufTy).Contents (Elt Ideal)} {x8 : (⟨S_, .f32⟩ : BufTy).Contents (Elt Ideal)}
  {x9 x10 : (⟨S32x256, .f32⟩ : BufTy).Contents (Elt Ideal)} {x11 : (⟨S512x64, .f32⟩ : BufTy).Contents (Elt Ideal)}
  {x12 : (⟨S64, .f32⟩ : BufTy).Contents (Elt Ideal)} {x13 : (⟨S64x2, .f32⟩ : BufTy).Contents (Elt Ideal)}
  {x14 : (⟨S2, .f32⟩ : BufTy).Contents (Elt Ideal)}

/-! ## What each stretch writes, and so what it keeps

Every operation writes one buffer, its result. A buffer that is not among a stretch's results holds after the stretch
what it held before. -/

/-- The buffers that the seventh stretch (the second attention matrix and its two sums) writes, in order. -/
private abbrev c7_W : List (Ref sig .tc) :=
  [main_v188, main_cst_16, main_v189, main_v190, main_cst_17, main_v191, main_v192, main_v193, main_v194, main_v195,
   main_v196, main_v197, main_cst_18, main_v198, main_v199, main_v200, main_cst_19, main_v201, main_v202, main_v203,
   main_cst_20, main_v204, main_v205, main_cst_21, main_v206, main_v207, main_cst_22, main_v208, main_cst_23, main_v209]

private theorem c7_writes : (ops_c7 (F := Ideal) : List (HloOp τ sig (Elt Ideal))).Forall fun op =>
    op.writes ⊆ (c7_W.map (Proc.devRef (τ := τ) .tc)).toFinset := by
  simp only [List.Forall, nullary_writes, unary_writes, binary_writes, Finset.singleton_subset_iff, List.mem_toFinset]
  repeat' apply And.intro
  all_goals exact List.mem_map_of_mem (by decide)

private theorem c7_keep {r : Ref sig .tc} (hr : r ∉ c7_W) (W : Valuation τ sig (Elt Ideal)) :
    after (ops_c7 (F := Ideal)) W (Proc.devRef .tc r) = W (Proc.devRef .tc r) :=
  after_of_writes_sub _ W c7_writes hr

/-- The buffers that the eighth stretch (the two re-weighted, pooled sequences) writes. -/
private abbrev c8_W : List (Ref sig .tc) :=
  [main_v210, main_v211, main_v212, main_v213, main_v214, main_v215, main_v216, main_v217, main_cst_24, main_v218, main_v219,
   main_v220, main_v221, main_v222, main_v223, main_v224, main_v225, main_v226, main_v227, main_cst_25, main_v228, main_v229]

private theorem c8_writes : (ops_c8 (F := Ideal) : List (HloOp τ sig (Elt Ideal))).Forall fun op =>
    op.writes ⊆ (c8_W.map (Proc.devRef (τ := τ) .tc)).toFinset := by
  simp only [List.Forall, nullary_writes, unary_writes, binary_writes, Finset.singleton_subset_iff, List.mem_toFinset]
  repeat' apply And.intro
  all_goals exact List.mem_map_of_mem (by decide)

private theorem c8_keep {r : Ref sig .tc} (hr : r ∉ c8_W) (W : Valuation τ sig (Elt Ideal)) :
    after (ops_c8 (F := Ideal)) W (Proc.devRef .tc r) = W (Proc.devRef .tc r) :=
  after_of_writes_sub _ W c8_writes hr

/-- The buffers that the ninth stretch (the first mean feature vector) writes. -/
private abbrev c9_W : List (Ref sig .tc) :=
  [main_c_26, main_call4_v0, main_v230, main_v231, main_v232, main_v233, main_v234, main_v235, main_v236, main_v237,
   main_v238, main_v239, main_v240, main_v241, main_v242, main_v243, main_v244, main_v245, main_v246, main_v247,
   main_v248, main_v249, main_cst_27, main_v250, main_cst_28, main_v251, main_v252]

private theorem c9_writes : (ops_c9 (F := Ideal) : List (HloOp τ sig (Elt Ideal))).Forall fun op =>
    op.writes ⊆ (c9_W.map (Proc.devRef (τ := τ) .tc)).toFinset := by
  simp only [List.Forall, nullary_writes, unary_writes, binary_writes, reshape_writes, Finset.singleton_subset_iff,
    List.mem_toFinset]
  repeat' apply And.intro
  all_goals exact List.mem_map_of_mem (by decide)

private theorem c9_keep {r : Ref sig .tc} (hr : r ∉ c9_W) (W : Valuation τ sig (Elt Ideal)) :
    after (ops_c9 (F := Ideal)) W (Proc.devRef .tc r) = W (Proc.devRef .tc r) :=
  after_of_writes_sub _ W c9_writes hr

/-- The buffers that the tenth stretch (the second mean feature vector) writes. -/
private abbrev c10_W : List (Ref sig .tc) :=
  [main_c_29, main_call5_v0, main_v253, main_v254, main_v255, main_v256, main_v257, main_v258, main_v259, main_v260,
   main_v261, main_v262, main_v263, main_v264, main_v265, main_v266, main_v267, main_v268, main_v269, main_v270,
   main_v271, main_v272, main_cst_30, main_v273, main_cst_31, main_v274, main_v275]

private theorem c10_writes : (ops_c10 (F := Ideal) : List (HloOp τ sig (Elt Ideal))).Forall fun op =>
    op.writes ⊆ (c10_W.map (Proc.devRef (τ := τ) .tc)).toFinset := by
  simp only [List.Forall, nullary_writes, unary_writes, binary_writes, reshape_writes, Finset.singleton_subset_iff,
    List.mem_toFinset]
  repeat' apply And.intro
  all_goals exact List.mem_map_of_mem (by decide)

private theorem c10_keep {r : Ref sig .tc} (hr : r ∉ c10_W) (W : Valuation τ sig (Elt Ideal)) :
    after (ops_c10 (F := Ideal)) W (Proc.devRef .tc r) = W (Proc.devRef .tc r) :=
  after_of_writes_sub _ W c10_writes hr

/-- The buffers that the eleventh stretch (the two dense layers) writes. -/
private abbrev c11_W : List (Ref sig .tc) :=
  [main_v276, main_v277, main_v278, main_v279, main_v280, main_v281, main_v282, main_v283, main_v284, main_v285]

private theorem c11_writes : (ops_c11 (F := Ideal) : List (HloOp τ sig (Elt Ideal))).Forall fun op =>
    op.writes ⊆ (c11_W.map (Proc.devRef (τ := τ) .tc)).toFinset := by
  simp only [List.Forall, nullary_writes, unary_writes, binary_writes, Finset.singleton_subset_iff, List.mem_toFinset]
  repeat' apply And.intro
  all_goals exact List.mem_map_of_mem (by decide)

private theorem c11_keep {r : Ref sig .tc} (hr : r ∉ c11_W) (W : Valuation τ sig (Elt Ideal)) :
    after (ops_c11 (F := Ideal)) W (Proc.devRef .tc r) = W (Proc.devRef .tc r) :=
  after_of_writes_sub _ W c11_writes hr

/-- The buffers that the twelfth stretch (the column-wise softmax) writes. -/
private abbrev c12_W : List (Ref sig .tc) :=
  [main_cst_32, main_v286, main_cst_33, main_v287, main_v288, main_v289, main_v290, main_v291, main_v292, main_cst_34,
   main_v293, main_v294, main_v295, main_v296]

private theorem c12_writes : (ops_c12 (F := Ideal) : List (HloOp τ sig (Elt Ideal))).Forall fun op =>
    op.writes ⊆ (c12_W.map (Proc.devRef (τ := τ) .tc)).toFinset := by
  simp only [List.Forall, nullary_writes, unary_writes, binary_writes, Finset.singleton_subset_iff, List.mem_toFinset]
  repeat' apply And.intro
  all_goals exact List.mem_map_of_mem (by decide)

private theorem c12_keep {r : Ref sig .tc} (hr : r ∉ c12_W) (W : Valuation τ sig (Elt Ideal)) :
    after (ops_c12 (F := Ideal)) W (Proc.devRef .tc r) = W (Proc.devRef .tc r) :=
  after_of_writes_sub _ W c12_writes hr

/-- The fifteen arguments. -/
private abbrev argRefs : List (Ref sig .tc) :=
  [main_arg0, main_arg1, main_arg2, main_arg3, main_arg4, main_arg5, main_arg6, main_arg7, main_arg8, main_arg9,
   main_arg10, main_arg11, main_arg12, main_arg13, main_arg14]

/-- None of the last six stretches writes an argument. -/
private theorem arg_not_written : ∀ r ∈ argRefs,
    r ∉ c7_W ∧ r ∉ c8_W ∧ r ∉ c9_W ∧ r ∉ c10_W ∧ r ∉ c11_W ∧ r ∉ c12_W := by
  decide

/-! ## The stretches, read as values

For a stretch and a buffer it writes: from any contents W that hold, at the buffers the stretch reads, the stages of the
read module (or the arguments), the contents after the stretch hold at that buffer its stage. One pass turns the fold over
the stretch's operations into their functions applied to W at the stretch's inputs; the inputs are rewritten to their
stages; and the stage on the right, with the stretch's own stages opened, is the same composition. The stages that come
from before the stretch are named by variables first, so that the comparison never opens them. -/

/-! ### Stretch 7: the squared distances of the two feature sequences' rows, the attention matrix 1 / (1 + distance),
and its sums over either index -/

/-- The stages of the seventh stretch up to the attention matrix, opened. -/
local macro "open_attention" : tactic =>
  `(tactic| unfold val_main_v207 val_main_v206 val_main_cst_21 val_main_v205 val_main_v204 val_main_cst_20 val_main_v203
      val_main_v202 val_main_v201 val_main_cst_19 val_main_v200 val_main_v199 val_main_v198 val_main_cst_18 val_main_v197
      val_main_v196 val_main_v195 val_main_v194 val_main_v193 val_main_v192 val_main_v191 val_main_cst_17 val_main_v190
      val_main_v189 val_main_cst_16 val_main_v188)

private theorem c7_v207 (W : Valuation τ sig (Elt Ideal))
    (h138 : W (Proc.devRef .tc main_v138) = val_main_v138 (F := Ideal) x0 x1 x2 x3 x4 x7 x8 x9)
    (h187 : W (Proc.devRef .tc main_v187) = val_main_v187 (F := Ideal) x0 x1 x2 x3 x4 x7 x8 x10) :
    after (ops_c7 (F := Ideal)) W (Proc.devRef .tc main_v207)
      = val_main_v207 (F := Ideal) x0 x1 x2 x3 x4 x7 x8 x9 x10 := by
  after_results_simp
  rw [h138, h187]
  open_attention
  generalize val_main_v138 (F := Ideal) x0 x1 x2 x3 x4 x7 x8 x9 = a
  generalize val_main_v187 (F := Ideal) x0 x1 x2 x3 x4 x7 x8 x10 = b
  rfl

private theorem c7_v208 (W : Valuation τ sig (Elt Ideal))
    (h138 : W (Proc.devRef .tc main_v138) = val_main_v138 (F := Ideal) x0 x1 x2 x3 x4 x7 x8 x9)
    (h187 : W (Proc.devRef .tc main_v187) = val_main_v187 (F := Ideal) x0 x1 x2 x3 x4 x7 x8 x10) :
    after (ops_c7 (F := Ideal)) W (Proc.devRef .tc main_v208)
      = val_main_v208 (F := Ideal) x0 x1 x2 x3 x4 x7 x8 x9 x10 := by
  after_results_simp
  rw [h138, h187]
  unfold val_main_v208 val_main_cst_22
  open_attention
  generalize val_main_v138 (F := Ideal) x0 x1 x2 x3 x4 x7 x8 x9 = a
  generalize val_main_v187 (F := Ideal) x0 x1 x2 x3 x4 x7 x8 x10 = b
  rfl

private theorem c7_v209 (W : Valuation τ sig (Elt Ideal))
    (h138 : W (Proc.devRef .tc main_v138) = val_main_v138 (F := Ideal) x0 x1 x2 x3 x4 x7 x8 x9)
    (h187 : W (Proc.devRef .tc main_v187) = val_main_v187 (F := Ideal) x0 x1 x2 x3 x4 x7 x8 x10) :
    after (ops_c7 (F := Ideal)) W (Proc.devRef .tc main_v209)
      = val_main_v209 (F := Ideal) x0 x1 x2 x3 x4 x7 x8 x9 x10 := by
  after_results_simp
  rw [h138, h187]
  unfold val_main_v209 val_main_cst_23
  open_attention
  generalize val_main_v138 (F := Ideal) x0 x1 x2 x3 x4 x7 x8 x9 = a
  generalize val_main_v187 (F := Ideal) x0 x1 x2 x3 x4 x7 x8 x10 = b
  rfl

/-! ### Stretch 8: each feature sequence scaled row by row by the attention's sums, then averaged over windows of three rows -/

private theorem c8_v219 (W : Valuation τ sig (Elt Ideal))
    (h138 : W (Proc.devRef .tc main_v138) = val_main_v138 (F := Ideal) x0 x1 x2 x3 x4 x7 x8 x9)
    (h208 : W (Proc.devRef .tc main_v208) = val_main_v208 (F := Ideal) x0 x1 x2 x3 x4 x7 x8 x9 x10) :
    after (ops_c8 (F := Ideal)) W (Proc.devRef .tc main_v219)
      = val_main_v219 (F := Ideal) x0 x1 x2 x3 x4 x7 x8 x9 x10 := by
  after_results_simp
  rw [h138, h208]
  unfold val_main_v219 val_main_v218 val_main_cst_24 val_main_v217 val_main_v216 val_main_v215 val_main_v214 val_main_v213
    val_main_v212 val_main_v211 val_main_v210
  generalize val_main_v138 (F := Ideal) x0 x1 x2 x3 x4 x7 x8 x9 = a
  generalize val_main_v208 (F := Ideal) x0 x1 x2 x3 x4 x7 x8 x9 x10 = s
  rfl

private theorem c8_v229 (W : Valuation τ sig (Elt Ideal))
    (h187 : W (Proc.devRef .tc main_v187) = val_main_v187 (F := Ideal) x0 x1 x2 x3 x4 x7 x8 x10)
    (h209 : W (Proc.devRef .tc main_v209) = val_main_v209 (F := Ideal) x0 x1 x2 x3 x4 x7 x8 x9 x10) :
    after (ops_c8 (F := Ideal)) W (Proc.devRef .tc main_v229)
      = val_main_v229 (F := Ideal) x0 x1 x2 x3 x4 x7 x8 x9 x10 := by
  after_results_simp
  rw [h187, h209]
  unfold val_main_v229 val_main_v228 val_main_cst_25 val_main_v227 val_main_v226 val_main_v225 val_main_v224 val_main_v223
    val_main_v222 val_main_v221 val_main_v220
  generalize val_main_v187 (F := Ideal) x0 x1 x2 x3 x4 x7 x8 x10 = b
  generalize val_main_v209 (F := Ideal) x0 x1 x2 x3 x4 x7 x8 x9 x10 = s
  rfl

/-! ### Stretches 9 and 10: a pooled sequence padded by two zero rows at either end, convolved with the three taps of the
second filter, shifted by its bias, and averaged over its thirty-four rows -/

private theorem c9_v252 (W : Valuation τ sig (Elt Ideal))
    (h219 : W (Proc.devRef .tc main_v219) = val_main_v219 (F := Ideal) x0 x1 x2 x3 x4 x7 x8 x9 x10)
    (h5 : W (Proc.devRef .tc main_arg5) = x5) (h6 : W (Proc.devRef .tc main_arg6) = x6) :
    after (ops_c9 (F := Ideal)) W (Proc.devRef .tc main_v252)
      = val_main_v252 (F := Ideal) x0 x1 x2 x3 x4 x5 x6 x7 x8 x9 x10 := by
  after_results_simp
  rw [h219, h5, h6]
  unfold val_main_v252 val_main_v251 val_main_cst_28 val_main_v250 val_main_cst_27 val_main_v249 val_main_v248 val_main_v247
    val_main_v246 val_main_v245 val_main_v244 val_main_v243 val_main_v242 val_main_v241 val_main_v240 val_main_v239
    val_main_v238 val_main_v237 val_main_v236 val_main_v235 val_main_v234 val_main_v233 val_main_v232 val_main_v231
    val_main_v230 val_main_call4_v0 val_main_c_26
  generalize val_main_v219 (F := Ideal) x0 x1 x2 x3 x4 x7 x8 x9 x10 = a
  rfl

private theorem c10_v275 (W : Valuation τ sig (Elt Ideal))
    (h229 : W (Proc.devRef .tc main_v229) = val_main_v229 (F := Ideal) x0 x1 x2 x3 x4 x7 x8 x9 x10)
    (h5 : W (Proc.devRef .tc main_arg5) = x5) (h6 : W (Proc.devRef .tc main_arg6) = x6) :
    after (ops_c10 (F := Ideal)) W (Proc.devRef .tc main_v275)
      = val_main_v275 (F := Ideal) x0 x1 x2 x3 x4 x5 x6 x7 x8 x9 x10 := by
  after_results_simp
  rw [h229, h5, h6]
  unfold val_main_v275 val_main_v274 val_main_cst_31 val_main_v273 val_main_cst_30 val_main_v272 val_main_v271 val_main_v270
    val_main_v269 val_main_v268 val_main_v267 val_main_v266 val_main_v265 val_main_v264 val_main_v263 val_main_v262
    val_main_v261 val_main_v260 val_main_v259 val_main_v258 val_main_v257 val_main_v256 val_main_v255 val_main_v254
    val_main_v253 val_main_call5_v0 val_main_c_29
  generalize val_main_v229 (F := Ideal) x0 x1 x2 x3 x4 x7 x8 x9 x10 = b
  rfl

/-! ### Stretch 11: the two mean vectors side by side, through the hidden layer and the output layer -/

private theorem c11_v285 (W : Valuation τ sig (Elt Ideal))
    (h252 : W (Proc.devRef .tc main_v252) = val_main_v252 (F := Ideal) x0 x1 x2 x3 x4 x5 x6 x7 x8 x9 x10)
    (h275 : W (Proc.devRef .tc main_v275) = val_main_v275 (F := Ideal) x0 x1 x2 x3 x4 x5 x6 x7 x8 x9 x10)
    (h11 : W (Proc.devRef .tc main_arg11) = x11) (h12 : W (Proc.devRef .tc main_arg12) = x12)
    (h13 : W (Proc.devRef .tc main_arg13) = x13) (h14 : W (Proc.devRef .tc main_arg14) = x14) :
    after (ops_c11 (F := Ideal)) W (Proc.devRef .tc main_v285)
      = val_main_v285 (F := Ideal) x0 x1 x2 x3 x4 x5 x6 x7 x8 x9 x10 x11 x12 x13 x14 := by
  after_results_simp
  rw [h252, h275, h11, h12, h13, h14]
  unfold val_main_v285 val_main_v284 val_main_v283 val_main_v282 val_main_v281 val_main_v280 val_main_v279 val_main_v278
    val_main_v277 val_main_v276
  generalize val_main_v252 (F := Ideal) x0 x1 x2 x3 x4 x5 x6 x7 x8 x9 x10 = a
  generalize val_main_v275 (F := Ideal) x0 x1 x2 x3 x4 x5 x6 x7 x8 x9 x10 = b
  rfl

/-! ### Stretch 12: the softmax down each of the two columns -/

private theorem c12_v296 (W : Valuation τ sig (Elt Ideal))
    (h285 : W (Proc.devRef .tc main_v285) = val_main_v285 (F := Ideal) x0 x1 x2 x3 x4 x5 x6 x7 x8 x9 x10 x11 x12 x13 x14) :
    after (ops_c12 (F := Ideal)) W (Proc.devRef .tc main_v296)
      = val_main_v296 (F := Ideal) x0 x1 x2 x3 x4 x5 x6 x7 x8 x9 x10 x11 x12 x13 x14 := by
  after_results_simp
  rw [h285]
  unfold val_main_v296 val_main_v295 val_main_v294 val_main_v293 val_main_cst_34 val_main_v292 val_main_v291 val_main_v290
    val_main_v289 val_main_v288 val_main_v287 val_main_cst_33 val_main_v286 val_main_cst_32
  generalize val_main_v285 (F := Ideal) x0 x1 x2 x3 x4 x5 x6 x7 x8 x9 x10 x11 x12 x13 x14 = a
  rfl

/-! ## The six stretches in a row -/

/-- The contents after the last six stretches, from contents V. -/
private abbrev tail (V : Valuation τ sig (Elt Ideal)) : Valuation τ sig (Elt Ideal) :=
  after (ops_c12 (F := Ideal)) (after (ops_c11 (F := Ideal)) (after (ops_c10 (F := Ideal)) (after (ops_c9 (F := Ideal))
    (after (ops_c8 (F := Ideal)) (after (ops_c7 (F := Ideal)) V)))))

/-- An argument holds after the six stretches what it held before them. -/
private theorem tail_arg (V : Valuation τ sig (Elt Ideal)) (r : Ref sig .tc) (hr : r ∈ argRefs) :
    tail V (Proc.devRef .tc r) = V (Proc.devRef .tc r) := by
  obtain ⟨h7, h8, h9, h10, h11, h12⟩ := arg_not_written r hr
  exact (c12_keep h12 _).trans ((c11_keep h11 _).trans ((c10_keep h10 _).trans ((c9_keep h9 _).trans
    ((c8_keep h8 _).trans (c7_keep h7 V)))))

/-- From contents that hold the two feature sequences' stages and the arguments, the result buffer holds the last stage
    after the six stretches: each stretch's inputs are either results of the stretch before, or buffers written earlier
    that the stretches between have kept. -/
private theorem tail_v296 (V : Valuation τ sig (Elt Ideal))
    (h138 : V (Proc.devRef .tc main_v138) = val_main_v138 (F := Ideal) x0 x1 x2 x3 x4 x7 x8 x9)
    (h187 : V (Proc.devRef .tc main_v187) = val_main_v187 (F := Ideal) x0 x1 x2 x3 x4 x7 x8 x10)
    (h5 : V (Proc.devRef .tc main_arg5) = x5) (h6 : V (Proc.devRef .tc main_arg6) = x6)
    (h11 : V (Proc.devRef .tc main_arg11) = x11) (h12 : V (Proc.devRef .tc main_arg12) = x12)
    (h13 : V (Proc.devRef .tc main_arg13) = x13) (h14 : V (Proc.devRef .tc main_arg14) = x14) :
    tail V (Proc.devRef .tc main_v296)
      = val_main_v296 (F := Ideal) x0 x1 x2 x3 x4 x5 x6 x7 x8 x9 x10 x11 x12 x13 x14 := by
  obtain ⟨a5_7, a5_8, a5_9, -, -, -⟩ := arg_not_written main_arg5 (by decide)
  obtain ⟨a6_7, a6_8, a6_9, -, -, -⟩ := arg_not_written main_arg6 (by decide)
  obtain ⟨a11_7, a11_8, a11_9, a11_10, -, -⟩ := arg_not_written main_arg11 (by decide)
  obtain ⟨a12_7, a12_8, a12_9, a12_10, -, -⟩ := arg_not_written main_arg12 (by decide)
  obtain ⟨a13_7, a13_8, a13_9, a13_10, -, -⟩ := arg_not_written main_arg13 (by decide)
  obtain ⟨a14_7, a14_8, a14_9, a14_10, -, -⟩ := arg_not_written main_arg14 (by decide)
  -- after stretch 7
  have e208 := c7_v208 V h138 h187
  have e209 := c7_v209 V h138 h187
  have k138 := (c7_keep (r := main_v138) (by decide) V).trans h138
  have k187 := (c7_keep (r := main_v187) (by decide) V).trans h187
  -- after stretch 8
  have e219 := c8_v219 _ k138 e208
  have e229 := c8_v229 _ k187 e209
  have k5 := (c8_keep a5_8 _).trans ((c7_keep a5_7 V).trans h5)
  have k6 := (c8_keep a6_8 _).trans ((c7_keep a6_7 V).trans h6)
  -- after stretch 9
  have e252 := c9_v252 _ e219 k5 k6
  have k229 := (c9_keep (r := main_v229) (by decide) _).trans e229
  have k5' := (c9_keep a5_9 _).trans k5
  have k6' := (c9_keep a6_9 _).trans k6
  -- after stretch 10
  have e275 := c10_v275 _ k229 k5' k6'
  have k252 := (c10_keep (r := main_v252) (by decide) _).trans e252
  have k11 := (c10_keep a11_10 _).trans ((c9_keep a11_9 _).trans ((c8_keep a11_8 _).trans ((c7_keep a11_7 V).trans h11)))
  have k12 := (c10_keep a12_10 _).trans ((c9_keep a12_9 _).trans ((c8_keep a12_8 _).trans ((c7_keep a12_7 V).trans h12)))
  have k13 := (c10_keep a13_10 _).trans ((c9_keep a13_9 _).trans ((c8_keep a13_8 _).trans ((c7_keep a13_7 V).trans h13)))
  have k14 := (c10_keep a14_10 _).trans ((c9_keep a14_9 _).trans ((c8_keep a14_8 _).trans ((c7_keep a14_7 V).trans h14)))
  -- after stretches 11 and 12
  exact c12_v296 _ (c11_v285 _ k252 e275 k11 k12 k13 k14)

/-! ## The run -/

/-- The fold over all 340 operations is the fold over the last six stretches of the contents after the first six. -/
private theorem ops_split (m : (ℓ : Loc nD τ sig) → Buf (Elt Ideal) ℓ) (c : Dev nD) :
    after (ops (F := Ideal)) (launchContents m c) = tail (W6 m c) := by
  simp only [ops, after_append, after_nil, tail, W6]

/-- The run, with the result at the read module's last stage. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v296)
        = val_main_v296 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ?_) (run_fold (F := Ideal) m ρ)
  have hr : ∀ b : Ref sig .tc, r.2.mem ((c.tc : Thread nD τ).loc b) = tail (W6 m c) (Proc.devRef .tc b) :=
    fun b => (h c b).trans (congrFun (ops_split m c) _)
  exact ⟨(hr _).trans (tail_v296 _ (W6_v138 m c) (W6_v187 m c) (W6_arg5 m c) (W6_arg6 m c) (W6_arg11 m c) (W6_arg12 m c)
      (W6_arg13 m c) (W6_arg14 m c)),
    (hr _).trans ((tail_arg _ _ (by decide)).trans (W6_arg0 m c)),
    (hr _).trans ((tail_arg _ _ (by decide)).trans (W6_arg1 m c)),
    (hr _).trans ((tail_arg _ _ (by decide)).trans (W6_arg2 m c)),
    (hr _).trans ((tail_arg _ _ (by decide)).trans (W6_arg3 m c)),
    (hr _).trans ((tail_arg _ _ (by decide)).trans (W6_arg4 m c)),
    (hr _).trans ((tail_arg _ _ (by decide)).trans (W6_arg5 m c)),
    (hr _).trans ((tail_arg _ _ (by decide)).trans (W6_arg6 m c)),
    (hr _).trans ((tail_arg _ _ (by decide)).trans (W6_arg7 m c)),
    (hr _).trans ((tail_arg _ _ (by decide)).trans (W6_arg8 m c)),
    (hr _).trans ((tail_arg _ _ (by decide)).trans (W6_arg9 m c)),
    (hr _).trans ((tail_arg _ _ (by decide)).trans (W6_arg10 m c)),
    (hr _).trans ((tail_arg _ _ (by decide)).trans (W6_arg11 m c)),
    (hr _).trans ((tail_arg _ _ (by decide)).trans (W6_arg12 m c)),
    (hr _).trans ((tail_arg _ _ (by decide)).trans (W6_arg13 m c)),
    (hr _).trans ((tail_arg _ _ (by decide)).trans (W6_arg14 m c))⟩

end Cert.ReferenceIdeal.RunP

end
-- ==== Proof.lean ====
/-
  The certificate of the fused sentence-pair kernel against its plain reference.

  Both programs gather the rows of an embedding table that two index arrays name, and map each of the 2048 pairs of
  gathered sentences to two logits by one and the same function of that pair alone (Proof/Spec.lean `rowLogits`: width-3
  convolutions over a zero border, width-3 average pooling, two Euclidean-distance attentions, a two-input convolution,
  re-weighting by the attention's row and column sums, a mean over the sequence and two dense layers); both then take the
  softmax down each column of the [2048, 2] logits. The kernel does the per-pair map for 64 pairs at each of 32 grid
  points; the reference does it for all pairs at once. At the extended reals the two agree stage by stage: a change of float
  format is the identity, a product with the named third is a quotient by three, a matrix product into a zero accumulator is
  the host's dot product, and a sum that starts from zero is the sum.

  The one place where the programs differ is the gather itself: outside the index range the kernel's gather fills with a
  not-a-number pattern where the reference's clamps. Both count a negative index from the end, so they agree exactly when
  every index lies in [-100000, 100000): that is the precondition's added conjunct, and it is used only to see that the
  kernel's bounds mask is all ones.
-/
import proofs.«401517_j58695023067400_1_alg».proof.Defs
import proofs.«401517_j58695023067400_1_alg».proof.Proof.Gen.Kernel
import proofs.«401517_j58695023067400_1_alg».proof.Proof.Gen.Kernel.Skeleton
import proofs.«401517_j58695023067400_1_alg».proof.Proof.Gen.Kernel.Launch
import proofs.«401517_j58695023067400_1_alg».proof.Proof.Gen.Kernel.Points
import proofs.«401517_j58695023067400_1_alg».proof.Proof.Gen.Kernel.Frame
import proofs.«401517_j58695023067400_1_alg».proof.Proof.Gen.KernelIdeal
import proofs.«401517_j58695023067400_1_alg».proof.Proof.Gen.KernelIdeal.Skeleton
import proofs.«401517_j58695023067400_1_alg».proof.Proof.Gen.KernelIdeal.Launch
import proofs.«401517_j58695023067400_1_alg».proof.Proof.Gen.KernelIdeal.Points
import proofs.«401517_j58695023067400_1_alg».proof.Proof.Gen.KernelIdeal.Frame
import proofs.«401517_j58695023067400_1_alg».proof.Proof.Gen.ReferenceIdeal
import proofs.«401517_j58695023067400_1_alg».proof.Proof.Gen.Pre_finite_inputs
import proofs.«401517_j58695023067400_1_alg».proof.Proof.Bridge
import proofs.«401517_j58695023067400_1_alg».proof.Proof.PreDecode
import proofs.«401517_j58695023067400_1_alg».proof.Proof.RFold
import Idealize.ShloMosaic.Adequacy
import Idealize.ShloMosaic.Init

noncomputable section

namespace Cert.Proof

open Idealize.ShloMosaic Idealize.ShloMosaic.ValueIdx Idealize.SL.Sem

/-- The two frames of the kernel, as printed and idealized: every execution terminates, nothing faults, the arguments end
    unchanged. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.ref_run m ρ)

/-- The idealization named one constant, four times: the pooling's third, which the table gives the value 1/3. -/
theorem preserves : Cert.preserves_Kernel_KernelIdeal :=
  have s := IdealRules.named_const.statement Cert.KernelIdeal.κ "inv_3" .f32 0x3EAAAAAB#32 ((1 / 3 : ℝ) : EReal) rfl
  ⟨s, s, s, s⟩

/-- From memories that agree on the arguments, the reference's last stage is the softmax of the kernel's logits: the
    reference's last stage is the softmax of its logits, and its logits at pair `b` and the kernel's are the one per-pair
    function of row `b` of the same two gathered arrays. -/
theorem result_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v296 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.KVal.tail (Cert.KernelIdeal.KVal.logits m c) := by
  rw [Cert.Bridge.v296_eq_tail]
  refine congrArg Cert.KernelIdeal.KVal.tail (funext fun j => ?_)
  obtain ⟨b, k, rfl⟩ : ∃ (b : Fin 2048) (k : Fin 2), j = ix2 b k := ⟨j 0, j 1, eq_ix2 j⟩
  rw [Cert.ReferenceIdeal.Stages.ref_logits, ← Cert.Bridge.gathered_eq_v6, ← Cert.Bridge.gathered_eq_v13]
  rfl

/-- Both idealized programs run, from memories agreeing on the arguments, to the same result. -/
theorem algebraic : Cert.algebraic_KernelIdeal_ReferenceIdeal := by
  intro m ρ m' ρ' hpre hagree
  refine ⟨fun c => Cert.KernelIdeal.KVal.tail (Cert.KernelIdeal.KVal.logits m c),
    Cert.KernelIdeal.KVal.kernel_run m ρ (fun c => (Cert.KernelIdeal.KVal.range_of_pre m hpre c).1)
      (fun c => (Cert.KernelIdeal.KVal.range_of_pre m hpre c).2), ?_⟩
  refine (θ_run Cert.ReferenceIdeal.defs _ _).mono (fun _ h c => ⟨(h c).1.trans ?_, (h c).2⟩)
    (Cert.ReferenceIdeal.RunP.ref_run m' ρ')
  obtain ⟨h0, h1, h2, h3, h4, h5, h6, h7, h8, h9, h10, h11, h12, h13, h14⟩ := hagree c
  rw [h0, h1, h2, h3, h4, h5, h6, h7, h8, h9, h10, h11, h12, h13, h14]
  exact result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
